-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v38)) (v2 : (c : Dev Cert.KernelIdeal.nD) → Buf (Elt Ideal) ((c.tc : Thread Cert.KernelIdeal.nD Cert.KernelIdeal.τ).loc Cert.KernelIdeal.main_v40)) (v3 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_v40) = v2 c
          ∧ r.2.mem ((c.tc : Thread Cert.KernelIdeal.nD Cert.KernelIdeal.τ).loc Cert.KernelIdeal.main_v42) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v24) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S2048x1024 : Shape := ⟨2, ![2048, 1024]⟩
abbrev S2048 : Shape := ⟨1, ![2048]⟩
abbrev S1024x1024 : Shape := ⟨2, ![1024, 1024]⟩
abbrev S8x1024 : Shape := ⟨2, ![8, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8x4096x1024 .f32) (main_arg1 : FVec F S2048x1024 .f32) (main_arg2 : FVec F S2048 .f32) (main_arg3 : FVec F S1024x1024 .f32) (main_arg4 : IVec S8x1024 32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8x4096x1024 : Shape := ⟨3, ![8, 4096, 1024]⟩
abbrev S2048x1024 : Shape := ⟨2, ![2048, 1024]⟩
abbrev S2048 : Shape := ⟨1, ![2048]⟩
abbrev S1024x1024 : Shape := ⟨2, ![1024, 1024]⟩
abbrev S8x1024 : Shape := ⟨2, ![8, 1024]⟩
abbrev S32768x1024 : Shape := ⟨2, ![32768, 1024]⟩
abbrev S1x2048 : Shape := ⟨2, ![1, 2048]⟩
abbrev S32768x2048 : Shape := ⟨2, ![32768, 2048]⟩
abbrev S2048x2048 : Shape := ⟨2, ![2048, 2048]⟩
abbrev S8x4096x2048 : Shape := ⟨3, ![8, 4096, 2048]⟩
abbrev S8x1024x1 : Shape := ⟨3, ![8, 1024, 1]⟩
abbrev S_ : Shape := ⟨0, ![]⟩
abbrev S1 : Shape := ⟨1, ![1]⟩
abbrev S1x1x1 : Shape := ⟨3, ![1, 1, 1]⟩
abbrev S8x1024x1024 : Shape := ⟨3, ![8, 1024, 1024]⟩
abbrev S8192x1024 : Shape := ⟨2, ![8192, 1024]⟩
abbrev S2x1024x1024 : Shape := ⟨3, ![2, 1024, 1024]⟩
abbrev S2x1x1024 : Shape := ⟨3, ![2, 1, 1024]⟩
abbrev S2x1x128 : Shape := ⟨3, ![2, 1, 128]⟩
abbrev S1x1024x1024 : Shape := ⟨3, ![1, 1024, 1024]⟩
abbrev S1x1x1024 : Shape := ⟨3, ![1, 1, 1024]⟩
abbrev S1x1x128 : Shape := ⟨3, ![1, 1, 128]⟩
abbrev S1x1024 : Shape := ⟨2, ![1, 1024]⟩
abbrev S1x128 : Shape := ⟨2, ![1, 128]⟩
abbrev S1024 : Shape := ⟨1, ![1024]⟩
abbrev S1024x1 : Shape := ⟨2, ![1024, 1]⟩
abbrev S1x1024x1 : Shape := ⟨3, ![1, 1024, 1]⟩
abbrev S2x1x1 : Shape := ⟨3, ![2, 1, 1]⟩
abbrev S2 : Shape := ⟨1, ![2]⟩

abbrev nBuf : Space → Nat
  | .hbm => 97
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S2048x1024, .f32⟩
  | .hbm, ⟨2, _⟩ => ⟨S2048, .f32⟩
  | .hbm, ⟨3, _⟩ => ⟨S1024x1024, .f32⟩
  | .hbm, ⟨4, _⟩ => ⟨S8x1024, .i32⟩
  | .hbm, ⟨5, _⟩ => ⟨S2048x1024, .f32⟩
  | .hbm, ⟨6, _⟩ => ⟨S2048x1024, .bf16⟩
  | .hbm, ⟨7, _⟩ => ⟨S32768x1024, .f32⟩
  | .hbm, ⟨8, _⟩ => ⟨S1x2048, .f32⟩
  | .hbm, ⟨9, _⟩ => ⟨S32768x2048, .f32⟩
  | .hbm, ⟨10, _⟩ => ⟨S8x4096x2048, .f32⟩
  | .hbm, ⟨11, _⟩ => ⟨S8x1024x1, .i32⟩
  | .hbm, ⟨12, _⟩ => ⟨S_, .i32⟩
  | .hbm, ⟨13, _⟩ => ⟨S8x1024x1, .i32⟩
  | .hbm, ⟨14, _⟩ => ⟨S8x1024x1, .i1⟩
  | .hbm, ⟨15, _⟩ => ⟨S_, .i32⟩
  | .hbm, ⟨16, _⟩ => ⟨S8x1024x1, .i32⟩
  | .hbm, ⟨17, _⟩ => ⟨S8x1024x1, .i32⟩
  | .hbm, ⟨18, _⟩ => ⟨S8x1024x1, .i32⟩
  | .hbm, ⟨19, _⟩ => ⟨S1, .i32⟩
  | .hbm, ⟨20, _⟩ => ⟨S_, .i32⟩
  | .hbm, ⟨21, _⟩ => ⟨S8x1024x1, .i32⟩
  | .hbm, ⟨22, _⟩ => ⟨S8x1024x1, .i1⟩
  | .hbm, ⟨23, _⟩ => ⟨S1x1x1, .i32⟩
  | .hbm, ⟨24, _⟩ => ⟨S8x1024x1, .i32⟩
  | .hbm, ⟨25, _⟩ => ⟨S8x1024x1, .i1⟩
  | .hbm, ⟨26, _⟩ => ⟨S8x1024x1, .i1⟩
  | .hbm, ⟨27, _⟩ => ⟨S_, .i1⟩
  | .hbm, ⟨28, _⟩ => ⟨S8x1024, .i1⟩
  | .hbm, ⟨29, _⟩ => ⟨S8x1024x1024, .f32⟩
  | .hbm, ⟨30, _⟩ => ⟨S8x1024x1024, .i1⟩
  | .hbm, ⟨31, _⟩ => ⟨S_, .f32⟩
  | .hbm, ⟨32, _⟩ => ⟨S8x1024x1024, .f32⟩
  | .hbm, ⟨33, _⟩ => ⟨S8x1024x1024, .f32⟩
  | .hbm, ⟨34, _⟩ => ⟨S8x1024x1024, .bf16⟩
  | .hbm, ⟨35, _⟩ => ⟨S8192x1024, .bf16⟩
  | .hbm, ⟨36, _⟩ => ⟨S1024x1024, .bf16⟩
  | .hbm, ⟨37, _⟩ => ⟨S2x1024x1024, .f32⟩
  | .hbm, ⟨38, _⟩ => ⟨S2x1x1024, .f32⟩
  | .hbm, ⟨39, _⟩ => ⟨S2x1x128, .f32⟩
  | .hbm, ⟨40, _⟩ => ⟨S2x1x128, .f32⟩
  | .hbm, ⟨41, _⟩ => ⟨S_, .f32⟩
  | .hbm, ⟨42, _⟩ => ⟨S1024x1024, .f32⟩
  | .hbm, ⟨43, _⟩ => ⟨S_, .f32⟩
  | .hbm, ⟨44, _⟩ => ⟨S1x1024, .f32⟩
  | .hbm, ⟨45, _⟩ => ⟨S2x1x1, .f32⟩
  | .hbm, ⟨46, _⟩ => ⟨S2, .f32⟩
  | .hbm, ⟨47, _⟩ => ⟨S_, .f32⟩
  | .hbm, ⟨48, _⟩ => ⟨S_, .f32⟩
  | .hbm, ⟨49, _⟩ => ⟨S2x1x1, .f32⟩
  | .hbm, ⟨50, _⟩ => ⟨S2, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S1024x1024, .f32⟩
  | .hbm, ⟨55, _⟩ => ⟨S1024x1024, .f32⟩
  | .hbm, ⟨56, _⟩ => ⟨S1024, .f32⟩
  | .hbm, ⟨57, _⟩ => ⟨S_, .f32⟩
  | .hbm, ⟨58, _⟩ => ⟨S1024, .f32⟩
  | .hbm, ⟨59, _⟩ => ⟨S1024, .f32⟩
  | .hbm, ⟨60, _⟩ => ⟨S1024x1024, .i32⟩
  | .hbm, ⟨61, _⟩ => ⟨S1024x1024, .i32⟩
  | .hbm, ⟨62, _⟩ => ⟨S_, .i32⟩
  | .hbm, ⟨63, _⟩ => ⟨S1024x1024, .i32⟩
  | .hbm, ⟨64, _⟩ => ⟨S1024x1024, .i32⟩
  | .hbm, ⟨65, _⟩ => ⟨S1024x1024, .i1⟩
  | .hbm, ⟨66, _⟩ => ⟨S1024x1024, .f32⟩
  | .hbm, ⟨67, _⟩ => ⟨S_, .f32⟩
  | .hbm, ⟨68, _⟩ => ⟨S1024, .f32⟩
  | .hbm, ⟨69, _⟩ => ⟨S1024x1024, .i32⟩
  | .hbm, ⟨70, _⟩ => ⟨S1024x1024, .i32⟩
  | .hbm, ⟨71, _⟩ => ⟨S_, .i32⟩
  | .hbm, ⟨72, _⟩ => ⟨S1024x1024, .i32⟩
  | .hbm, ⟨73, _⟩ => ⟨S1024x1024, .i32⟩
  | .hbm, ⟨74, _⟩ => ⟨S1024x1024, .i1⟩
  | .hbm, ⟨75, _⟩ => ⟨S1024x1, .f32⟩
  | .hbm, ⟨76, _⟩ => ⟨S_, .f32⟩
  | .hbm, ⟨77, _⟩ => ⟨S1024x1024, .f32⟩
  | .hbm, ⟨78, _⟩ => ⟨S1024x1024, .f32⟩
  | .hbm, ⟨79, _⟩ => ⟨S1024x1024, .f32⟩
  | .hbm, ⟨80, _⟩ => ⟨S1024x1024, .f32⟩
  | .hbm, ⟨81, _⟩ => ⟨S_, .f32⟩
  | .hbm, ⟨82, _⟩ => ⟨S1024x1024, .f32⟩
  | .hbm, ⟨83, _⟩ => ⟨S1024x1024, .f32⟩
  | .hbm, ⟨84, _⟩ => ⟨S1024x1024, .f32⟩
  | .hbm, ⟨85, _⟩ => ⟨S_, .f32⟩
  | .hbm, ⟨86, _⟩ => ⟨S1024x1024, .f32⟩
  | .hbm, ⟨87, _⟩ => ⟨S1024x1024, .f32⟩
  | .hbm, ⟨88, _⟩ => ⟨S1024x1024, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S1x2048, .f32⟩
  | .local _ .vmem, ⟨4, _⟩ => ⟨S2048x2048, .f32⟩
  | .local _ .vmem, ⟨5, _⟩ => ⟨S2048x2048, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024x1024, .f32⟩
  | .local _ .vmem, ⟨10, _⟩ => ⟨S1x1024x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_c_2 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_c_3 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_cst : Ref sig .tc := ⟨.hbm, 31, rfl⟩
abbrev main_call0_v14 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11_0 : Ref sig .tc := ⟨.hbm, 37, rfl⟩
abbrev main_v11_1 : Ref sig .tc := ⟨.hbm, 38, rfl⟩
abbrev main_v11_2 : Ref sig .tc := ⟨.hbm, 39, rfl⟩
abbrev main_v11_3 : Ref sig .tc := ⟨.hbm, 40, rfl⟩
abbrev main_cst : Ref sig .tc := ⟨.hbm, 41, rfl⟩
abbrev main_v12 : Ref sig .tc := ⟨.hbm, 42, rfl⟩
abbrev main_cst_0 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst_1 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_cst_2 : Ref sig .tc := ⟨.hbm, 51, rfl⟩
abbrev main_v19 : Ref sig .tc := ⟨.hbm, 52, rfl⟩
abbrev main_cst_3 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_cst_4 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_c : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_call1_cst : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_c : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_cst_0 : Ref sig .tc := ⟨.hbm, 76, rfl⟩
abbrev main_call1_call0_v0 : Ref sig .tc := ⟨.hbm, 77, rfl⟩
abbrev main_call1_call0_v1 : Ref sig .tc := ⟨.hbm, 78, rfl⟩
abbrev main_v31 : Ref sig .tc := ⟨.hbm, 79, rfl⟩
abbrev main_v32 : Ref sig .tc := ⟨.hbm, 80, rfl⟩
abbrev main_cst_5 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_cst_6 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_cst_7 : Ref sig .tc := ⟨.hbm, 89, rfl⟩
abbrev main_v39 : Ref sig .tc := ⟨.hbm, 90, rfl⟩
abbrev main_cst_8 : Ref sig .tc := ⟨.hbm, 91, rfl⟩
abbrev main_v40 : Ref sig .tc := ⟨.hbm, 92, rfl⟩
abbrev main_cst_9 : Ref sig .tc := ⟨.hbm, 93, rfl⟩
abbrev main_v41 : Ref sig .tc := ⟨.hbm, 94, rfl⟩
abbrev main_cst_10 : Ref sig .tc := ⟨.hbm, 95, rfl⟩
abbrev main_v42 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bitsLt_bf16_f32 : FTy.bits .bf16 < FTy.bits .f32
  shapeCasts_S8x4096x1024_S32768x1024 : S8x4096x1024.ShapeCasts S32768x1024
  shapeCasts_S2048_S1x2048 : S2048.ShapeCasts S1x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  inb_S2048x2048_S2048x2048_0_0 : ∀ a, (![0, 0] : Fin 2 → Nat) a + S2048x2048.size a ≤ S2048x2048.size a
  h_S2048x2048 : 0 < S2048x2048.numel
  shapeCasts_S32768x2048_S8x4096x2048 : S32768x2048.ShapeCasts S8x4096x2048
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  bcast_S1_S1x1x1_2 : S1.BroadcastsInDim S1x1x1 (![2] : Fin 1 → Fin S1x1x1.rank)
  bcast_S1x1x1_S8x1024x1_0_1_2 : S1x1x1.BroadcastsInDim S8x1024x1 (![0, 1, 2] : Fin 3 → Fin S8x1024x1.rank)
  reducesTo_S8x1024x1_S8x1024_d2 : S8x1024x1.ReducesTo [2] S8x1024
  h_S_ : 0 < S_.numel
  bcast_S8x1024_S8x1024x1024_0_1 : S8x1024.BroadcastsInDim S8x1024x1024 (![0, 1] : Fin 2 → Fin S8x1024x1024.rank)
  bcast_S_S8x1024x1024 : S_.BroadcastsInDim S8x1024x1024 (![] : Fin 0 → Fin S8x1024x1024.rank)
  shapeCasts_S8x1024x1024_S8192x1024 : S8x1024x1024.ShapeCasts S8192x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  shapeCasts_S1024x1_S1x1024x1 : S1024x1.ShapeCasts S1x1024x1
  reduces_S1x1024x1_S1 : S1x1024x1.Reduces [1, 2] S1
  shapeCasts_S1_S1x1x1 : S1.ShapeCasts S1x1x1
  inpos_S1x1x1_p0_0_0 : ∀ a, (![0, 0, 0] : Fin 3 → Nat) a < S1x1x1.size a
  reduces_S1x1024x1024_S1 : S1x1024x1024.Reduces [1, 2] S1
  reduces_S1024x1024_S1024_2 : S1024x1024.Reduces [0] S1024
  shapeCasts_S1024_S1x1024 : S1024.ShapeCasts S1x1024
  reducesTo_S2x1024x1024_S1024x1024_d0 : S2x1024x1024.ReducesTo [0] S1024x1024
  reducesTo_S2x1x1024_S1x1024_d0 : S2x1x1024.ReducesTo [0] S1x1024
  slices_S2x1x128_S2x1x1_0_0_0 : S2x1x128.Slices ![0, 0, 0] S2x1x1
  shapeCasts_S2x1x1_S2 : S2x1x1.ShapeCasts S2
  reducesTo_S2_S_d0 : S2.ReducesTo [0] S_
  bcast_S_S1024x1024 : S_.BroadcastsInDim S1024x1024 (![] : Fin 0 → Fin S1024x1024.rank)
  shapeCasts_S1x1024_S1024 : S1x1024.ShapeCasts S1024
  bcast_S_S1024 : S_.BroadcastsInDim S1024 (![] : Fin 0 → Fin S1024.rank)
  pads_S1024_S1024_000 : S1024.Pads (![0] : Fin 1 → Nat) ![0] ![0] S1024
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  dot_S2048x1024_S1024x1024_S2048x1024_1_0_0_1_n_n_wf : DotDims.WF S2048x1024 S1024x1024 S2048x1024 [1] [0] [0] [1] [] []
  dot_S2048x1024_S2048x1024_S2048x2048_1_1_0_0_n_n_wf : DotDims.WF S2048x1024 S2048x1024 S2048x2048 [1] [1] [0] [0] [] []
  gather_S8x4096x1024_S8x1024x1_S8x1024x1024_2_1_0_0_1_2_111024_wf : GatherDims.WF S8x4096x1024 S8x1024x1 S8x1024x1024 [2] [1] [0] [1] [0] 2 ![1, 1, 1024]
  dot_S1024x1024_S1024x1024_S1024x1024_1_1_0_0_n_n_wf : DotDims.WF S1024x1024 S1024x1024 S1024x1024 [1] [1] [0] [0] [] []
  dot_S1024x1024_S1024x1024_S1024x1024_0_0_1_1_n_n_wf : DotDims.WF S1024x1024 S1024x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S32768x2048.size a
  hwx0_3 : ∀ i : grid0.Coords, EltTy.bits .f32 = 32 ∨ (Rect.block (s := S32768x2048) S2048x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S2x1024x1024.size a
  hwx1_2 : ∀ i : grid1.Coords, EltTy.bits .f32 = 32 ∨ (Rect.block (s := S2x1024x1024) S1x1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1024.size a ≤ S2x1x1024.size a
  hwx1_3 : ∀ i : grid1.Coords, EltTy.bits .f32 = 32 ∨ (Rect.block (s := S2x1x1024) S1x1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x128.size a ≤ S2x1x128.size a
  hwx1_4 : ∀ i : grid1.Coords, EltTy.bits .f32 = 32 ∨ (Rect.block (s := S2x1x128) S1x1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x128.size a ≤ S2x1x128.size a
  hwx1_5 : ∀ i : grid1.Coords, EltTy.bits .f32 = 32 ∨ (Rect.block (s := S2x1x128) S1x1x128.size (cc1_transform_5 i) (hinb1_5 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S2048x1024_S2048x2048_1_1_0_0_n_n : DotDims S2048x1024 S2048x1024 S2048x2048 where
  lhsContracting := [1]
  rhsContracting := [1]
  lhsNonContracting := [0]
  rhsNonContracting := [0]
  lhsBatch := []
  rhsBatch := []
  wf := dot_S2048x1024_S2048x1024_S2048x2048_1_1_0_0_n_n_wf
def gather_S8x4096x1024_S8x1024x1_S8x1024x1024_2_1_0_0_1_2_111024 : GatherDims S8x4096x1024 S8x1024x1 S8x1024x1024 where
  offsetDims := [2]
  collapsedSliceDims := [1]
  operandBatchingDims := [0]
  startIndicesBatchingDims := [0]
  startIndexMap := [1]
  indexVectorDim := 2
  sliceSizes := ![1, 1, 1024]
  wf := gather_S8x4096x1024_S8x1024x1_S8x1024x1024_2_1_0_0_1_2_111024_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf

abbrev win0_0 : Pipeline.Window sig grid0 :=
  Pipeline.Window.ofSpec (Memref.whole main_v2) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11_0) S1x1024x1024.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11_1) S1x1x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11_2) S1x1x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v11_3) S1x1x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x4096x1024 : Shape := ⟨3, ![8, 4096, 1024]⟩
abbrev S2048x1024 : Shape := ⟨2, ![2048, 1024]⟩
abbrev S2048 : Shape := ⟨1, ![2048]⟩
abbrev S1024x1024 : Shape := ⟨2, ![1024, 1024]⟩
abbrev S8x1024 : Shape := ⟨2, ![8, 1024]⟩
abbrev S8x4096x2048 : Shape := ⟨3, ![8, 4096, 2048]⟩
abbrev S1x1x2048 : Shape := ⟨3, ![1, 1, 2048]⟩
abbrev S8x1024x1 : Shape := ⟨3, ![8, 1024, 1]⟩
abbrev S_ : Shape := ⟨0, ![]⟩
abbrev S1 : Shape := ⟨1, ![1]⟩
abbrev S1x1x1 : Shape := ⟨3, ![1, 1, 1]⟩
abbrev S8x1024x1024 : Shape := ⟨3, ![8, 1024, 1024]⟩
abbrev S8192x1024 : Shape := ⟨2, ![8192, 1024]⟩
abbrev S8192 : Shape := ⟨1, ![8192]⟩
abbrev S1024x8192 : Shape := ⟨2, ![1024, 8192]⟩
abbrev S1024 : Shape := ⟨1, ![1024]⟩
abbrev S1024x1 : Shape := ⟨2, ![1024, 1]⟩

abbrev nBuf : Space → Nat
  | .hbm => 100
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S2048x1024, .f32⟩
  | .hbm, ⟨2, _⟩ => ⟨S2048, .f32⟩
  | .hbm, ⟨3, _⟩ => ⟨S1024x1024, .f32⟩
  | .hbm, ⟨4, _⟩ => ⟨S8x1024, .i32⟩
  | .hbm, ⟨5, _⟩ => ⟨S2048x1024, .f32⟩
  | .hbm, ⟨6, _⟩ => ⟨S8x4096x2048, .f32⟩
  | .hbm, ⟨7, _⟩ => ⟨S1x1x2048, .f32⟩
  | .hbm, ⟨8, _⟩ => ⟨S8x4096x2048, .f32⟩
  | .hbm, ⟨9, _⟩ => ⟨S8x4096x2048, .f32⟩
  | .hbm, ⟨10, _⟩ => ⟨S8x1024x1, .i32⟩
  | .hbm, ⟨11, _⟩ => ⟨S_, .i32⟩
  | .hbm, ⟨12, _⟩ => ⟨S8x1024x1, .i32⟩
  | .hbm, ⟨13, _⟩ => ⟨S8x1024x1, .i1⟩
  | .hbm, ⟨14, _⟩ => ⟨S_, .i32⟩
  | .hbm, ⟨15, _⟩ => ⟨S8x1024x1, .i32⟩
  | .hbm, ⟨16, _⟩ => ⟨S8x1024x1, .i32⟩
  | .hbm, ⟨17, _⟩ => ⟨S8x1024x1, .i32⟩
  | .hbm, ⟨18, _⟩ => ⟨S1, .i32⟩
  | .hbm, ⟨19, _⟩ => ⟨S_, .i32⟩
  | .hbm, ⟨20, _⟩ => ⟨S8x1024x1, .i32⟩
  | .hbm, ⟨21, _⟩ => ⟨S8x1024x1, .i1⟩
  | .hbm, ⟨22, _⟩ => ⟨S1x1x1, .i32⟩
  | .hbm, ⟨23, _⟩ => ⟨S8x1024x1, .i32⟩
  | .hbm, ⟨24, _⟩ => ⟨S8x1024x1, .i1⟩
  | .hbm, ⟨25, _⟩ => ⟨S8x1024x1, .i1⟩
  | .hbm, ⟨26, _⟩ => ⟨S_, .i1⟩
  | .hbm, ⟨27, _⟩ => ⟨S8x1024, .i1⟩
  | .hbm, ⟨28, _⟩ => ⟨S8x1024x1024, .f32⟩
  | .hbm, ⟨29, _⟩ => ⟨S8x1024x1024, .i1⟩
  | .hbm, ⟨30, _⟩ => ⟨S_, .f32⟩
  | .hbm, ⟨31, _⟩ => ⟨S8x1024x1024, .f32⟩
  | .hbm, ⟨32, _⟩ => ⟨S8x1024x1024, .f32⟩
  | .hbm, ⟨33, _⟩ => ⟨S8x1024x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S1024x8192, .f32⟩
  | .hbm, ⟨62, _⟩ => ⟨S1024x1024, .f32⟩
  | .hbm, ⟨63, _⟩ => ⟨S_, .f32⟩
  | .hbm, ⟨64, _⟩ => ⟨S1024x1024, .f32⟩
  | .hbm, ⟨65, _⟩ => ⟨S1024x1024, .f32⟩
  | .hbm, ⟨66, _⟩ => ⟨S_, .f32⟩
  | .hbm, ⟨67, _⟩ => ⟨S1024, .f32⟩
  | .hbm, ⟨68, _⟩ => ⟨S_, .f32⟩
  | .hbm, ⟨69, _⟩ => ⟨S1024, .f32⟩
  | .hbm, ⟨70, _⟩ => ⟨S1024, .f32⟩
  | .hbm, ⟨71, _⟩ => ⟨S_, .f32⟩
  | .hbm, ⟨72, _⟩ => ⟨S1024, .f32⟩
  | .hbm, ⟨73, _⟩ => ⟨S1024x1024, .i32⟩
  | .hbm, ⟨74, _⟩ => ⟨S1024x1024, .i32⟩
  | .hbm, ⟨75, _⟩ => ⟨S_, .i32⟩
  | .hbm, ⟨76, _⟩ => ⟨S1024x1024, .i32⟩
  | .hbm, ⟨77, _⟩ => ⟨S1024x1024, .i32⟩
  | .hbm, ⟨78, _⟩ => ⟨S1024x1024, .i1⟩
  | .hbm, ⟨79, _⟩ => ⟨S1024x1, .f32⟩
  | .hbm, ⟨80, _⟩ => ⟨S_, .f32⟩
  | .hbm, ⟨81, _⟩ => ⟨S1024x1024, .f32⟩
  | .hbm, ⟨82, _⟩ => ⟨S1024x1024, .f32⟩
  | .hbm, ⟨83, _⟩ => ⟨S1024x1024, .f32⟩
  | .hbm, ⟨84, _⟩ => ⟨S1024x1024, .i32⟩
  | .hbm, ⟨85, _⟩ => ⟨S1024x1024, .i32⟩
  | .hbm, ⟨86, _⟩ => ⟨S_, .i32⟩
  | .hbm, ⟨87, _⟩ => ⟨S1024x1024, .i32⟩
  | .hbm, ⟨88, _⟩ => ⟨S1024x1024, .i32⟩
  | .hbm, ⟨89, _⟩ => ⟨S1024x1024, .i1⟩
  | .hbm, ⟨90, _⟩ => ⟨S1024x1024, .f32⟩
  | .hbm, ⟨91, _⟩ => ⟨S1024x1024, .f32⟩
  | .hbm, ⟨92, _⟩ => ⟨S_, .f32⟩
  | .hbm, ⟨93, _⟩ => ⟨S1024x1024, .f32⟩
  | .hbm, ⟨94, _⟩ => ⟨S1024x1024, .f32⟩
  | .hbm, ⟨95, _⟩ => ⟨S1024x1024, .f32⟩
  | .hbm, ⟨96, _⟩ => ⟨S_, .f32⟩
  | .hbm, ⟨97, _⟩ => ⟨S1024x1024, .f32⟩
  | .hbm, ⟨98, _⟩ => ⟨S1024x1024, .f32⟩
  | .hbm, ⟨99, _⟩ => ⟨S1024x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_c_2 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_c_3 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst : Ref sig .tc := ⟨.hbm, 36, rfl⟩
abbrev main_v10 : Ref sig .tc := ⟨.hbm, 37, rfl⟩
abbrev main_v11 : Ref sig .tc := ⟨.hbm, 38, rfl⟩
abbrev main_cst_0 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst_1 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_cst_4 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_5 : Ref sig .tc := ⟨.hbm, 53, rfl⟩
abbrev main_v21 : Ref sig .tc := ⟨.hbm, 54, rfl⟩
abbrev main_cst_6 : Ref sig .tc := ⟨.hbm, 55, rfl⟩
abbrev main_v22 : Ref sig .tc := ⟨.hbm, 56, rfl⟩
abbrev main_cst_7 : Ref sig .tc := ⟨.hbm, 57, rfl⟩
abbrev main_v23 : Ref sig .tc := ⟨.hbm, 58, rfl⟩
abbrev main_cst_8 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_cst_9 : Ref sig .tc := ⟨.hbm, 63, rfl⟩
abbrev main_v27 : Ref sig .tc := ⟨.hbm, 64, rfl⟩
abbrev main_v28 : Ref sig .tc := ⟨.hbm, 65, rfl⟩
abbrev main_cst_10 : Ref sig .tc := ⟨.hbm, 66, rfl⟩
abbrev main_v29 : Ref sig .tc := ⟨.hbm, 67, rfl⟩
abbrev main_cst_11 : Ref sig .tc := ⟨.hbm, 68, rfl⟩
abbrev main_v30 : Ref sig .tc := ⟨.hbm, 69, rfl⟩
abbrev main_v31 : Ref sig .tc := ⟨.hbm, 70, rfl⟩
abbrev main_call1_cst : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_c : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_v6 : Ref sig .tc := ⟨.hbm, 79, rfl⟩
abbrev main_call1_cst_0 : Ref sig .tc := ⟨.hbm, 80, rfl⟩
abbrev main_call1_call0_v0 : Ref sig .tc := ⟨.hbm, 81, rfl⟩
abbrev main_call1_call0_v1 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_c : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_cst_12 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_cst_13 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  bcast_S1_S1x1x1_2 : S1.BroadcastsInDim S1x1x1 (![2] : Fin 1 → Fin S1x1x1.rank)
  bcast_S1x1x1_S8x1024x1_0_1_2 : S1x1x1.BroadcastsInDim S8x1024x1 (![0, 1, 2] : Fin 3 → Fin S8x1024x1.rank)
  reducesTo_S8x1024x1_S8x1024_d2 : S8x1024x1.ReducesTo [2] S8x1024
  h_S_ : 0 < S_.numel
  bcast_S8x1024_S8x1024x1024_0_1 : S8x1024.BroadcastsInDim S8x1024x1024 (![0, 1] : Fin 2 → Fin S8x1024x1024.rank)
  bcast_S_S8x1024x1024 : S_.BroadcastsInDim S8x1024x1024 (![] : Fin 0 → Fin S8x1024x1024.rank)
  shapeCasts_S8x1024x1024_S8192x1024 : S8x1024x1024.ShapeCasts S8192x1024
  reducesTo_S8192x1024_S8192_d1 : S8192x1024.ReducesTo [1] S8192
  reducesTo_S8192_S_d0 : S8192.ReducesTo [0] S_
  bcast_S_S8192x1024 : S_.BroadcastsInDim S8192x1024 (![] : Fin 0 → Fin S8192x1024.rank)
  transposes_S8192x1024_S1024x8192_1_0 : S8192x1024.Transposes [1, 0] S1024x8192
  bcast_S_S1024x1024 : S_.BroadcastsInDim S1024x1024 (![] : Fin 0 → Fin S1024x1024.rank)
  reducesTo_S8192x1024_S1024_d0 : S8192x1024.ReducesTo [0] S1024
  bcast_S_S1024 : S_.BroadcastsInDim S1024 (![] : Fin 0 → Fin S1024.rank)
  pads_S1024_S1024_000 : S1024.Pads (![0] : Fin 1 → Nat) ![0] ![0] S1024
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  dot_S2048x1024_S1024x1024_S2048x1024_1_0_0_1_n_n_wf : DotDims.WF S2048x1024 S1024x1024 S2048x1024 [1] [0] [0] [1] [] []
  dot_S8x4096x1024_S2048x1024_S8x4096x2048_2_1_01_0_n_n_wf : DotDims.WF S8x4096x1024 S2048x1024 S8x4096x2048 [2] [1] [0, 1] [0] [] []
  gather_S8x4096x1024_S8x1024x1_S8x1024x1024_2_1_0_0_1_2_111024_wf : GatherDims.WF S8x4096x1024 S8x1024x1 S8x1024x1024 [2] [1] [0] [1] [0] 2 ![1, 1, 1024]
  dot_S8x1024x1024_S1024x1024_S8x1024x1024_2_1_01_0_n_n_wf : DotDims.WF S8x1024x1024 S1024x1024 S8x1024x1024 [2] [1] [0, 1] [0] [] []
  dot_S1024x8192_S8192x1024_S1024x1024_1_0_0_1_n_n_wf : DotDims.WF S1024x8192 S8192x1024 S1024x1024 [1] [0] [0] [1] [] []

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S8x4096x1024_S2048x1024_S8x4096x2048_2_1_01_0_n_n : DotDims S8x4096x1024 S2048x1024 S8x4096x2048 where
  lhsContracting := [2]
  rhsContracting := [1]
  lhsNonContracting := [0, 1]
  rhsNonContracting := [0]
  lhsBatch := []
  rhsBatch := []
  wf := dot_S8x4096x1024_S2048x1024_S8x4096x2048_2_1_01_0_n_n_wf
def gather_S8x4096x1024_S8x1024x1_S8x1024x1024_2_1_0_0_1_2_111024 : GatherDims S8x4096x1024 S8x1024x1 S8x1024x1024 where
  offsetDims := [2]
  collapsedSliceDims := [1]
  operandBatchingDims := [0]
  startIndicesBatchingDims := [0]
  startIndexMap := [1]
  indexVectorDim := 2
  sliceSizes := ![1, 1, 1024]
  wf := gather_S8x4096x1024_S8x1024x1_S8x1024x1024_2_1_0_0_1_2_111024_wf
def dot_S8x1024x1024_S1024x1024_S8x1024x1024_2_1_01_0_n_n : DotDims S8x1024x1024 S1024x1024 S8x1024x1024 where
  lhsContracting := [2]
  rhsContracting := [1]
  lhsNonContracting := [0, 1]
  rhsNonContracting := [0]
  lhsBatch := []
  rhsBatch := []
  wf := dot_S8x1024x1024_S1024x1024_S8x1024x1024_2_1_01_0_n_n_wf
def dot_S1024x8192_S8192x1024_S1024x1024_1_0_0_1_n_n : DotDims S1024x8192 S8192x1024 S1024x1024 where
  lhsContracting := [1]
  rhsContracting := [0]
  lhsNonContracting := [0]
  rhsNonContracting := [1]
  lhsBatch := []
  rhsBatch := []
  wf := dot_S1024x8192_S8192x1024_S1024x1024_1_0_0_1_n_n_wf

class Facts : Prop extends Facts₀ where

variable [Facts]
-- ==== Proof.Spec.lean ====
/-
  The arithmetic both programs are compared through, stated once over the extended reals with plain
  coordinates. A sampled row `n` of the 8192 = 8 · 1024 gathered rows is projected through the decorrelation
  matrix, `sd n e = ∑ d, sel n d · q e d`; every statistic is a sum over rows of a per-row quantity:
  the Gram matrix `∑ n, sd n i · sd n j`, the column sums of squares `∑ n, (sd n i)²`, the correlation
  term `∑ n, ((∑ i, (sd n i)²)² − ∑ i, (sd n i)⁴)` and the whitening term `∑ n, ∑ i, ((sd n i)² − 1)²`.
  The kernel visits the rows in 2 · 4 tiles of 1024 (slab `c`, step `s`, local row `n` ↦ row
  `(4c + s) · 1024 + n`); the reference sums over all 8192 at once. The only law needed between the two is
  that a sum over `Fin 8192` is the iterated sum over slabs, steps and local rows (`sum_tiles`): addition on
  the extended reals is commutative and associative, so no finiteness is used.
-/
import Idealize.ShloMosaic.PureOps.Ideal
import Idealize.ShloMosaic.Lib.ValueIdx
import Mathlib.Algebra.BigOperators.Fin
import Mathlib.Algebra.BigOperators.Group.Finset.Sigma

noncomputable section

open Idealize.ShloMosaic

namespace Cert.Spec

/-- The f32 word of `1.0`, read at the extended reals; it is the same word on both sides and is never evaluated. -/
abbrev one : EReal := Ideal.ofBits .f32 0x3F800000#32

/-- Row `n` of the gathered rows projected through the decorrelation matrix: `∑ d, sel n d · q e d`. -/
def sdAt (sel : Fin 8192 → Fin 1024 → EReal) (q : Fin 1024 → Fin 1024 → EReal) (n : Fin 8192) (e : Fin 1024) : EReal :=
  ∑ d : Fin 1024, sel n d * q e d

/-- One row's correlation term: the square of its sum of squares minus its sum of fourth powers. -/
def rowCorr (r : Fin 1024 → EReal) : EReal :=
  (∑ i : Fin 1024, r i * r i) * (∑ i : Fin 1024, r i * r i) - ∑ i : Fin 1024, (r i * r i) * (r i * r i)

/-- One row's whitening term: `∑ i, ((r i)² − 1)²`. -/
def rowWhit (r : Fin 1024 → EReal) : EReal :=
  ∑ i : Fin 1024, (r i * r i - one) * (r i * r i - one)

/-- The Gram matrix of the projected rows. -/
def gram (sd : Fin 8192 → Fin 1024 → EReal) (i j : Fin 1024) : EReal := ∑ n : Fin 8192, sd n i * sd n j

/-- Column sums of squares of the projected rows. -/
def sqsum (sd : Fin 8192 → Fin 1024 → EReal) (i : Fin 1024) : EReal := ∑ n : Fin 8192, sd n i * sd n i

/-- The correlation term summed over all rows. -/
def corrSum (sd : Fin 8192 → Fin 1024 → EReal) : EReal := ∑ n : Fin 8192, rowCorr (sd n)

/-- The whitening term summed over all rows. -/
def whitSum (sd : Fin 8192 → Fin 1024 → EReal) : EReal := ∑ n : Fin 8192, rowWhit (sd n)

/-- The global row of local row `n` in the tile of slab `c`, step `s`. -/
def tileRow (c : Fin 2) (s : Fin 4) (n : Fin 1024) : Fin 8192 :=
  ⟨(c.val * 4 + s.val) * 1024 + n.val, by have := c.isLt; have := s.isLt; have := n.isLt; omega⟩

@[simp] theorem tileRow_val (c : Fin 2) (s : Fin 4) (n : Fin 1024) :
    (tileRow c s n).val = (c.val * 4 + s.val) * 1024 + n.val := rfl

/-- Rows are in bijection with (slab, step, local row). -/
def tileEquiv : (Fin 2 × Fin 4) × Fin 1024 ≃ Fin 8192 where
  toFun p := tileRow p.1.1 p.1.2 p.2
  invFun n := ((⟨n.val / 4096, by have := n.isLt; omega⟩, ⟨n.val / 1024 % 4, by omega⟩), ⟨n.val % 1024, by omega⟩)
  left_inv := by
    rintro ⟨⟨c, s⟩, n⟩
    have := c.isLt; have := s.isLt; have := n.isLt
    refine Prod.ext (Prod.ext (Fin.ext ?_) (Fin.ext ?_)) (Fin.ext ?_) <;> simp only [tileRow_val] <;> omega
  right_inv := by
    intro n
    have := n.isLt
    refine Fin.ext ?_
    simp only [tileRow_val]
    omega

/-- A sum over all 8192 rows is the sum over slabs, steps and local rows of the tiles. -/
theorem sum_tiles {M : Type*} [AddCommMonoid M] (f : Fin 8192 → M) :
    ∑ n : Fin 8192, f n = ∑ c : Fin 2, ∑ s : Fin 4, ∑ n : Fin 1024, f (tileRow c s n) := by
  rw [← tileEquiv.sum_comp f, Fintype.sum_prod_type, Fintype.sum_prod_type]
  rfl

/-! ## Arrays as functions of plain coordinates -/

open Idealize.ShloMosaic.ValueIdx in
/-- The gathered rows `[8, 1024, 1024]` flattened to 8192 rows: row `n` is sample `n % 1024` of batch `n / 1024`. -/
def selRows (sel : (⟨3, ![8, 1024, 1024]⟩ : Shape).Idx → EReal) (n : Fin 8192) (d : Fin 1024) : EReal :=
  sel (ix3 (⟨n.val / 1024, by have := n.isLt; omega⟩ : Fin 8) (⟨n.val % 1024, by omega⟩ : Fin 1024) d)

open Idealize.ShloMosaic.ValueIdx in
/-- A `[1024, 1024]` array read at plain coordinates. -/
def qOf (q : (⟨2, ![1024, 1024]⟩ : Shape).Idx → EReal) (e d : Fin 1024) : EReal := q (ix2 e d)

/-- A rank-0 array holding `v`. -/
def of0 (v : EReal) : (⟨0, ![]⟩ : Shape).Idx → EReal := fun _ => v

/-- The rank-1 array of a function of one coordinate. -/
def of1 {a : Nat} (f : Fin a → EReal) : (⟨1, ![a]⟩ : Shape).Idx → EReal := fun i => f (i 0)

/-- The rank-2 array of a function of two coordinates. -/
def of2 {a b : Nat} (f : Fin a → Fin b → EReal) : (⟨2, ![a, b]⟩ : Shape).Idx → EReal := fun ij => f (ij 0) (ij 1)

open Idealize.ShloMosaic.ValueIdx in
theorem eq_of0 (g : (⟨0, ![]⟩ : Shape).Idx → EReal) (v : EReal) (h : g ix0 = v) : g = of0 v :=
  funext fun i => by rw [eq_ix0 i]; exact h

open Idealize.ShloMosaic.ValueIdx in
theorem eq_of1 {a : Nat} (g : (⟨1, ![a]⟩ : Shape).Idx → EReal) (f : Fin a → EReal) (h : ∀ i, g (ix1 i) = f i) : g = of1 f :=
  funext fun i => by rw [eq_ix1 i]; exact h _

open Idealize.ShloMosaic.ValueIdx in
theorem eq_of2 {a b : Nat} (g : (⟨2, ![a, b]⟩ : Shape).Idx → EReal) (f : Fin a → Fin b → EReal)
    (h : ∀ i j, g (ix2 i j) = f i j) : g = of2 f :=
  funext fun ij => by rw [eq_ix2 ij]; exact h _ _

end Cert.Spec

end
-- ==== Proof.Tail.lean ====
/-
  The host computations the two programs share, each named once as a pure function of its inputs so that neither
  side's proof ever opens them:
    `selOf x idx`   the sampled rows: `x` gathered along its second axis at the (wrapped) indices, rows whose index
                     is out of range filled with the fill word — the same twenty-two operations in both programs;
    `gradOf M d`    the gradient from the raw Gram matrix `M` and the raw column sums of squares `d`:
                     `½ · (M / 8192 − diag (d / 8192)) + ½ · (diag (d / 8192) − I)`, the diagonal matrix and the
                     identity built from iotas exactly as both programs build them;
    `lossOf s`      a loss from its raw sum: `(s / 8192) · 2⁻²⁰`.
  Every side condition these operations take is a proposition about literal shapes, proved here by evaluation.
-/
import Idealize.ShloMosaic.PureOps

noncomputable section

open Idealize.ShloMosaic

namespace Cert.Tail

variable {F : FTy → Type} [FloatOps F]

abbrev S_ : Shape := ⟨0, ![]⟩
abbrev S1 : Shape := ⟨1, ![1]⟩
abbrev S1x1x1 : Shape := ⟨3, ![1, 1, 1]⟩
abbrev S1024 : Shape := ⟨1, ![1024]⟩
abbrev S1024x1 : Shape := ⟨2, ![1024, 1]⟩
abbrev S1024x1024 : Shape := ⟨2, ![1024, 1024]⟩
abbrev S8x1024 : Shape := ⟨2, ![8, 1024]⟩
abbrev S8x1024x1 : Shape := ⟨3, ![8, 1024, 1]⟩
abbrev S8x1024x1024 : Shape := ⟨3, ![8, 1024, 1024]⟩
abbrev S8x4096x1024 : Shape := ⟨3, ![8, 4096, 1024]⟩

theorem h_S_ : 0 < S_.numel := by decide
theorem bcast_S_S1024x1024 : S_.BroadcastsInDim S1024x1024 (![] : Fin 0 → Fin S1024x1024.rank) := by decide
theorem bcast_S_S1024 : S_.BroadcastsInDim S1024 (![] : Fin 0 → Fin S1024.rank) := by decide
theorem pads_S1024_S1024_000 : S1024.Pads (![0] : Fin 1 → Nat) ![0] ![0] S1024 := by decide
theorem bcast_S1024_S1024x1_0 : S1024.BroadcastsInDim S1024x1 (![0] : Fin 1 → Fin S1024x1.rank) := by decide
theorem bcast_S1024x1_S1024x1024_0_1 : S1024x1.BroadcastsInDim S1024x1024 (![0, 1] : Fin 2 → Fin S1024x1024.rank) := by decide
theorem bcast_S8x1024_S8x1024x1_0_1 : S8x1024.BroadcastsInDim S8x1024x1 (![0, 1] : Fin 2 → Fin S8x1024x1.rank) := by decide
theorem bcast_S_S8x1024x1 : S_.BroadcastsInDim S8x1024x1 (![] : Fin 0 → Fin S8x1024x1.rank) := by decide
theorem bcast_S1_S1x1x1_2 : S1.BroadcastsInDim S1x1x1 (![2] : Fin 1 → Fin S1x1x1.rank) := by decide
theorem bcast_S1x1x1_S8x1024x1_0_1_2 : S1x1x1.BroadcastsInDim S8x1024x1 (![0, 1, 2] : Fin 3 → Fin S8x1024x1.rank) := by decide
theorem reducesTo_S8x1024x1_S8x1024_d2 : S8x1024x1.ReducesTo [2] S8x1024 := by decide
theorem bcast_S8x1024_S8x1024x1024_0_1 : S8x1024.BroadcastsInDim S8x1024x1024 (![0, 1] : Fin 2 → Fin S8x1024x1024.rank) := by decide
theorem bcast_S_S8x1024x1024 : S_.BroadcastsInDim S8x1024x1024 (![] : Fin 0 → Fin S8x1024x1024.rank) := by decide
theorem gather_wf : GatherDims.WF S8x4096x1024 S8x1024x1 S8x1024x1024 [2] [1] [0] [1] [0] 2 ![1, 1, 1024] := by decide

/-- The gather's dimension numbers: one row of 1024 features per (batch, sample) index, the batch axis shared. -/
def gatherDims : GatherDims S8x4096x1024 S8x1024x1 S8x1024x1024 where
  offsetDims := [2]
  collapsedSliceDims := [1]
  operandBatchingDims := [0]
  startIndicesBatchingDims := [0]
  startIndexMap := [1]
  indexVectorDim := 2
  sliceSizes := ![1, 1, 1024]
  wf := gather_wf

/-- The sampled rows: negative indices wrapped by 4096, the rows of `x` gathered at them, and a row whose wrapped
    index is outside `[0, 4095]` replaced by the fill word. -/
def selOf (x : FVec F S8x4096x1024 .f32) (idx : IVec S8x1024 32) : FVec F S8x1024x1024 .f32 :=
  select
    (broadcastInDim S8x1024x1024 ![0, 1] bcast_S8x1024_S8x1024x1024_0_1
      (Host.reduce IntOp.andi
        (andi
          (cmpi .sge
            (select (cmpi .slt (broadcastInDim S8x1024x1 ![0, 1] bcast_S8x1024_S8x1024x1_0_1 idx) (broadcastInDim S8x1024x1 ![] bcast_S_S8x1024x1 (constantI S_ 32 0#32)))
              (addi (broadcastInDim S8x1024x1 ![0, 1] bcast_S8x1024_S8x1024x1_0_1 idx) (broadcastInDim S8x1024x1 ![] bcast_S_S8x1024x1 (constantI S_ 32 4096#32)))
              (broadcastInDim S8x1024x1 ![0, 1] bcast_S8x1024_S8x1024x1_0_1 idx))
            (broadcastInDim S8x1024x1 ![] bcast_S_S8x1024x1 (constantI S_ 32 0#32)))
          (cmpi .sle
            (select (cmpi .slt (broadcastInDim S8x1024x1 ![0, 1] bcast_S8x1024_S8x1024x1_0_1 idx) (broadcastInDim S8x1024x1 ![] bcast_S_S8x1024x1 (constantI S_ 32 0#32)))
              (addi (broadcastInDim S8x1024x1 ![0, 1] bcast_S8x1024_S8x1024x1_0_1 idx) (broadcastInDim S8x1024x1 ![] bcast_S_S8x1024x1 (constantI S_ 32 4096#32)))
              (broadcastInDim S8x1024x1 ![0, 1] bcast_S8x1024_S8x1024x1_0_1 idx))
            (broadcastInDim S8x1024x1 ![0, 1, 2] bcast_S1x1x1_S8x1024x1_0_1_2 (broadcastInDim S1x1x1 ![2] bcast_S1_S1x1x1_2 (constantI S1 32 4095#32)))))
        (constantI S_ 1 1#1) reducesTo_S8x1024x1_S8x1024_d2 h_S_))
    (Host.gather gatherDims x
      (select (cmpi .slt (broadcastInDim S8x1024x1 ![0, 1] bcast_S8x1024_S8x1024x1_0_1 idx) (broadcastInDim S8x1024x1 ![] bcast_S_S8x1024x1 (constantI S_ 32 0#32)))
        (addi (broadcastInDim S8x1024x1 ![0, 1] bcast_S8x1024_S8x1024x1_0_1 idx) (broadcastInDim S8x1024x1 ![] bcast_S_S8x1024x1 (constantI S_ 32 4096#32)))
        (broadcastInDim S8x1024x1 ![0, 1] bcast_S8x1024_S8x1024x1_0_1 idx)))
    (broadcastInDim S8x1024x1024 ![] bcast_S_S8x1024x1024 (constant S_ .f32 0x7FC00000#32))

/-- The matrix with `d` on its diagonal and the zero word elsewhere, as both programs build it: `d` spread along the
    rows, selected where the row iota equals the column iota. -/
def diagOf (d : FVec F S1024 .f32) : FVec F S1024x1024 .f32 :=
  select
    (cmpi .eq (addi (iotaInDim S1024x1024 32 0) (broadcastInDim S1024x1024 ![] bcast_S_S1024x1024 (constantI S_ 32 0#32))) (iotaInDim S1024x1024 32 1))
    (broadcastInDim S1024x1024 ![0, 1] bcast_S1024x1_S1024x1024_0_1
      (broadcastInDim S1024x1 ![0] bcast_S1024_S1024x1_0
        (pad S1024 ![0] ![0] ![0] d (constant S_ .f32 0x00000000#32) pads_S1024_S1024_000 h_S_)))
    (broadcastInDim S1024x1024 ![] bcast_S_S1024x1024 (constant S_ .f32 0x00000000#32))

/-- The identity matrix, as both programs build it: the row iota compared with the column iota, converted to a float. -/
def eye : FVec F S1024x1024 .f32 :=
  uitofp .f32 (cmpi .eq (addi (iotaInDim S1024x1024 32 0) (broadcastInDim S1024x1024 ![] bcast_S_S1024x1024 (constantI S_ 32 0#32))) (iotaInDim S1024x1024 32 1))

/-- The gradient from the raw Gram matrix and the raw column sums of squares. -/
def gradOf (M : FVec F S1024x1024 .f32) (d : FVec F S1024 .f32) : FVec F S1024x1024 .f32 :=
  addf
    (mulf (broadcastInDim S1024x1024 ![] bcast_S_S1024x1024 (constant S_ .f32 0x3F000000#32))
      (subf (Host.divf M (broadcastInDim S1024x1024 ![] bcast_S_S1024x1024 (constant S_ .f32 0x46000000#32)))
        (diagOf (Host.divf d (broadcastInDim S1024 ![] bcast_S_S1024 (constant S_ .f32 0x46000000#32))))))
    (mulf (broadcastInDim S1024x1024 ![] bcast_S_S1024x1024 (constant S_ .f32 0x3F000000#32))
      (subf (diagOf (Host.divf d (broadcastInDim S1024 ![] bcast_S_S1024 (constant S_ .f32 0x46000000#32)))) eye))

/-- A loss from its raw sum over the rows: divided by the 8192 rows, then scaled by `2⁻²⁰`. -/
def lossOf (s : FVec F S_ .f32) : FVec F S_ .f32 :=
  mulf (Host.divf s (constant S_ .f32 0x46000000#32)) (constant S_ .f32 0x35800000#32)

end Cert.Tail

end
-- ==== Proof.KHost.lean ====
/-
  The host stretches of the kernel program read as values. Between its two pipelined regions the program runs
  straight lines of tensor operations; the buffer contents at each boundary are a fold through those lines. Here the
  fold is computed at the buffers the comparison needs: what the first region finds in its input arrays (a reshape of
  an argument, a rounded product of two arguments), and what the two loss results hold at the end as functions of the
  second region's accumulators (the per-slab partial sums added over the two slabs and passed through the shared loss
  chain). Each stretch is first read over an arbitrary entry
  valuation — every operation's result replaces its own buffer and leaves the others —, then the stretches are
  composed: a buffer a stretch does not write is carried through it, a buffer a region does not own is carried
  through the region, and a region's own arrays are read at what its write-backs leave.
-/
import proofs.«430983_j781684048736_3_alg».proof.Proof.Gen.KernelIdeal.Frame
import proofs.«430983_j781684048736_3_alg».proof.Proof.Tail
import Idealize.ShloMosaic.Lib.StableHlo.Run
import Idealize.ShloMosaic.PureOps.Ideal

set_option maxRecDepth 16384

noncomputable section

namespace Cert.KernelIdeal.KHost

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The five arguments as launched, at their literal vector types. -/
abbrev X (c : Dev nD) : FVec Ideal S8x4096x1024 .f32 := m ((c : Thread nD τ).loc main_arg0)
abbrev Wt (c : Dev nD) : FVec Ideal S2048x1024 .f32 := m ((c : Thread nD τ).loc main_arg1)
abbrev B (c : Dev nD) : FVec Ideal S2048 .f32 := m ((c : Thread nD τ).loc main_arg2)
abbrev Q (c : Dev nD) : FVec Ideal S1024x1024 .f32 := m ((c : Thread nD τ).loc main_arg3)
abbrev IDX (c : Dev nD) : IVec S8x1024 32 := m ((c : Thread nD τ).loc main_arg4)

/-! ## The first stretch: four operations on the arguments -/

section Stretch0
variable (Vl : Valuation τ sig (Elt Ideal))

/-- The activations flattened to rows. -/
theorem s0_v2 : (StableHlo.after (hostOps0 (F := Ideal)) Vl (Proc.devRef .tc main_v2) : FVec Ideal S32768x1024 .f32)
    = shapeCast S32768x1024 (Vl (Proc.devRef .tc main_arg0) : FVec Ideal S8x4096x1024 .f32) shapeCasts_S8x4096x1024_S32768x1024 := by
  after_results <;> rfl

/-- The bias as a one-row matrix. -/
theorem s0_v3 : (StableHlo.after (hostOps0 (F := Ideal)) Vl (Proc.devRef .tc main_v3) : FVec Ideal S1x2048 .f32)
    = shapeCast S1x2048 (Vl (Proc.devRef .tc main_arg2) : FVec Ideal S2048 .f32) shapeCasts_S2048_S1x2048 := by
  after_results <;> rfl

/-- The weight times the decorrelation matrix, rounded. -/
theorem s0_v1 : (StableHlo.after (hostOps0 (F := Ideal)) Vl (Proc.devRef .tc main_v1) : FVec Ideal S2048x1024 .bf16)
    = truncf (F := Ideal) .bf16 (Host.dotGeneral (F := Ideal) (φ₁ := .f32) (φ₂ := .f32) dot_S2048x1024_S1024x1024_S2048x1024_1_0_0_1_n_n none
        (Vl (Proc.devRef .tc main_arg1) : FVec Ideal S2048x1024 .f32) (Vl (Proc.devRef .tc main_arg3) : FVec Ideal S1024x1024 .f32)) bitsLt_bf16_f32 := by
  after_results <;> rfl

end Stretch0

theorem V1_v2 (c : Dev nD) : (V1 m ρ c main_v2 : FVec Ideal S32768x1024 .f32)
    = shapeCast S32768x1024 (X m c) shapeCasts_S8x4096x1024_S32768x1024 :=
  s0_v2 (W0 m ρ c)

theorem V1_v1 (c : Dev nD) : (V1 m ρ c main_v1 : FVec Ideal S2048x1024 .bf16)
    = truncf .bf16 (Host.dotGeneral dot_S2048x1024_S1024x1024_S2048x1024_1_0_0_1_n_n none (Wt m c) (Q m c)) bitsLt_bf16_f32 :=
  s0_v1 (W0 m ρ c)

theorem V1_v3 (c : Dev nD) : (V1 m ρ c main_v3 : FVec Ideal S1x2048 .f32)
    = shapeCast S1x2048 (B m c) shapeCasts_S2048_S1x2048 :=
  s0_v3 (W0 m ρ c)

/-! ## The last three stretches: the losses from the second region's accumulators -/

section Stretch2
variable (Vl : Valuation τ sig (Elt Ideal))

attribute [local irreducible] Host.reduceAdd Host.reduce Host.divf pad in
/-- The first loss: the slab sums (entry `[c, 0, 0]` of the accumulator) added over the two slabs, then the shared
    chain. The three stretches hold fifty-six operations; only the seven on the way from the accumulator to the loss
    contribute, every other operation leaving these buffers as they were. -/
theorem s2_v40 : (StableHlo.after (hostOps2_2 (F := Ideal)) (StableHlo.after (hostOps2_1 (F := Ideal)) (StableHlo.after (hostOps2 (F := Ideal)) Vl))
      (Proc.devRef .tc main_v40) : FVec Ideal S_ .f32)
    = Cert.Tail.lossOf (F := Ideal)
        (Host.reduceAdd (F := Ideal) (shapeCast S2 (extractStridedSlice S2x1x1 ![0, 0, 0] (Vl (Proc.devRef .tc main_v11_2) : FVec Ideal S2x1x128 .f32) slices_S2x1x128_S2x1x1_0_0_0) shapeCasts_S2x1x1_S2)
          (constant (F := Ideal) S_ .f32 0x00000000#32) reducesTo_S2_S_d0 h_S_) := by
  after_results <;> rfl

attribute [local irreducible] Host.reduceAdd Host.reduce Host.divf pad in
/-- The second loss, the same way from the other accumulator. -/
theorem s2_v42 : (StableHlo.after (hostOps2_2 (F := Ideal)) (StableHlo.after (hostOps2_1 (F := Ideal)) (StableHlo.after (hostOps2 (F := Ideal)) Vl))
      (Proc.devRef .tc main_v42) : FVec Ideal S_ .f32)
    = Cert.Tail.lossOf (F := Ideal)
        (Host.reduceAdd (F := Ideal) (shapeCast S2 (extractStridedSlice S2x1x1 ![0, 0, 0] (Vl (Proc.devRef .tc main_v11_3) : FVec Ideal S2x1x128 .f32) slices_S2x1x128_S2x1x1_0_0_0) shapeCasts_S2x1x1_S2)
          (constant (F := Ideal) S_ .f32 0x00000000#32) reducesTo_S2_S_d0 h_S_) := by
  after_results <;> rfl

end Stretch2

/-- At the second region's exit its two loss accumulators (windows 4 and 5) hold what the write-backs leave. -/
theorem W6_v11_2 (c : Dev nD) : W6 m ρ c (Proc.devRef .tc main_v11_2) = (dat1 (V5 m ρ) c).arrAt 4 cfg1.N := W6_arr m ρ c 4
theorem W6_v11_3 (c : Dev nD) : W6 m ρ c (Proc.devRef .tc main_v11_3) = (dat1 (V5 m ρ) c).arrAt 5 cfg1.N := W6_arr m ρ c 5

theorem W9_v40 (c : Dev nD) : (W9 m ρ c (Proc.devRef .tc main_v40) : FVec Ideal S_ .f32) = Cert.Tail.lossOf (F := Ideal)
      (Host.reduceAdd (shapeCast S2 (extractStridedSlice S2x1x1 ![0, 0, 0] ((dat1 (V5 m ρ) c).arrAt 4 cfg1.N : FVec Ideal S2x1x128 .f32) slices_S2x1x128_S2x1x1_0_0_0) shapeCasts_S2x1x1_S2) (constant S_ .f32 0x00000000#32) reducesTo_S2_S_d0 h_S_) := by
  have e := s2_v40 (W6 m ρ c)
  rw [W6_v11_2 m ρ c] at e
  exact e

theorem W9_v42 (c : Dev nD) : (W9 m ρ c (Proc.devRef .tc main_v42) : FVec Ideal S_ .f32) = Cert.Tail.lossOf (F := Ideal)
      (Host.reduceAdd (shapeCast S2 (extractStridedSlice S2x1x1 ![0, 0, 0] ((dat1 (V5 m ρ) c).arrAt 5 cfg1.N : FVec Ideal S2x1x128 .f32) slices_S2x1x128_S2x1x1_0_0_0) shapeCasts_S2x1x1_S2) (constant S_ .f32 0x00000000#32) reducesTo_S2_S_d0 h_S_) := by
  have e := s2_v42 (W6 m ρ c)
  rw [W6_v11_3 m ρ c] at e
  exact e

end Cert.KernelIdeal.KHost

end
-- ==== Proof.KHostF.lean ====
/-
  Two results of the kernel program read off its host operations, at the extended reals.

  The gradient (%38) is written by the last stretch of host operations from what the second region leaves in its
  third and fourth arrays: the two slabs of the Gram matrix summed over the slab axis, and the two slabs of the column
  sums of squares summed likewise and flattened to one axis. From these two raw statistics the host computes exactly
  the tail the reference computes: each divided by the 8192 rows, the column means put on a diagonal (padded by
  nothing, spread as a column, selected where the row iota equals the column iota), the identity from the same
  comparison, and the sum of the two halves. Over any contents at the stretch's entry this is an unfolding of the
  fifty-six operations, none of the large operations opened; at the region's exit the two arrays are what the
  pipeline's write-backs leave.

  The first result (%5) is the reshape of the first region's output array, written by the first host operation after
  that region; no later operation and no array of the second region writes its buffer, so it is read back through
  the later stretches unchanged.
-/
import proofs.«430983_j781684048736_3_alg».proof.Proof.Gen.KernelIdeal.Frame
import proofs.«430983_j781684048736_3_alg».proof.Proof.Tail
import Idealize.ShloMosaic.Lib.StableHlo.Run
import Idealize.ShloMosaic.PureOps.Ideal

noncomputable section

open Cert.KernelIdeal Cert.KernelIdeal.Gen Idealize.ShloMosaic Idealize.ShloMosaic.TcCoe Idealize.SL.Sem

namespace Cert.KernelIdeal.KHostF

/-! ## Over any contents at a stretch's entry -/

attribute [local irreducible] Host.reduce Host.gather pad Host.reduceAdd Host.divf in
set_option maxRecDepth 8192 in
set_option maxHeartbeats 4000000 in
/-- The gradient's buffer after the three last stretches, from any contents at their entry: the tail of the
    computation at the slab sums of the region's Gram array and of its column-sum array. -/
theorem tail_v38 (Vl : Valuation τ sig (Elt Ideal)) :
    (StableHlo.after hostOps2_2 (StableHlo.after hostOps2_1 (StableHlo.after hostOps2 Vl)) (Proc.devRef .tc main_v38) : FVec Ideal S1024x1024 .f32)
      = Cert.Tail.gradOf (F := Ideal)
          (Host.reduceAdd (Vl (Proc.devRef .tc main_v11_0) : FVec Ideal S2x1024x1024 .f32) (constant S_ .f32 0x00000000#32) reducesTo_S2x1024x1024_S1024x1024_d0 h_S_)
          (shapeCast S1024 (Host.reduceAdd (Vl (Proc.devRef .tc main_v11_1) : FVec Ideal S2x1x1024 .f32) (constant S_ .f32 0x00000000#32) reducesTo_S2x1x1024_S1x1024_d0 h_S_) shapeCasts_S1x1024_S1024) := by
  after_results_simp
  rfl

/-- The three last stretches write no buffer of the first result. -/
theorem keep_v5_last (Vl : Valuation τ sig (Elt Ideal)) :
    StableHlo.after hostOps2_2 (StableHlo.after hostOps2_1 (StableHlo.after hostOps2 Vl)) (Proc.devRef .tc main_v5) = Vl (Proc.devRef .tc main_v5) := by
  after_results_simp

/-- Nor do the gather's operations and the three before the second region. -/
theorem keep_v5_mid (Vl : Valuation τ sig (Elt Ideal)) :
    StableHlo.after hostOps1_2 (StableHlo.after hostOps1_1 Vl) (Proc.devRef .tc main_v5) = Vl (Proc.devRef .tc main_v5) := by
  after_results_simp

/-- The first operation after the first region reshapes that region's output array into the first result. -/
theorem read_v5 (Vl : Valuation τ sig (Elt Ideal)) :
    (StableHlo.after hostOps1 Vl (Proc.devRef .tc main_v5) : FVec Ideal S8x4096x2048 .f32)
      = shapeCast S8x4096x2048 (Vl (Proc.devRef .tc main_v4) : FVec Ideal S32768x2048 .f32) shapeCasts_S32768x2048_S8x4096x2048 := by
  after_results_simp
  rfl

/-! ## At the run's contents -/

variable (m : (ℓ : Loc nD τ sig) → Buf (Elt Ideal) ℓ) (ρ : Dev nD → PrngReg)

/-- The gradient at the return: the tail at the slab sums of what the second region leaves in its third and fourth arrays. -/
theorem W9_v38 (c : Dev nD) : (W9 m ρ c (Proc.devRef .tc main_v38) : FVec Ideal S1024x1024 .f32) = Cert.Tail.gradOf (F := Ideal)
      (Host.reduceAdd ((dat1 (V5 m ρ) c).arrAt 2 cfg1.N : FVec Ideal S2x1024x1024 .f32) (constant S_ .f32 0x00000000#32) reducesTo_S2x1024x1024_S1024x1024_d0 h_S_)
      (shapeCast S1024 (Host.reduceAdd ((dat1 (V5 m ρ) c).arrAt 3 cfg1.N : FVec Ideal S2x1x1024 .f32) (constant S_ .f32 0x00000000#32) reducesTo_S2x1x1024_S1x1024_d0 h_S_) shapeCasts_S1x1024_S1024) := by
  rw [← W6_arr m ρ c 2, ← W6_arr m ρ c 3]
  exact tail_v38 (W6 m ρ c)

/-- The first result at the return: the reshape of what the first region leaves in its output array. -/
theorem W9_v5 (c : Dev nD) : (W9 m ρ c (Proc.devRef .tc main_v5) : FVec Ideal S8x4096x2048 .f32)
      = shapeCast S8x4096x2048 ((dat0 (V1 m ρ) c).arrAt 3 cfg0.N : FVec Ideal S32768x2048 .f32) shapeCasts_S32768x2048_S8x4096x2048 := by
  rw [← W2_arr m ρ c 3]
  exact (keep_v5_last (W6 m ρ c)).trans ((W6_of_ne m ρ c main_v5 (by decide)).trans
    ((keep_v5_mid (W3 m ρ c)).trans (read_v5 (W2 m ρ c))))

end Cert.KernelIdeal.KHostF

end
-- ==== Proof.KHostB.lean ====
/-
  Region 1's entry contents, at the extended reals.

  Between region 0 and region 1 the host runs three stretches of operations: it reshapes region 0's output and
  spreads the index array over a trailing unit axis; it gathers the sampled rows (indices wrapped, rows whose index
  is out of range filled); it narrows the sampled rows and reshapes them to `[8192, 1024]` (region 1's first
  operand), and narrows the decorrelation matrix (its second operand). None of these operations, nor region 0,
  writes an argument's buffer, so each operand is a pure function of the launch contents of the arguments.
-/
import proofs.«430983_j781684048736_3_alg».proof.Proof.Gen.KernelIdeal.Frame
import proofs.«430983_j781684048736_3_alg».proof.Proof.Tail
import Idealize.ShloMosaic.Lib.StableHlo.Run
import Idealize.ShloMosaic.PureOps.Ideal

noncomputable section

namespace Cert.KernelIdeal.KHostB

open Cert.KernelIdeal Cert.KernelIdeal.Gen Idealize.ShloMosaic Idealize.ShloMosaic.TcCoe Idealize.SL.Sem
open Idealize.ShloMosaic.StableHlo

/-! ## The three stretches over any entry contents -/

/-- The second operand after the three stretches: the decorrelation matrix narrowed. -/
theorem stretch_v10 (Vl : Valuation τ sig (Elt Ideal)) :
    (StableHlo.after (hostOps1_2 (F := Ideal)) (StableHlo.after hostOps1_1 (StableHlo.after hostOps1 Vl))
        (Proc.devRef .tc main_v10) : FVec Ideal S1024x1024 .bf16)
      = truncf (F := Ideal) (s := S1024x1024) (φ := .f32) .bf16 (Vl (Proc.devRef .tc main_arg3)) bitsLt_bf16_f32 := by
  simp only [hostOps1_2, hostOps1_1, hostOps1]
  after_results

attribute [local irreducible] Host.reduce Host.gather in
set_option maxRecDepth 8192 in
set_option maxHeartbeats 1000000 in
/-- The first operand after the three stretches: the sampled rows narrowed, as `[8192, 1024]`. -/
theorem stretch_v9 (Vl : Valuation τ sig (Elt Ideal)) :
    (StableHlo.after (hostOps1_2 (F := Ideal)) (StableHlo.after hostOps1_1 (StableHlo.after hostOps1 Vl))
        (Proc.devRef .tc main_v9) : FVec Ideal S8192x1024 .bf16)
      = shapeCast S8192x1024
          (truncf (F := Ideal) (s := S8x1024x1024) (φ := .f32) .bf16
            (Cert.Tail.selOf (F := Ideal) (Vl (Proc.devRef .tc main_arg0)) (Vl (Proc.devRef .tc main_arg4))) bitsLt_bf16_f32)
          shapeCasts_S8x1024x1024_S8192x1024 := by
  simp only [hostOps1_2, hostOps1_1, hostOps1]
  after_results
  rfl

variable (m : (ℓ : Loc nD τ sig) → Buf (Elt Ideal) ℓ) (ρ : Dev nD → PrngReg)

/-- The activations at launch. -/
abbrev X (c : Dev nD) : FVec Ideal S8x4096x1024 .f32 := m ((c : Thread nD τ).loc main_arg0)
/-- The decorrelation matrix at launch. -/
abbrev Q (c : Dev nD) : FVec Ideal S1024x1024 .f32 := m ((c : Thread nD τ).loc main_arg3)
/-- The sample indices at launch. -/
abbrev IDX (c : Dev nD) : IVec S8x1024 32 := m ((c : Thread nD τ).loc main_arg4)

/-! ## The arguments at region 0's exit -/

/-- Region 0 and the operations before it leave `main_arg0` as launched. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl

/-- Region 0 and the operations before it leave `main_arg3` as launched. -/
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl

/-- Region 0 and the operations before it leave `main_arg4` as launched. -/
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl

/-! ## Region 1's operands -/

/-- Region 1's second operand is the decorrelation matrix narrowed. -/
theorem V5_v10 (c : Dev nD) :
    (V5 m ρ c main_v10 : FVec Ideal S1024x1024 .bf16) = truncf .bf16 (Q m c) bitsLt_bf16_f32 := by
  show (StableHlo.after (hostOps1_2 (F := Ideal)) (StableHlo.after hostOps1_1 (StableHlo.after hostOps1 (W2 m ρ c)))
      (Proc.devRef .tc main_v10) : FVec Ideal S1024x1024 .bf16) = _
  rw [stretch_v10, W2_main_arg3]

/-- Region 1's first operand is the sampled rows narrowed, as `[8192, 1024]`. -/
theorem V5_v9 (c : Dev nD) :
    (V5 m ρ c main_v9 : FVec Ideal S8192x1024 .bf16)
      = shapeCast S8192x1024 (truncf .bf16 (Cert.Tail.selOf (X m c) (IDX m c)) bitsLt_bf16_f32)
          shapeCasts_S8x1024x1024_S8192x1024 := by
  show (StableHlo.after (hostOps1_2 (F := Ideal)) (StableHlo.after hostOps1_1 (StableHlo.after hostOps1 (W2 m ρ c)))
      (Proc.devRef .tc main_v9) : FVec Ideal S8192x1024 .bf16) = _
  rw [stretch_v9, W2_main_arg0, W2_main_arg4]

end Cert.KernelIdeal.KHostB

end
-- ==== Proof.KReg0.lean ====
/-
  The first region's output array, index by index, at the extended reals.

  The region walks 16 grid points. Point `t` reads rows `2048 t … 2048 t + 2047` of the activations
  `x : [32768, 1024]`, the whole second operand `f : [2048, 1024]` (already in the narrow format) and the whole
  bias row `b : [1, 2048]`, and writes rows `2048 t … 2048 t + 2047` of the output `[32768, 2048]`:
  entry `(p, o)` of the block is `∑ k, x (2048 t + p, k) · f (o, k) + b (0, o)` — a contraction of axis 1 with
  axis 1 onto a zero accumulator (the narrowing of `x` is the identity on extended reals), plus the bias row broadcast
  over the rows. The 16 blocks tile the output, so the array ends holding
  `G (r, o) = ∑ k, x (r, k) · f (o, k) + b (0, o)` at every index; the point that writes row `r` is `r / 2048`.
-/
import proofs.«430983_j781684048736_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KReg0

open Cert.KernelIdeal Cert.KernelIdeal.Gen Idealize.ShloMosaic Idealize.ShloMosaic.TcCoe Idealize.SL.Sem
open Idealize.ShloMosaic.ValueIdx
open Idealize.ShloMosaic.Pipeline (Dat)

/-! ## The contraction at an index -/

/-- The left operand's index at output index `i` and contraction position `q`: on its free axis 0 the output's row … -/
theorem lhs_dot_0 (i : S2048x2048.Idx) (q : dot_S2048x1024_S2048x1024_S2048x2048_1_1_0_0_n_n.contr.Idx) :
    (dot_S2048x1024_S2048x1024_S2048x2048_1_1_0_0_n_n.lhsIdx i q 0).val = (i 0).val := by
  unfold DotDims.lhsIdx
  rw [dif_neg (show ¬(0 : Fin S2048x1024.rank) ∈ dot_S2048x1024_S2048x1024_S2048x2048_1_1_0_0_n_n.lhsBatch by decide),
    dif_pos (show (0 : Fin S2048x1024.rank) ∈ dot_S2048x1024_S2048x1024_S2048x2048_1_1_0_0_n_n.lhsNonContracting by decide)]
  rfl

/-- … and on its contracted axis 1 the contraction position. -/
theorem lhs_dot_1 (i : S2048x2048.Idx) (q : dot_S2048x1024_S2048x1024_S2048x2048_1_1_0_0_n_n.contr.Idx) :
    (dot_S2048x1024_S2048x1024_S2048x2048_1_1_0_0_n_n.lhsIdx i q 1).val = (q ⟨0, by decide⟩).val :=
  dot_S2048x1024_S2048x1024_S2048x2048_1_1_0_0_n_n.lhsIdx_val_of_single rfl i q

/-- The right operand's index: on its free axis 0 the output's column … -/
theorem rhs_dot_0 (i : S2048x2048.Idx) (q : dot_S2048x1024_S2048x1024_S2048x2048_1_1_0_0_n_n.contr.Idx) :
    (dot_S2048x1024_S2048x1024_S2048x2048_1_1_0_0_n_n.rhsIdx i q 0).val = (i 1).val := by
  unfold DotDims.rhsIdx
  rw [dif_neg (show ¬(0 : Fin S2048x1024.rank) ∈ dot_S2048x1024_S2048x1024_S2048x2048_1_1_0_0_n_n.rhsBatch by decide),
    dif_pos (show (0 : Fin S2048x1024.rank) ∈ dot_S2048x1024_S2048x1024_S2048x2048_1_1_0_0_n_n.rhsNonContracting by decide)]
  rfl

/-- … and on its contracted axis 1 the contraction position. -/
theorem rhs_dot_1 (i : S2048x2048.Idx) (q : dot_S2048x1024_S2048x1024_S2048x2048_1_1_0_0_n_n.contr.Idx) :
    (dot_S2048x1024_S2048x1024_S2048x2048_1_1_0_0_n_n.rhsIdx i q 1).val = (q ⟨0, by decide⟩).val :=
  dot_S2048x1024_S2048x1024_S2048x2048_1_1_0_0_n_n.rhsIdx_val_of_single rfl i q

/-- The contraction of axis 1 with axis 1 onto a zero accumulator, at `(p, o)`: `∑ k, A (p, k) · B (o, k)`. -/
theorem matmul_at {φ₁ φ₂ : FTy} (A : FVec Ideal S2048x1024 φ₁) (B : FVec Ideal S2048x1024 φ₂) (p o : Fin 2048) :
    matmul dot_S2048x1024_S2048x1024_S2048x2048_1_1_0_0_n_n none A B (constant (F := Ideal) S2048x2048 .f32 0x00000000#32) (ix2 p o)
      = ∑ k : Fin 1024, A (ix2 p k) * B (ix2 o k) := by
  show FloatOps.matmul dot_S2048x1024_S2048x1024_S2048x2048_1_1_0_0_n_n none A B (constant (F := Ideal) S2048x2048 .f32 0x00000000#32) (ix2 p o) = _
  rw [Ideal.matmul_constant_zero_apply, ← Equiv.sum_comp (contrEquiv1 dot_S2048x1024_S2048x1024_S2048x2048_1_1_0_0_n_n 1024 rfl rfl).symm]
  refine Finset.sum_congr rfl fun k _ => ?_
  have hk := contrEquiv1_symm_val dot_S2048x1024_S2048x1024_S2048x2048_1_1_0_0_n_n 1024 rfl rfl k
  have el : dot_S2048x1024_S2048x1024_S2048x2048_1_1_0_0_n_n.lhsIdx (ix2 p o) ((contrEquiv1 dot_S2048x1024_S2048x1024_S2048x2048_1_1_0_0_n_n 1024 rfl rfl).symm k) = ix2 p k :=
    funext fun a => Fin.ext (by
      match a with
      | ⟨0, _⟩ => exact lhs_dot_0 _ _
      | ⟨1, _⟩ => exact (lhs_dot_1 _ _).trans hk)
  have er : dot_S2048x1024_S2048x1024_S2048x2048_1_1_0_0_n_n.rhsIdx (ix2 p o) ((contrEquiv1 dot_S2048x1024_S2048x1024_S2048x2048_1_1_0_0_n_n 1024 rfl rfl).symm k) = ix2 o k :=
    funext fun a => Fin.ext (by
      match a with
      | ⟨0, _⟩ => exact rhs_dot_0 _ _
      | ⟨1, _⟩ => exact (rhs_dot_1 _ _).trans hk)
  rw [el, er]

/-! ## The body's stored value at an index -/

/-- The bias row broadcast over the rows, at `(p, o)`: the row's entry `o`. -/
theorem bias_at (x2 : Vec Ideal S1x2048 .f32) (p o : Fin 2048) :
    broadcastTo S2048x2048 x2 broadcasts_S1x2048_S2048x2048 (ix2 p o) = x2 (ix2 (0 : Fin 1) o) := by
  refine broadcastTo_apply x2 _ (ix2 p o) (ix2 (0 : Fin 1) o) fun a => ?_
  match a with
  | ⟨0, _⟩ => rfl
  | ⟨1, _⟩ => rfl

/-- The stored block at `(p, o)`, from the three loaded blocks. -/
theorem pay_at (x0 : Vec Ideal S2048x1024 .f32) (x1 : Vec Ideal S2048x1024 .bf16) (x2 : Vec Ideal S1x2048 .f32)
    (p o : Fin 2048) :
    k0_pay1 x0 x1 x2 (ix2 p o) = (∑ k : Fin 1024, x0 (ix2 p k) * x1 (ix2 o k)) + x2 (ix2 (0 : Fin 1) o) := by
  unfold k0_pay1
  simp only [shapeCast_self]
  rw [addf_apply, matmul_at, bias_at]
  rfl

/-! ## From the blocks to the array -/

variable (V : (c : Dev nD) → (b : Ref sig .tc) → Buf (Elt Ideal) ((c : Thread nD τ).loc b))

/-- The activations as the region finds them. -/
abbrev xArr (c : Dev nD) : FVec Ideal S32768x1024 .f32 := V c main_v2
/-- The second operand as the region finds it. -/
abbrev fArr (c : Dev nD) : FVec Ideal S2048x1024 .bf16 := V c main_v1
/-- The bias row as the region finds it. -/
abbrev bArr (c : Dev nD) : FVec Ideal S1x2048 .f32 := V c main_v3

/-- What the output array ends holding: the contraction of a row of the activations with a row of the second operand,
    plus the bias row's entry. -/
abbrev G (c : Dev nD) : S32768x2048.Idx → Elt Ideal .f32 := fun j =>
  (∑ k : Fin 1024, xArr V c (ix2 (j 0) k) * fArr V c (ix2 (j 1) k)) + bArr V c (ix2 (0 : Fin 1) (j 1))

theorem hz : (![0, 0] : Fin 2 → Nat) = fun _ => 0 := funext fun a => by fin_cases a <;> rfl

/-- The index maps over the grid: the activations' and the output's blocks move with the point along axis 0, the
    second operand's and the bias row's stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The activations' block at point `t`: rows `2048 t …` of the array. -/
theorem xblk_at (c : Dev nD) (t : Fin cfg0.N) (p : Fin 2048) (k : Fin 1024) (r : Fin 32768)
    (hr : r.val = t.val * 2048 + p.val) :
    (iblk0 V c 0 t : Vec Ideal S2048x1024 .f32) (ix2 p k) = xArr V c (ix2 r k) := by
  obtain ⟨e0, e1, -⟩ := idx_facts t
  unfold iblk0
  rw [View.read_apply]
  show V c main_v2 _ = V c main_v2 _
  congr 1
  funext a
  apply Fin.ext
  match a with
  | ⟨0, _⟩ => show win0_0.index t (0 : Fin 2) * 2048 + 1 * p.val = r.val; rw [e0, hr]; omega
  | ⟨1, _⟩ => show win0_0.index t (1 : Fin 2) * 1024 + 1 * k.val = k.val; rw [e1]; omega

/-- The second operand's block at every point: the whole array. -/
theorem fblk_at (c : Dev nD) (t : Fin cfg0.N) (o : Fin 2048) (k : Fin 1024) :
    (iblk0 V c 1 t : Vec Ideal S2048x1024 .bf16) (ix2 o k) = fArr V c (ix2 o k) := by
  obtain ⟨-, -, e2, e3, -⟩ := idx_facts t
  unfold iblk0
  rw [View.read_apply]
  show V c main_v1 _ = V c main_v1 _
  congr 1
  funext a
  apply Fin.ext
  match a with
  | ⟨0, _⟩ => show win0_1.index t (0 : Fin 2) * 2048 + 1 * o.val = o.val; rw [e2]; omega
  | ⟨1, _⟩ => show win0_1.index t (1 : Fin 2) * 1024 + 1 * k.val = k.val; rw [e3]; omega

/-- The bias row's block at every point: the whole row. -/
theorem bblk_at (c : Dev nD) (t : Fin cfg0.N) (o : Fin 2048) :
    (iblk0 V c 2 t : Vec Ideal S1x2048 .f32) (ix2 (0 : Fin 1) o) = bArr V c (ix2 (0 : Fin 1) o) := by
  obtain ⟨-, -, -, -, e4, e5, -⟩ := idx_facts t
  unfold iblk0
  rw [View.read_apply]
  show V c main_v3 _ = V c main_v3 _
  congr 1
  funext a
  apply Fin.ext
  match a with
  | ⟨0, _⟩ => show win0_2.index t (0 : Fin 2) * 1 + 1 * 0 = 0; rw [e4]
  | ⟨1, _⟩ => show win0_2.index t (1 : Fin 2) * 2048 + 1 * o.val = o.val; rw [e5]; omega

/-- What point `t` writes back is block `t` of `G`. -/
theorem flushed_eq (c : Dev nD) (t : Fin cfg0.N) :
    (dat0 (F := Ideal) V c).flushed 3 t = ((cfg0.win 3).blk t).view.read (Elt Ideal) (G V c) := by
  show (cfg0.win 3).cut (grid0.coords t) ((dat0 (F := Ideal) V c).after 3 t) = _
  rw [after0_3]
  unfold out0_3
  rw [View.canon_unit_zero hz]
  simp only [View.ld_unit_zero (S := S2048x1024) hz, View.ld_unit_zero (S := S1x2048) hz]
  obtain ⟨-, -, -, -, -, -, e6, e7⟩ := idx_facts t
  refine funext fun (j : S2048x2048.Idx) => ?_
  obtain ⟨p, o, rfl⟩ : ∃ (p : Fin 2048) (o : Fin 2048), j = ix2 p o := ⟨j 0, j 1, eq_ix2 j⟩
  have hp := p.isLt
  have ht : t.val < 16 := lt_of_lt_of_eq t.isLt N_0
  show k0_pay1 (iblk0 V c 0 t) (iblk0 V c 1 t) (iblk0 V c 2 t) (ix2 p o)
    = G V c (((cfg0.win 3).blk t).view.emb (ix2 p o))
  rw [pay_at]
  have hr : t.val * 2048 + p.val < 32768 := by omega
  have hemb : ((cfg0.win 3).blk t).view.emb (ix2 p o)
      = (ix2 (⟨t.val * 2048 + p.val, hr⟩ : Fin 32768) o : S32768x2048.Idx) :=
    funext fun a => Fin.ext (by
      match a with
      | ⟨0, _⟩ => show win0_3.index t (0 : Fin 2) * 2048 + 1 * p.val = t.val * 2048 + p.val; rw [e6]; omega
      | ⟨1, _⟩ => show win0_3.index t (1 : Fin 2) * 2048 + 1 * o.val = o.val; rw [e7]; omega)
  rw [hemb]
  show _ = (∑ k : Fin 1024, xArr V c (ix2 (⟨t.val * 2048 + p.val, hr⟩ : Fin 32768) k) * fArr V c (ix2 o k))
    + bArr V c (ix2 (0 : Fin 1) o)
  rw [bblk_at]
  congr 1
  refine Finset.sum_congr rfl fun k _ => ?_
  rw [xblk_at V c t p k ⟨t.val * 2048 + p.val, hr⟩ rfl, fblk_at]

/-- An index of the output is in point `t`'s block iff each coordinate is in the block's range on its axis. -/
theorem mem_blk (t : Fin cfg0.N) (i : S32768x2048.Idx) :
    i ∈ ((cfg0.win 3).blk t).view.set ↔ ∀ a : Fin 2, win0_3.index t a * S2048x2048.size a ≤ (i a).val
      ∧ (i a).val < win0_3.index t a * S2048x2048.size a + S2048x2048.size a := by
  show i ∈ ((View.whole main_v4).slice (win0_3.rect t)).set ↔ _
  rw [View.set_slice_whole, Rect.mem_set_unit]
  exact Iff.rfl

/-- Every index of the output is in the block of the point its row falls in. -/
theorem cover (i : S32768x2048.Idx) :
    ∃ t : Fin cfg0.N, (cfg0.win 3).flush t = true ∧ i ∈ ((cfg0.win 3).blk t).view.set := by
  have h0 : (i 0).val < 32768 := (i 0).isLt
  have h1 : (i 1).val < 2048 := (i 1).isLt
  obtain ⟨t, ht⟩ : ∃ t : Fin cfg0.N, t.val = (i 0).val / 2048 :=
    ⟨⟨(i 0).val / 2048, lt_of_lt_of_eq (by omega) N_0.symm⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 2048 ≤ (i 0).val ∧ (i 0).val < win0_3.index t (0 : Fin 2) * 2048 + 2048
    rw [e6, ht]; omega
  | ⟨1, _⟩ =>
    show win0_3.index t (1 : Fin 2) * 2048 ≤ (i 1).val ∧ (i 1).val < win0_3.index t (1 : Fin 2) * 2048 + 2048
    rw [e7]; omega

/-- The output array after the region is `G`. -/
theorem final (c : Dev nD) : (dat0 (F := Ideal) V c).arrAt 3 cfg0.N = G V c :=
  (dat0 (F := Ideal) V c).arrAt_eq_of_cover 3 (G V c) (fun t _ => flushed_eq V c t) cover

/-- The output array after the region at `(r, o)`: row `r` of the activations contracted with row `o` of the second
    operand, plus the bias row's entry `o`. -/
theorem arr3_at (c : Dev nD) (r : Fin 32768) (o : Fin 2048) :
    ((dat0 (F := Ideal) V c).arrAt 3 cfg0.N : FVec Ideal S32768x2048 .f32) (ix2 r o)
      = (∑ k : Fin 1024, xArr V c (ix2 r k) * fArr V c (ix2 o k)) + bArr V c (ix2 (0 : Fin 1) o) :=
  congrFun (final V c) (ix2 r o)

end Cert.KernelIdeal.KReg0

end
-- ==== Proof.KReg1PCommon.lean ====
/-
  The projected rows of one tile of region 1: row `n` of the sampled block against row `e` of the decorrelation
  block, summed over the 1024 features. Every statistic the region accumulates is a function of these.
-/
import proofs.«430983_j781684048736_3_alg».proof.Proof.Gen.KernelIdeal.Frame
import Idealize.ShloMosaic.Lib.ValueIdx

noncomputable section

open Idealize.ShloMosaic Idealize.ShloMosaic.ValueIdx
open Cert.KernelIdeal

namespace Cert.KernelIdeal.KReg1P

/-- The tile's projected rows. -/
def sdT (x0 x1 : Vec Ideal S1024x1024 .bf16) (n e : Fin 1024) : EReal := ∑ d : Fin 1024, x0 (ix2 n d) * x1 (ix2 e d)

end Cert.KernelIdeal.KReg1P

end
-- ==== Proof.KReg1PArith.lean ====
/-
  REGION 1's arithmetic at the extended reals, at an index. One grid point holds a tile of 1024 gathered rows
  `x0` and the decorrelation block `x1`; every payload of the statistics body is read here as a plain sum over `Fin`
  coordinates of the tile's projected rows `sdT x0 x1 n e = ∑ d, x0 n d · x1 e d`:
    the projection itself (a product contracting the feature axis of both operands) and its square;
    the Gram update `∑ n, sd n a · sd n b` (a product contracting the ROW axis of both operands; the narrowing of the
    projection before it is the identity on extended reals);
    the column sums of squares (a sum over axis 0);
    the correlation partial `∑ n, ((∑ e, sd²)² − ∑ e, sd⁴)` (two sums over axis 1 kept as a column, then a total sum of a
    [1, 1024, 1] vector) and the whitening partial `∑ n, ∑ e, (sd² − 1)²` (a total sum of a [1, 1024, 1024] vector);
    and the shape casts that add or drop unit axes around them.
-/
import proofs.«430983_j781684048736_3_alg».proof.Proof.Gen.KernelIdeal.Skeleton
import proofs.«430983_j781684048736_3_alg».proof.Proof.KReg1PCommon
import proofs.«430983_j781684048736_3_alg».proof.Proof.Spec
import Idealize.ShloMosaic.Lib.Pipeline.Value
import Idealize.ShloMosaic.Lib.ValueLayout
import Idealize.ShloMosaic.Lib.ValueIdx
import Idealize.ShloMosaic.PureOps.Ideal.Laws
import Mathlib.Algebra.BigOperators.Fin

noncomputable section

open Idealize.ShloMosaic Idealize.ShloMosaic.TcCoe Idealize.SL.Sem Idealize.ShloMosaic.ValueIdx
open Cert.KernelIdeal Cert.KernelIdeal.Gen Cert.Spec

namespace Cert.KernelIdeal.KReg1P

theorem hz2 : (![0, 0] : Fin 2 → Nat) = fun _ => 0 := funext fun a => by fin_cases a <;> rfl
theorem hz3 : (![0, 0, 0] : Fin 3 → Nat) = fun _ => 0 := funext fun a => by fin_cases a <;> rfl

/-! ## The projection: a product contracting axis 1 of both operands -/

theorem lhs_proj_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
theorem lhs_proj_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_proj_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
theorem rhs_proj_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The projection of the tile at row `n`, column `e`. -/
theorem pay8_at (x0 x1 : Vec Ideal S1024x1024 .bf16) (n e : Fin 1024) :
    k1_pay8 (F := Ideal) x0 x1 (ix2 n e) = sdT x0 x1 n e := by
  unfold k1_pay8
  simp only [matmul]
  rw [Ideal.matmul_constant_zero_apply,
    ← Equiv.sum_comp (contrEquiv1 dot_S1024x1024_S1024x1024_S1024x1024_1_1_0_0_n_n 1024 rfl rfl).symm]
  unfold sdT
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 n e)
      ((contrEquiv1 dot_S1024x1024_S1024x1024_S1024x1024_1_1_0_0_n_n 1024 rfl rfl).symm k) = ix2 n k :=
    funext fun a => Fin.ext (by
      match a with
      | ⟨0, _⟩ => exact lhs_proj_0 _ _
      | ⟨1, _⟩ => exact (lhs_proj_1 _ _).trans hk)
  have er : dot_S1024x1024_S1024x1024_S1024x1024_1_1_0_0_n_n.rhsIdx (ix2 n e)
      ((contrEquiv1 dot_S1024x1024_S1024x1024_S1024x1024_1_1_0_0_n_n 1024 rfl rfl).symm k) = ix2 e k :=
    funext fun a => Fin.ext (by
      match a with
      | ⟨0, _⟩ => exact rhs_proj_0 _ _
      | ⟨1, _⟩ => exact (rhs_proj_1 _ _).trans hk)
  rw [el, er, shapeCast_self, shapeCast_self]

/-- Its square. -/
theorem pay9_at (x0 x1 : Vec Ideal S1024x1024 .bf16) (n e : Fin 1024) :
    k1_pay9 (F := Ideal) x0 x1 (ix2 n e) = sdT x0 x1 n e * sdT x0 x1 n e := by
  unfold k1_pay9
  show k1_pay8 (F := Ideal) x0 x1 (ix2 n e) * k1_pay8 (F := Ideal) x0 x1 (ix2 n e) = _
  rw [pay8_at]

/-! ## The Gram update: a product contracting axis 0 (the rows) of both operands -/

theorem lhs_gram_0 (i : S1024x1024.Idx) (q : dot_S1024x1024_S1024x1024_S1024x1024_0_0_1_1_n_n.contr.Idx) :
    (dot_S1024x1024_S1024x1024_S1024x1024_0_0_1_1_n_n.lhsIdx i q 0).val = (q ⟨0, by decide⟩).val :=
  dot_S1024x1024_S1024x1024_S1024x1024_0_0_1_1_n_n.lhsIdx_val_of_single rfl i q
theorem lhs_gram_1 (i : S1024x1024.Idx) (q : dot_S1024x1024_S1024x1024_S1024x1024_0_0_1_1_n_n.contr.Idx) :
    (dot_S1024x1024_S1024x1024_S1024x1024_0_0_1_1_n_n.lhsIdx i q 1).val = (i 0).val := by
  unfold DotDims.lhsIdx
  rw [dif_neg (show ¬(1 : Fin S1024x1024.rank) ∈ dot_S1024x1024_S1024x1024_S1024x1024_0_0_1_1_n_n.lhsBatch by decide),
    dif_pos (show (1 : Fin S1024x1024.rank) ∈ dot_S1024x1024_S1024x1024_S1024x1024_0_0_1_1_n_n.lhsNonContracting by decide)]
  rfl
theorem rhs_gram_0 (i : S1024x1024.Idx) (q : dot_S1024x1024_S1024x1024_S1024x1024_0_0_1_1_n_n.contr.Idx) :
    (dot_S1024x1024_S1024x1024_S1024x1024_0_0_1_1_n_n.rhsIdx i q 0).val = (q ⟨0, by decide⟩).val :=
  dot_S1024x1024_S1024x1024_S1024x1024_0_0_1_1_n_n.rhsIdx_val_of_single rfl i q
theorem rhs_gram_1 (i : S1024x1024.Idx) (q : dot_S1024x1024_S1024x1024_S1024x1024_0_0_1_1_n_n.contr.Idx) :
    (dot_S1024x1024_S1024x1024_S1024x1024_0_0_1_1_n_n.rhsIdx i q 1).val = (i 1).val := by
  unfold DotDims.rhsIdx
  rw [dif_neg (show ¬(1 : Fin S1024x1024.rank) ∈ dot_S1024x1024_S1024x1024_S1024x1024_0_0_1_1_n_n.rhsBatch by decide),
    dif_pos (show (1 : Fin S1024x1024.rank) ∈ dot_S1024x1024_S1024x1024_S1024x1024_0_0_1_1_n_n.rhsNonContracting by decide)]
  rfl

/-- A matrix multiplied with itself over its rows, into the zero block: entry `(a, b)` is `∑ n, w n a · w n b`. -/
theorem gram_at (w : FVec Ideal S1024x1024 .bf16) (a b : Fin 1024) :
    FloatOps.matmul dot_S1024x1024_S1024x1024_S1024x1024_0_0_1_1_n_n none w w (constant (F := Ideal) S1024x1024 .f32 0x00000000#32) (ix2 a b)
      = ∑ n : Fin 1024, w (ix2 n a) * w (ix2 n b) := by
  rw [Ideal.matmul_constant_zero_apply,
    ← Equiv.sum_comp (contrEquiv1 dot_S1024x1024_S1024x1024_S1024x1024_0_0_1_1_n_n 1024 rfl rfl).symm]
  refine Finset.sum_congr rfl fun k _ => ?_
  have hk := contrEquiv1_symm_val dot_S1024x1024_S1024x1024_S1024x1024_0_0_1_1_n_n 1024 rfl rfl k
  have el : dot_S1024x1024_S1024x1024_S1024x1024_0_0_1_1_n_n.lhsIdx (ix2 a b)
      ((contrEquiv1 dot_S1024x1024_S1024x1024_S1024x1024_0_0_1_1_n_n 1024 rfl rfl).symm k) = ix2 k a :=
    funext fun c => Fin.ext (by
      match c with
      | ⟨0, _⟩ => exact (lhs_gram_0 _ _).trans hk
      | ⟨1, _⟩ => exact lhs_gram_1 _ _)
  have er : dot_S1024x1024_S1024x1024_S1024x1024_0_0_1_1_n_n.rhsIdx (ix2 a b)
      ((contrEquiv1 dot_S1024x1024_S1024x1024_S1024x1024_0_0_1_1_n_n 1024 rfl rfl).symm k) = ix2 k b :=
    funext fun c => Fin.ext (by
      match c with
      | ⟨0, _⟩ => exact (rhs_gram_0 _ _).trans hk
      | ⟨1, _⟩ => exact rhs_gram_1 _ _)
  rw [el, er]

/-- Window 2's payload: the block it loaded plus the Gram update of the tile's projected rows. -/
theorem pay12_at (x0 x1 : Vec Ideal S1024x1024 .bf16) (v29 : Vec Ideal S1x1024x1024 .f32) (a b : Fin 1024) :
    k1_pay12 (F := Ideal) x0 x1 v29 (ix3 (0 : Fin 1) a b)
      = v29 (ix3 (0 : Fin 1) a b) + ∑ n : Fin 1024, sdT x0 x1 n a * sdT x0 x1 n b := by
  unfold k1_pay12
  refine (shapeCast_ab_1ab_apply _ _ (0 : Fin 1) a b).trans ?_
  refine (addf_apply _ _ _).trans ?_
  refine congrArg₂ (· + ·) (shapeCast_1ab_ab_apply v29 _ a b) ?_
  refine (gram_at _ a b).trans ?_
  refine Finset.sum_congr rfl fun n _ => ?_
  rw [truncf_apply, truncf_apply, pay8_at, pay8_at]

/-! ## Sums over one axis, total sums, and the casts around them -/

/-- A sum over axis 1 (along a row). -/
theorem rowsum_at (v : FVec Ideal S1024x1024 .f32) (h : S1024x1024.Reduces [1] S1024) (hφ : FKind.Formats .f32)
    (hacc : (0x00000000#32 : BitVec 32) = FKind.add.neutral .f32 hφ) (n : Fin 1024) :
    multiReduction .add [1] S1024 v 0x00000000#32 h hφ hacc (ix1 n) = ∑ e : Fin 1024, v (ix2 n e) := by
  refine (Ideal.multiReduction_add_single v _ h hφ hacc (ix1 n)).trans ?_
  refine Finset.sum_congr rfl fun e _ => congrArg v ?_
  funext c
  apply Fin.ext
  match c with
  | ⟨0, _⟩ => rfl
  | ⟨1, _⟩ => rfl

/-- A sum over axis 0 (down a column). -/
theorem colsum_at (v : FVec Ideal S1024x1024 .f32) (h : S1024x1024.Reduces [0] S1024) (hφ : FKind.Formats .f32)
    (hacc : (0x00000000#32 : BitVec 32) = FKind.add.neutral .f32 hφ) (a : Fin 1024) :
    multiReduction .add [0] S1024 v 0x00000000#32 h hφ hacc (ix1 a) = ∑ n : Fin 1024, v (ix2 n a) := by
  refine (Ideal.multiReduction_add_single v _ h hφ hacc (ix1 a)).trans ?_
  refine Finset.sum_congr rfl fun n _ => congrArg v ?_
  funext c
  apply Fin.ext
  match c with
  | ⟨0, _⟩ => rfl
  | ⟨1, _⟩ => rfl

/-- A vector kept as a column: `[a]` cast to `[a, 1]` reads, at `(n, u)`, the operand at `n`. -/
theorem cast_col_at {α : Type} (w : S1024.Idx → α) (h : S1024.ShapeCasts S1024x1) (n : Fin 1024) (u : Fin 1) :
    shapeCast S1024x1 w h (ix2 n u) = w (ix1 n) :=
  shapeCast_apply w h _ _ (by
    have hu : u.val = 0 := by omega
    rw [Shape.rowMajor_val_one, Shape.rowMajor_val_two]
    show n.val = n.val * 1 + u.val
    rw [hu, Nat.mul_one, Nat.add_zero])

/-- A row sum kept as a column. -/
theorem col_rowsum_at (v : FVec Ideal S1024x1024 .f32) (h : S1024x1024.Reduces [1] S1024) (hφ : FKind.Formats .f32)
    (hacc : (0x00000000#32 : BitVec 32) = FKind.add.neutral .f32 hφ) (hc : S1024.ShapeCasts S1024x1) (n : Fin 1024) (u : Fin 1) :
    shapeCast S1024x1 (multiReduction .add [1] S1024 v 0x00000000#32 h hφ hacc) hc (ix2 n u) = ∑ e : Fin 1024, v (ix2 n e) :=
  (cast_col_at _ hc n u).trans (rowsum_at v h hφ hacc n)

/-- An index set with a leading unit axis is the product of its other two coordinate ranges … -/
def idxEquiv1ab {a b : Nat} : (⟨3, ![1, a, b]⟩ : Shape).Idx ≃ Fin a × Fin b where
  toFun i := (i 1, i 2)
  invFun p := ix3 (0 : Fin 1) p.1 p.2
  left_inv i := by
    funext d
    match d with
    | ⟨0, _⟩ => exact Fin.ext (Nat.lt_one_iff.mp (i 0).isLt).symm
    | ⟨1, _⟩ => rfl
    | ⟨2, _⟩ => rfl
  right_inv _ := rfl
/-- … so a sum over it is the double sum over those. -/
theorem sum_idx1ab {M : Type*} [AddCommMonoid M] {a b : Nat} (f : (⟨3, ![1, a, b]⟩ : Shape).Idx → M) :
    ∑ i, f i = ∑ p : Fin a, ∑ q : Fin b, f (ix3 (0 : Fin 1) p q) := by
  rw [← Equiv.sum_comp (idxEquiv1ab (a := a) (b := b)).symm f, Fintype.sum_prod_type]
  rfl

/-- The total sum of a `[1, 1024, 1]` vector is the sum down its one column. -/
theorem total_col_at (w : FVec Ideal S1x1024x1 .f32) (h : S1x1024x1.Reduces [1, 2] S1) (hφ : FKind.Formats .f32)
    (hacc : (0x00000000#32 : BitVec 32) = FKind.add.neutral .f32 hφ) (j : S1.Idx) :
    multiReduction .add [1, 2] S1 w 0x00000000#32 h hφ hacc j = ∑ n : Fin 1024, w (ix3 (0 : Fin 1) n (0 : Fin 1)) := by
  refine (Ideal.multiReduction_add_total w _ h (by decide) hφ hacc j).trans ?_
  refine (sum_idx1ab w).trans ?_
  exact Finset.sum_congr rfl fun n _ => Fin.sum_univ_one _

/-- The total sum of a `[1, 1024, 1024]` vector is the double sum over rows and columns. -/
theorem total_full_at (w : FVec Ideal S1x1024x1024 .f32) (h : S1x1024x1024.Reduces [1, 2] S1) (hφ : FKind.Formats .f32)
    (hacc : (0x00000000#32 : BitVec 32) = FKind.add.neutral .f32 hφ) (j : S1.Idx) :
    multiReduction .add [1, 2] S1 w 0x00000000#32 h hφ hacc j = ∑ n : Fin 1024, ∑ e : Fin 1024, w (ix3 (0 : Fin 1) n e) :=
  (Ideal.multiReduction_add_total w _ h (by decide) hφ hacc j).trans (sum_idx1ab w)

/-- The one element of a `[1]` vector, cast to `[1, 1, 1]` and extracted at the origin. -/
theorem extract_cast_at {α : Type} (w : S1.Idx → α) (h : S1.ShapeCasts S1x1x1) (hp : ∀ a, (![0, 0, 0] : Fin 3 → Nat) a < S1x1x1.size a) :
    extractAt ![0, 0, 0] (shapeCast S1x1x1 w h) hp = w (ix1 (0 : Fin 1)) := by
  unfold extractAt
  exact shapeCast_apply w h _ _ (by rw [Shape.rowMajor_val_one, Shape.rowMajor_val_three]; rfl)

/-! ## The payloads of windows 3, 4, 5 and the zero blocks -/

/-- Window 3's payload: the block it loaded plus the column sums of the squared projection `v8`. -/
theorem pay1_at (v8 : FVec Ideal S1024x1024 .f32) (v35 : Vec Ideal S1x1x1024 .f32) (a : Fin 1024) :
    k1_pay1 (F := Ideal) v8 v35 (ix3 (0 : Fin 1) (0 : Fin 1) a)
      = v35 (ix3 (0 : Fin 1) (0 : Fin 1) a) + ∑ n : Fin 1024, v8 (ix2 n a) := by
  unfold k1_pay1
  refine (shapeCast_ab_1ab_apply _ _ (0 : Fin 1) (0 : Fin 1) a).trans ?_
  refine (addf_apply _ _ _).trans ?_
  refine congrArg₂ (· + ·) (shapeCast_1ab_ab_apply v35 _ (0 : Fin 1) a) ?_
  refine (shapeCast_a_1a_apply _ _ (0 : Fin 1) a).trans ?_
  exact colsum_at v8 _ _ _ a

/-- Window 4's payload: the block it loaded plus the scalar partial `v19` on every lane. -/
theorem pay2_at (v19 : Ideal .f32) (v43 : Vec Ideal S1x1x128 .f32) (l : Fin 128) :
    k1_pay2 (F := Ideal) v19 v43 (ix3 (0 : Fin 1) (0 : Fin 1) l) = v43 (ix3 (0 : Fin 1) (0 : Fin 1) l) + v19 := by
  unfold k1_pay2
  refine (shapeCast_ab_1ab_apply _ _ (0 : Fin 1) (0 : Fin 1) l).trans ?_
  refine (addf_apply _ _ _).trans ?_
  exact congrArg₂ (· + ·) (shapeCast_1ab_ab_apply v43 _ (0 : Fin 1) l) rfl

/-- Window 5's payload: the block it loaded plus the scalar partial `v26` on every lane. -/
theorem pay3_at (v26 : Ideal .f32) (v50 : Vec Ideal S1x1x128 .f32) (l : Fin 128) :
    k1_pay3 (F := Ideal) v26 v50 (ix3 (0 : Fin 1) (0 : Fin 1) l) = v50 (ix3 (0 : Fin 1) (0 : Fin 1) l) + v26 := by
  unfold k1_pay3
  refine (shapeCast_ab_1ab_apply _ _ (0 : Fin 1) (0 : Fin 1) l).trans ?_
  refine (addf_apply _ _ _).trans ?_
  exact congrArg₂ (· + ·) (shapeCast_1ab_ab_apply v50 _ (0 : Fin 1) l) rfl

/-- The zero block the reset stores into window 2. -/
theorem pay4_at (a b : Fin 1024) : k1_pay4 (F := Ideal) (ix3 (0 : Fin 1) a b) = 0 := by
  unfold k1_pay4
  refine (shapeCast_ab_1ab_apply _ _ (0 : Fin 1) a b).trans ?_
  exact Ideal.ofBits_zero_f32
/-- The zero block the reset stores into window 3. -/
theorem pay5_at (a : Fin 1024) : k1_pay5 (F := Ideal) (ix3 (0 : Fin 1) (0 : Fin 1) a) = 0 := by
  unfold k1_pay5
  refine (shapeCast_ab_1ab_apply _ _ (0 : Fin 1) (0 : Fin 1) a).trans ?_
  exact Ideal.ofBits_zero_f32
/-- The zero block the reset stores into window 4. -/
theorem pay6_at (l : Fin 128) : k1_pay6 (F := Ideal) (ix3 (0 : Fin 1) (0 : Fin 1) l) = 0 := by
  unfold k1_pay6
  refine (shapeCast_ab_1ab_apply _ _ (0 : Fin 1) (0 : Fin 1) l).trans ?_
  exact Ideal.ofBits_zero_f32
/-- The zero block the reset stores into window 5. -/
theorem pay7_at (l : Fin 128) : k1_pay7 (F := Ideal) (ix3 (0 : Fin 1) (0 : Fin 1) l) = 0 := by
  unfold k1_pay7
  refine (shapeCast_ab_1ab_apply _ _ (0 : Fin 1) (0 : Fin 1) l).trans ?_
  exact Ideal.ofBits_zero_f32

/-- The correlation partial of the tile: over its rows, the square of the row's sum of squares minus its sum of fourth powers. -/
theorem pay10_eq (x0 x1 : Vec Ideal S1024x1024 .bf16) :
    k1_pay10 (F := Ideal) x0 x1 = ∑ n : Fin 1024, rowCorr (sdT x0 x1 n) := by
  unfold k1_pay10
  refine (extract_cast_at _ _ _).trans ?_
  refine (total_col_at _ _ _ _ _).trans ?_
  refine Finset.sum_congr rfl fun n _ => ?_
  refine (shapeCast_ab_1ab_apply _ _ (0 : Fin 1) n (0 : Fin 1)).trans ?_
  refine (subf_apply _ _ _).trans ?_
  unfold rowCorr
  have hs : ∀ hc : S1024.ShapeCasts S1024x1, ∀ h hφ hacc,
      shapeCast S1024x1 (multiReduction .add [1] S1024 (k1_pay9 (F := Ideal) x0 x1) 0x00000000#32 h hφ hacc) hc (ix2 n (0 : Fin 1))
        = ∑ e : Fin 1024, sdT x0 x1 n e * sdT x0 x1 n e := fun hc h hφ hacc =>
    (col_rowsum_at _ h hφ hacc hc n 0).trans (Finset.sum_congr rfl fun e _ => pay9_at x0 x1 n e)
  refine congrArg₂ (· - ·) ?_ ?_
  · refine (mulf_apply _ _ _).trans ?_
    exact congrArg₂ (· * ·) (hs _ _ _ _) (hs _ _ _ _)
  · refine (col_rowsum_at _ _ _ _ _ n 0).trans ?_
    refine Finset.sum_congr rfl fun e _ => ?_
    refine (mulf_apply _ _ _).trans ?_
    rw [pay9_at]

/-- The whitening partial of the tile: over its rows and columns, the square of the squared projection less one. -/
theorem pay11_eq (x0 x1 : Vec Ideal S1024x1024 .bf16) :
    k1_pay11 (F := Ideal) x0 x1 = ∑ n : Fin 1024, rowWhit (sdT x0 x1 n) := by
  unfold k1_pay11
  refine (extract_cast_at _ _ _).trans ?_
  refine (total_full_at _ _ _ _ _).trans ?_
  refine Finset.sum_congr rfl fun n _ => ?_
  unfold rowWhit
  refine Finset.sum_congr rfl fun e _ => ?_
  refine (shapeCast_ab_1ab_apply _ _ (0 : Fin 1) n e).trans ?_
  refine (mulf_apply _ _ _).trans ?_
  have e1 : subf (k1_pay9 (F := Ideal) x0 x1) (broadcast S1024x1024 (Scalar.ofBits (F := Ideal) .f32 0x3F800000#32)) (ix2 n e)
      = sdT x0 x1 n e * sdT x0 x1 n e - one := by
    refine (subf_apply _ _ _).trans ?_
    rw [pay9_at]
    rfl
  exact congrArg₂ (· * ·) e1 e1

end Cert.KernelIdeal.KReg1P

end
-- ==== Proof.KReg1P.lean ====
/-
  What each control case of REGION 1 leaves in output windows 2 and 3, read at an index, at the extended reals.
  At a grid point the statistics body holds a tile `x0` of 1024 gathered rows and the decorrelation block `x1`. In the
  case that continues an accumulation (`B`) an output window's staging buffer, holding `xo·`, is left at `xo·` plus the
  tile's contribution: one covering store whose payload loaded the buffer. In the case that starts one (`A`) the buffer is
  first stored the zero block, which the update then reads back: the later store covers, and `0 + contribution` is the
  contribution. The contributions, over the tile's projected rows `sdT x0 x1`: the Gram block `∑ n, sd n a · sd n b`
  (window 2) and the column sums of squares `∑ n, (sd n a)²` (window 3).
-/
import proofs.«430983_j781684048736_3_alg».proof.Proof.Gen.KernelIdeal.Frame
import proofs.«430983_j781684048736_3_alg».proof.Proof.KReg1PArith
import Idealize.ShloMosaic.Lib.Tactic

set_option maxRecDepth 16384

noncomputable section

open Idealize.ShloMosaic Idealize.ShloMosaic.TcCoe Idealize.SL.Sem Idealize.ShloMosaic.ValueIdx
open Cert.KernelIdeal Cert.KernelIdeal.Gen Cert.Spec

namespace Cert.KernelIdeal.KReg1P

/-! ## The pieces: what each case leaves in each window, as the payload of its covering store -/

theorem pieceB2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (x0 x1 : Vec Ideal S1024x1024 .bf16) (xo2 : Vec Ideal S1x1024x1024 .f32) (xo3 : Vec Ideal S1x1x1024 .f32) (xo4 xo5 : Vec Ideal S1x1x128 .f32) :
    out1_B_2 (F := Ideal) c i arg2 harg2 arg3 harg3 arg4 harg4 arg5 harg5 arg6 harg6 arg7 harg7 hc0 x0 x1 xo2 xo3 xo4 xo5 = k1_pay12 x0 x1 xo2 := by
  unfold out1_B_2
  rw [View.read_writes_eq_canon _ _ _ (cover1_B_2 c i arg2 harg2 arg3 harg3 arg4 harg4 arg5 harg5 arg6 harg6 arg7 harg7 hc0 x0 x1 xo2 xo3 xo4 xo5)]
  unfold kernelRun1_B
  dsimp only
  sl_unfold_words
  rw [View.canon_unit_zero hz3]
  simp only [View.readAt_eq_ld, harg2.read_unread, harg3.read_unread, harg4.read_unread, View.ld_unit_zero (S := S1x1024x1024) hz3, View.ld_unit_zero (S := S1024x1024) hz2]

theorem pieceB3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (x0 x1 : Vec Ideal S1024x1024 .bf16) (xo2 : Vec Ideal S1x1024x1024 .f32) (xo3 : Vec Ideal S1x1x1024 .f32) (xo4 xo5 : Vec Ideal S1x1x128 .f32) :
    out1_B_3 (F := Ideal) c i arg2 harg2 arg3 harg3 arg4 harg4 arg5 harg5 arg6 harg6 arg7 harg7 hc0 x0 x1 xo2 xo3 xo4 xo5 = k1_pay1 (k1_pay9 x0 x1) xo3 := by
  unfold out1_B_3
  rw [View.read_writes_eq_canon _ _ _ (cover1_B_3 c i arg2 harg2 arg3 harg3 arg4 harg4 arg5 harg5 arg6 harg6 arg7 harg7 hc0 x0 x1 xo2 xo3 xo4 xo5)]
  unfold kernelRun1_B
  dsimp only
  sl_unfold_words
  rw [View.canon_unit_zero hz3]
  simp only [View.readAt_eq_ld, harg2.read_unread, harg3.read_unread, harg5.read_unread, View.ld_unit_zero (S := S1x1x1024) hz3, View.ld_unit_zero (S := S1024x1024) hz2]

theorem pieceA2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1x128 .f32) (harg6 : arg6.IsWhole) (arg7 : Memref sig .tc .vmem S1x1x128 .f32) (harg7 : arg7.IsWhole) (hc0 : cond1_0 i) (x0 x1 : Vec Ideal S1024x1024 .bf16) :
    out1_A_2 (F := Ideal) c i arg2 harg2 arg3 harg3 arg4 harg4 arg5 harg5 arg6 harg6 arg7 harg7 hc0 x0 x1 = k1_pay12 x0 x1 (k1_pay4 (F := Ideal)) := by
  unfold out1_A_2
  rw [View.read_writes_eq_canon _ _ _ (cover1_A_2 c i arg2 harg2 arg3 harg3 arg4 harg4 arg5 harg5 arg6 harg6 arg7 harg7 hc0 x0 x1)]
  unfold kernelRun1_A
  dsimp only
  sl_unfold_words
  rw [View.canon_cons_unit_zero (S := S1x1024x1024) hz3, View.readCov_unit_zero (S := S1x1024x1024) _ hz3]
  simp only [View.readAt_eq_ld, harg2.read_unread, harg3.read_unread, View.ld_unit_zero (S := S1024x1024) hz2]

theorem pieceA3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1x128 .f32) (harg6 : arg6.IsWhole) (arg7 : Memref sig .tc .vmem S1x1x128 .f32) (harg7 : arg7.IsWhole) (hc0 : cond1_0 i) (x0 x1 : Vec Ideal S1024x1024 .bf16) :
    out1_A_3 (F := Ideal) c i arg2 harg2 arg3 harg3 arg4 harg4 arg5 harg5 arg6 harg6 arg7 harg7 hc0 x0 x1 = k1_pay1 (k1_pay9 x0 x1) (k1_pay5 (F := Ideal)) := by
  unfold out1_A_3
  rw [View.read_writes_eq_canon _ _ _ (cover1_A_3 c i arg2 harg2 arg3 harg3 arg4 harg4 arg5 harg5 arg6 harg6 arg7 harg7 hc0 x0 x1)]
  unfold kernelRun1_A
  dsimp only
  sl_unfold_words
  rw [View.canon_cons_unit_zero (S := S1x1x1024) hz3, View.readCov_unit_zero (S := S1x1x1024) _ hz3]
  simp only [View.readAt_eq_ld, harg2.read_unread, harg3.read_unread, View.ld_unit_zero (S := S1024x1024) hz2]

/-! ## Window 2: the Gram block -/

theorem outA2_at (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1x128 .f32) (harg6 : arg6.IsWhole) (arg7 : Memref sig .tc .vmem S1x1x128 .f32) (harg7 : arg7.IsWhole) (hc0 : cond1_0 i) (x0 x1 : Vec Ideal S1024x1024 .bf16) (a b : Fin 1024) :
    out1_A_2 (F := Ideal) c i arg2 harg2 arg3 harg3 arg4 harg4 arg5 harg5 arg6 harg6 arg7 harg7 hc0 x0 x1 (ix3 (0 : Fin 1) a b) = ∑ n : Fin 1024, sdT x0 x1 n a * sdT x0 x1 n b := by
  refine (congrFun (pieceA2 c i arg2 harg2 arg3 harg3 arg4 harg4 arg5 harg5 arg6 harg6 arg7 harg7 hc0 x0 x1) _).trans ?_
  refine (pay12_at x0 x1 _ a b).trans ?_
  rw [pay4_at, zero_add]

theorem outB2_at (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (x0 x1 : Vec Ideal S1024x1024 .bf16) (xo2 : Vec Ideal S1x1024x1024 .f32) (xo3 : Vec Ideal S1x1x1024 .f32) (xo4 xo5 : Vec Ideal S1x1x128 .f32) (a b : Fin 1024) :
    out1_B_2 (F := Ideal) c i arg2 harg2 arg3 harg3 arg4 harg4 arg5 harg5 arg6 harg6 arg7 harg7 hc0 x0 x1 xo2 xo3 xo4 xo5 (ix3 (0 : Fin 1) a b)
      = xo2 (ix3 (0 : Fin 1) a b) + ∑ n : Fin 1024, sdT x0 x1 n a * sdT x0 x1 n b :=
  (congrFun (pieceB2 c i arg2 harg2 arg3 harg3 arg4 harg4 arg5 harg5 arg6 harg6 arg7 harg7 hc0 x0 x1 xo2 xo3 xo4 xo5) _).trans (pay12_at x0 x1 xo2 a b)

/-! ## Window 3: the column sums of squares -/

theorem outA3_at (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1x128 .f32) (harg6 : arg6.IsWhole) (arg7 : Memref sig .tc .vmem S1x1x128 .f32) (harg7 : arg7.IsWhole) (hc0 : cond1_0 i) (x0 x1 : Vec Ideal S1024x1024 .bf16) (a : Fin 1024) :
    out1_A_3 (F := Ideal) c i arg2 harg2 arg3 harg3 arg4 harg4 arg5 harg5 arg6 harg6 arg7 harg7 hc0 x0 x1 (ix3 (0 : Fin 1) (0 : Fin 1) a) = ∑ n : Fin 1024, sdT x0 x1 n a * sdT x0 x1 n a := by
  refine (congrFun (pieceA3 c i arg2 harg2 arg3 harg3 arg4 harg4 arg5 harg5 arg6 harg6 arg7 harg7 hc0 x0 x1) _).trans ?_
  refine (pay1_at _ _ a).trans ?_
  rw [pay5_at, zero_add]
  exact Finset.sum_congr rfl fun n _ => pay9_at x0 x1 n a

theorem outB3_at (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (x0 x1 : Vec Ideal S1024x1024 .bf16) (xo2 : Vec Ideal S1x1024x1024 .f32) (xo3 : Vec Ideal S1x1x1024 .f32) (xo4 xo5 : Vec Ideal S1x1x128 .f32) (a : Fin 1024) :
    out1_B_3 (F := Ideal) c i arg2 harg2 arg3 harg3 arg4 harg4 arg5 harg5 arg6 harg6 arg7 harg7 hc0 x0 x1 xo2 xo3 xo4 xo5 (ix3 (0 : Fin 1) (0 : Fin 1) a)
      = xo3 (ix3 (0 : Fin 1) (0 : Fin 1) a) + ∑ n : Fin 1024, sdT x0 x1 n a * sdT x0 x1 n a := by
  refine (congrFun (pieceB3 c i arg2 harg2 arg3 harg3 arg4 harg4 arg5 harg5 arg6 harg6 arg7 harg7 hc0 x0 x1 xo2 xo3 xo4 xo5) _).trans ?_
  refine (pay1_at _ xo3 a).trans ?_
  exact congrArg (xo3 (ix3 (0 : Fin 1) (0 : Fin 1) a) + ·) (Finset.sum_congr rfl fun n _ => pay9_at x0 x1 n a)

end Cert.KernelIdeal.KReg1P

end
-- ==== Proof.KReg1P45.lean ====
/-
  REGION 1's found pieces read as values, windows 4 and 5, per control case, at an index, at the extended reals.
  At a grid point the statistics body holds a tile `x0` of 1024 gathered rows and the decorrelation block `x1`. In the
  case that continues an accumulation (`B`) an output window's staging buffer, holding `xo·`, is left at `xo·` plus the
  tile's contribution: one covering store whose payload loaded the buffer. In the case that starts one (`A`) the buffer is
  first stored the zero block, which the update then reads back: the later store covers, and `0 + contribution` is the
  contribution. The contributions, over the tile's projected rows `sdT x0 x1`, the same on each of the 128 lanes: the
  correlation partial `∑ n, rowCorr (sd n)` (window 4) and the whitening partial `∑ n, rowWhit (sd n)` (window 5).
-/
import proofs.«430983_j781684048736_3_alg».proof.Proof.Gen.KernelIdeal.Frame
import proofs.«430983_j781684048736_3_alg».proof.Proof.KReg1PArith
import Idealize.ShloMosaic.Lib.Tactic

set_option maxRecDepth 16384

noncomputable section

open Idealize.ShloMosaic Idealize.ShloMosaic.TcCoe Idealize.SL.Sem Idealize.ShloMosaic.ValueIdx
open Cert.KernelIdeal Cert.KernelIdeal.Gen Cert.Spec

namespace Cert.KernelIdeal.KReg1P

/-! ## The pieces: what each case leaves in each window, as the payload of its covering store -/

theorem pieceB4 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (x0 x1 : Vec Ideal S1024x1024 .bf16) (xo2 : Vec Ideal S1x1024x1024 .f32) (xo3 : Vec Ideal S1x1x1024 .f32) (xo4 xo5 : Vec Ideal S1x1x128 .f32) :
    out1_B_4 (F := Ideal) c i arg2 harg2 arg3 harg3 arg4 harg4 arg5 harg5 arg6 harg6 arg7 harg7 hc0 x0 x1 xo2 xo3 xo4 xo5 = k1_pay2 (k1_pay10 x0 x1) xo4 := by
  unfold out1_B_4
  rw [View.read_writes_eq_canon _ _ _ (cover1_B_4 c i arg2 harg2 arg3 harg3 arg4 harg4 arg5 harg5 arg6 harg6 arg7 harg7 hc0 x0 x1 xo2 xo3 xo4 xo5)]
  unfold kernelRun1_B
  dsimp only
  sl_unfold_words
  rw [View.canon_unit_zero hz3]
  simp only [View.readAt_eq_ld, harg2.read_unread, harg3.read_unread, harg6.read_unread, View.ld_unit_zero (S := S1x1x128) hz3, View.ld_unit_zero (S := S1024x1024) hz2]

theorem pieceB5 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (x0 x1 : Vec Ideal S1024x1024 .bf16) (xo2 : Vec Ideal S1x1024x1024 .f32) (xo3 : Vec Ideal S1x1x1024 .f32) (xo4 xo5 : Vec Ideal S1x1x128 .f32) :
    out1_B_5 (F := Ideal) c i arg2 harg2 arg3 harg3 arg4 harg4 arg5 harg5 arg6 harg6 arg7 harg7 hc0 x0 x1 xo2 xo3 xo4 xo5 = k1_pay3 (k1_pay11 x0 x1) xo5 := by
  unfold out1_B_5
  rw [View.read_writes_eq_canon _ _ _ (cover1_B_5 c i arg2 harg2 arg3 harg3 arg4 harg4 arg5 harg5 arg6 harg6 arg7 harg7 hc0 x0 x1 xo2 xo3 xo4 xo5)]
  unfold kernelRun1_B
  dsimp only
  sl_unfold_words
  rw [View.canon_unit_zero hz3]
  simp only [View.readAt_eq_ld, harg2.read_unread, harg3.read_unread, harg7.read_unread, View.ld_unit_zero (S := S1x1x128) hz3, View.ld_unit_zero (S := S1024x1024) hz2]

theorem pieceA4 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1x128 .f32) (harg6 : arg6.IsWhole) (arg7 : Memref sig .tc .vmem S1x1x128 .f32) (harg7 : arg7.IsWhole) (hc0 : cond1_0 i) (x0 x1 : Vec Ideal S1024x1024 .bf16) :
    out1_A_4 (F := Ideal) c i arg2 harg2 arg3 harg3 arg4 harg4 arg5 harg5 arg6 harg6 arg7 harg7 hc0 x0 x1 = k1_pay2 (k1_pay10 x0 x1) (k1_pay6 (F := Ideal)) := by
  unfold out1_A_4
  rw [View.read_writes_eq_canon _ _ _ (cover1_A_4 c i arg2 harg2 arg3 harg3 arg4 harg4 arg5 harg5 arg6 harg6 arg7 harg7 hc0 x0 x1)]
  unfold kernelRun1_A
  dsimp only
  sl_unfold_words
  rw [View.canon_cons_unit_zero (S := S1x1x128) hz3, View.readCov_unit_zero (S := S1x1x128) _ hz3]
  simp only [View.readAt_eq_ld, harg2.read_unread, harg3.read_unread, View.ld_unit_zero (S := S1024x1024) hz2]

theorem pieceA5 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1x128 .f32) (harg6 : arg6.IsWhole) (arg7 : Memref sig .tc .vmem S1x1x128 .f32) (harg7 : arg7.IsWhole) (hc0 : cond1_0 i) (x0 x1 : Vec Ideal S1024x1024 .bf16) :
    out1_A_5 (F := Ideal) c i arg2 harg2 arg3 harg3 arg4 harg4 arg5 harg5 arg6 harg6 arg7 harg7 hc0 x0 x1 = k1_pay3 (k1_pay11 x0 x1) (k1_pay7 (F := Ideal)) := by
  unfold out1_A_5
  rw [View.read_writes_eq_canon _ _ _ (cover1_A_5 c i arg2 harg2 arg3 harg3 arg4 harg4 arg5 harg5 arg6 harg6 arg7 harg7 hc0 x0 x1)]
  unfold kernelRun1_A
  dsimp only
  sl_unfold_words
  rw [View.canon_cons_unit_zero (S := S1x1x128) hz3, View.readCov_unit_zero (S := S1x1x128) _ hz3]
  simp only [View.readAt_eq_ld, harg2.read_unread, harg3.read_unread, View.ld_unit_zero (S := S1024x1024) hz2]

/-! ## Window 4: the correlation partial, on every lane -/

theorem outA4_at (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1x128 .f32) (harg6 : arg6.IsWhole) (arg7 : Memref sig .tc .vmem S1x1x128 .f32) (harg7 : arg7.IsWhole) (hc0 : cond1_0 i) (x0 x1 : Vec Ideal S1024x1024 .bf16) (l : Fin 128) :
    out1_A_4 (F := Ideal) c i arg2 harg2 arg3 harg3 arg4 harg4 arg5 harg5 arg6 harg6 arg7 harg7 hc0 x0 x1 (ix3 (0 : Fin 1) (0 : Fin 1) l) = ∑ n : Fin 1024, Cert.Spec.rowCorr (sdT x0 x1 n) := by
  refine (congrFun (pieceA4 c i arg2 harg2 arg3 harg3 arg4 harg4 arg5 harg5 arg6 harg6 arg7 harg7 hc0 x0 x1) _).trans ?_
  refine (pay2_at _ _ l).trans ?_
  rw [pay6_at, zero_add]
  exact pay10_eq x0 x1

theorem outB4_at (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (x0 x1 : Vec Ideal S1024x1024 .bf16) (xo2 : Vec Ideal S1x1024x1024 .f32) (xo3 : Vec Ideal S1x1x1024 .f32) (xo4 xo5 : Vec Ideal S1x1x128 .f32) (l : Fin 128) :
    out1_B_4 (F := Ideal) c i arg2 harg2 arg3 harg3 arg4 harg4 arg5 harg5 arg6 harg6 arg7 harg7 hc0 x0 x1 xo2 xo3 xo4 xo5 (ix3 (0 : Fin 1) (0 : Fin 1) l)
      = xo4 (ix3 (0 : Fin 1) (0 : Fin 1) l) + ∑ n : Fin 1024, Cert.Spec.rowCorr (sdT x0 x1 n) := by
  refine (congrFun (pieceB4 c i arg2 harg2 arg3 harg3 arg4 harg4 arg5 harg5 arg6 harg6 arg7 harg7 hc0 x0 x1 xo2 xo3 xo4 xo5) _).trans ?_
  refine (pay2_at _ xo4 l).trans ?_
  exact congrArg (xo4 (ix3 (0 : Fin 1) (0 : Fin 1) l) + ·) (pay10_eq x0 x1)

/-! ## Window 5: the whitening partial, on every lane -/

theorem outA5_at (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1x128 .f32) (harg6 : arg6.IsWhole) (arg7 : Memref sig .tc .vmem S1x1x128 .f32) (harg7 : arg7.IsWhole) (hc0 : cond1_0 i) (x0 x1 : Vec Ideal S1024x1024 .bf16) (l : Fin 128) :
    out1_A_5 (F := Ideal) c i arg2 harg2 arg3 harg3 arg4 harg4 arg5 harg5 arg6 harg6 arg7 harg7 hc0 x0 x1 (ix3 (0 : Fin 1) (0 : Fin 1) l) = ∑ n : Fin 1024, Cert.Spec.rowWhit (sdT x0 x1 n) := by
  refine (congrFun (pieceA5 c i arg2 harg2 arg3 harg3 arg4 harg4 arg5 harg5 arg6 harg6 arg7 harg7 hc0 x0 x1) _).trans ?_
  refine (pay3_at _ _ l).trans ?_
  rw [pay7_at, zero_add]
  exact pay11_eq x0 x1

theorem outB5_at (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (x0 x1 : Vec Ideal S1024x1024 .bf16) (xo2 : Vec Ideal S1x1024x1024 .f32) (xo3 : Vec Ideal S1x1x1024 .f32) (xo4 xo5 : Vec Ideal S1x1x128 .f32) (l : Fin 128) :
    out1_B_5 (F := Ideal) c i arg2 harg2 arg3 harg3 arg4 harg4 arg5 harg5 arg6 harg6 arg7 harg7 hc0 x0 x1 xo2 xo3 xo4 xo5 (ix3 (0 : Fin 1) (0 : Fin 1) l)
      = xo5 (ix3 (0 : Fin 1) (0 : Fin 1) l) + ∑ n : Fin 1024, Cert.Spec.rowWhit (sdT x0 x1 n) := by
  refine (congrFun (pieceB5 c i arg2 harg2 arg3 harg3 arg4 harg4 arg5 harg5 arg6 harg6 arg7 harg7 hc0 x0 x1 xo2 xo3 xo4 xo5) _).trans ?_
  refine (pay3_at _ xo5 l).trans ?_
  exact congrArg (xo5 (ix3 (0 : Fin 1) (0 : Fin 1) l) + ·) (pay11_eq x0 x1)

end Cert.KernelIdeal.KReg1P

end
-- ==== Proof.KReg1.lean ====
/-
  The second pipeline's four accumulated result arrays, read at an index, for any buffer contents `V` at the
  region's entry. The grid has 2 · 4 points; point `t = 4c + s` (slab `c`, step `s`) reads rows
  `1024t … 1024t + 1023` of the 8192 sampled rows and the whole decorrelation matrix; each output block is indexed
  by the slab alone, is reset at step 0, gains one tile's statistic at every step and is written back at step 3.
  So slab `c` of each array ends at the sum over the four steps of the tile statistics: the Gram block
  `∑ s n, sd r a · sd r b`, the column sums of squares `∑ s n, (sd r a)²`, and the per-row correlation and
  whitening terms summed over the tile rows `r = tileRow c s n`.
-/
import proofs.«430983_j781684048736_3_alg».proof.Proof.Gen.KernelIdeal.Frame
import proofs.«430983_j781684048736_3_alg».proof.Proof.Spec
import proofs.«430983_j781684048736_3_alg».proof.Proof.KReg1P
import proofs.«430983_j781684048736_3_alg».proof.Proof.KReg1P45
import Idealize.ShloMosaic.Lib.ValueIdx
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)
open Cert.KernelIdeal Cert.KernelIdeal.Gen Cert.Spec Cert.KernelIdeal.KReg1P

namespace Cert.KernelIdeal.KReg1

variable (V : (c : Dev nD) → (b : Ref sig .tc) → Buf (Elt Ideal) ((c : Thread nD τ).loc b))

/-- Window 0's array: the 8192 sampled rows. -/
abbrev selArr (c : Dev nD) : FVec Ideal S8192x1024 .bf16 := V c main_v9
/-- Window 1's array: the decorrelation matrix. -/
abbrev qArr (c : Dev nD) : FVec Ideal S1024x1024 .bf16 := V c main_v10

/-- The projected rows of the region's input arrays. -/
def sd (c : Dev nD) : Fin 8192 → Fin 1024 → EReal :=
  Cert.Spec.sdAt (fun n d => selArr V c (ix2 n d)) (fun e d => qArr V c (ix2 e d))

/-! ## The input blocks at a point -/

/-- Window 0's block at point `t`, as a vector of its literal shape. -/
abbrev xblk (c : Dev nD) (t : Fin cfg1.N) : Vec Ideal S1024x1024 .bf16 := iblk1 V c 0 t
/-- Window 1's block at point `t`, as a vector of its literal shape. -/
abbrev qblk (c : Dev nD) (t : Fin cfg1.N) : Vec Ideal S1024x1024 .bf16 := iblk1 V c 1 t

/-- Window 0's block index at point `t` is `(t, 0)`: decided over the grid. -/
theorem idx1_0 : ∀ t : Fin cfg1.N, win1_0.index t 0 = t.val ∧ win1_0.index t 1 = 0 :=
  (by decide +kernel : ∀ t : Fin grid1.N, win1_0.index t 0 = t.val ∧ win1_0.index t 1 = 0)
/-- Window 1's block index is `(0, 0)` at every point. -/
theorem idx1_1 : ∀ t : Fin cfg1.N, win1_1.index t 0 = 0 ∧ win1_1.index t 1 = 0 :=
  (by decide +kernel : ∀ t : Fin grid1.N, win1_1.index t 0 = 0 ∧ win1_1.index t 1 = 0)

/-- Row `n` of window 0's block at point `t` is row `1024 t + n` of the sampled rows. -/
theorem xblk_at (c : Dev nD) (t : Fin cfg1.N) (n d : Fin 1024) (h : 1024 * t.val + n.val < 8192) :
    xblk V c t (ix2 n d) = selArr V c (ix2 ⟨1024 * t.val + n.val, h⟩ d) := by
  unfold xblk iblk1
  rw [View.read_apply]
  show V c main_v9 _ = V c main_v9 _
  congr 1
  funext a
  apply Fin.ext
  match a with
  | ⟨0, _⟩ => show win1_0.index t 0 * 1024 + 1 * n.val = 1024 * t.val + n.val; rw [(idx1_0 t).1]; omega
  | ⟨1, _⟩ => show win1_0.index t 1 * 1024 + 1 * d.val = d.val; rw [(idx1_0 t).2]; omega

/-- Window 1's block at any point is the whole decorrelation matrix. -/
theorem qblk_at (c : Dev nD) (t : Fin cfg1.N) (e d : Fin 1024) :
    qblk V c t (ix2 e d) = qArr V c (ix2 e d) := by
  unfold qblk iblk1
  rw [View.read_apply]
  show V c main_v10 _ = V c main_v10 _
  congr 1
  funext a
  apply Fin.ext
  match a with
  | ⟨0, _⟩ => show win1_1.index t 0 * 1024 + 1 * e.val = e.val; rw [(idx1_1 t).1]; omega
  | ⟨1, _⟩ => show win1_1.index t 1 * 1024 + 1 * d.val = d.val; rw [(idx1_1 t).2]; omega

/-! ## A tile's projected rows -/

/-- Row `k` of tile `p` of the projected rows (tiles past the eighth are empty; they are never read). -/
def sdP (c : Dev nD) (p : ℕ) (k e : Fin 1024) : EReal :=
  if h : 1024 * p + k.val < 8192 then sd V c ⟨1024 * p + k.val, h⟩ e else 0

/-- The projection computed from the blocks at point `t` is tile `t` of the projected rows. -/
theorem sdT_blk (c : Dev nD) (t : Fin cfg1.N) (k e : Fin 1024) :
    sdT (xblk V c t) (qblk V c t) k e = sdP V c t.val k e := by
  have hN : cfg1.N = 8 := N_1
  have h : 1024 * t.val + k.val < 8192 := by have := t.isLt; have := k.isLt; omega
  unfold sdP
  rw [dif_pos h]
  unfold sdT sd Cert.Spec.sdAt
  exact Finset.sum_congr rfl fun d _ => by rw [xblk_at V c t k d h, qblk_at V c t e d]

/-- The same, for a whole projected row. -/
theorem sdT_blk_row (c : Dev nD) (t : Fin cfg1.N) (k : Fin 1024) :
    sdT (xblk V c t) (qblk V c t) k = sdP V c t.val k := funext fun e => sdT_blk V c t k e

/-- Tile `4c + s` is the rows `tileRow c s ·`. -/
theorem sdP_tile (c : Dev nD) (cc : Fin 2) (s : Fin 4) (k e : Fin 1024) :
    sdP V c (4 * cc.val + s.val) k e = sd V c (tileRow cc s k) e := by
  have h : 1024 * (4 * cc.val + s.val) + k.val < 8192 := by have := cc.isLt; have := s.isLt; have := k.isLt; omega
  unfold sdP
  rw [dif_pos h]
  congr 1
  apply Fin.ext
  simp only [tileRow_val]
  omega

/-- The same, for a whole projected row. -/
theorem sdP_tile_row (c : Dev nD) (cc : Fin 2) (s : Fin 4) (k : Fin 1024) :
    sdP V c (4 * cc.val + s.val) k = sd V c (tileRow cc s k) := funext fun e => sdP_tile V c cc s k e

/-! ## The accumulation over a slab's steps -/

/-- A quantity that is reset to the point's term at every fourth point and gains the point's term at every other
    point is, after point `n`, the sum of the terms of its slab's steps so far. By induction on the point. -/
theorem acc_range (f : (n : ℕ) → n < cfg1.N → EReal) (T : ℕ → EReal)
    (hA : ∀ t : Fin cfg1.N, t.val % 4 = 0 → f t.val t.isLt = T t.val)
    (hB : ∀ t : Fin cfg1.N, ¬t.val % 4 = 0 →
      f t.val t.isLt = f (t.val - 1) (Nat.lt_of_le_of_lt (Nat.sub_le _ _) t.isLt) + T t.val) :
    ∀ (n : ℕ) (hn : n < cfg1.N), f n hn = ∑ s ∈ Finset.range (n % 4 + 1), T (4 * (n / 4) + s)
  | 0, hn => by
    rw [hA ⟨0, hn⟩ rfl]
    simp
  | n + 1, hn => by
    by_cases h0 : (n + 1) % 4 = 0
    · rw [hA ⟨n + 1, hn⟩ h0, h0, Finset.sum_range_one]
      congr 1
      show n + 1 = _
      omega
    · rw [hB ⟨n + 1, hn⟩ h0]
      show f n _ + T (n + 1) = _
      rw [acc_range f T hA hB n (Nat.lt_of_succ_lt hn)]
      have e1 : (n + 1) % 4 = n % 4 + 1 := by omega
      have e2 : (n + 1) / 4 = n / 4 := by omega
      rw [e1, e2, Finset.sum_range_succ _ (n % 4 + 1)]
      congr 2
      omega

/-! ## Window 3: the column sums of squares -/

/-- Window 3's block after point `n`. -/
abbrev o3 (c : Dev nD) (n : ℕ) (hn : n < cfg1.N) : Vec Ideal S1x1x1024 .f32 := (outsAt1 V c n hn).2.1

/-- Tile `p`'s column sum of squares at column `a`. -/
def T3 (c : Dev nD) (p : ℕ) (a : Fin 1024) : EReal := ∑ k : Fin 1024, sdP V c p k a * sdP V c p k a

/-- At a slab's first step the block is reset and holds the point's tile term. -/
theorem o3_A (c : Dev nD) (a : Fin 1024) (t : Fin cfg1.N) (h0 : t.val % 4 = 0) :
    o3 V c t.val t.isLt (ix3 (0 : Fin 1) (0 : Fin 1) a) = T3 V c t.val a := by
  show (outsAt1 V c t.val t.isLt).2.1 (ix3 (0 : Fin 1) (0 : Fin 1) a) = _
  rw [outsAt1_A V c t h0]
  dsimp only
  refine (outA3_at c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (xblk V c t) (qblk V c t) a).trans ?_
  unfold T3
  exact Finset.sum_congr rfl fun k _ => by rw [sdT_blk V c t k a]

/-- At every other step the block gains the point's tile term. -/
theorem o3_B (c : Dev nD) (a : Fin 1024) (t : Fin cfg1.N) (h0 : ¬t.val % 4 = 0) :
    o3 V c t.val t.isLt (ix3 (0 : Fin 1) (0 : Fin 1) a)
      = o3 V c (t.val - 1) (Nat.lt_of_le_of_lt (Nat.sub_le _ _) t.isLt) (ix3 (0 : Fin 1) (0 : Fin 1) a) + T3 V c t.val a := by
  show (outsAt1 V c t.val t.isLt).2.1 (ix3 (0 : Fin 1) (0 : Fin 1) a) = _
  rw [outsAt1_B V c t h0]
  dsimp only
  refine (outB3_at c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (xblk V c t) (qblk V c t)
    (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 a).trans ?_
  unfold T3
  exact congrArg _ (Finset.sum_congr rfl fun k _ => by rw [sdT_blk V c t k a])

/-- After point `n` the block holds the tile terms of the slab's steps so far. -/
theorem inv3 (c : Dev nD) (a : Fin 1024) (n : ℕ) (hn : n < cfg1.N) :
    o3 V c n hn (ix3 (0 : Fin 1) (0 : Fin 1) a) = ∑ s ∈ Finset.range (n % 4 + 1), T3 V c (4 * (n / 4) + s) a :=
  acc_range (fun n hn => o3 V c n hn (ix3 (0 : Fin 1) (0 : Fin 1) a)) (fun p => T3 V c p a)
    (o3_A V c a) (o3_B V c a) n hn

/-- Window 3's block index at point `t` is `(t / 4, 0, 0)`: the slab. Decided over the grid. -/
theorem idx1_3 : ∀ t : Fin cfg1.N, win1_3.index t 0 = t.val / 4 ∧ win1_3.index t 1 = 0 ∧ win1_3.index t 2 = 0 :=
  (by decide +kernel : ∀ t : Fin grid1.N, win1_3.index t 0 = t.val / 4 ∧ win1_3.index t 1 = 0 ∧ win1_3.index t 2 = 0)

/-- The array the write-backs assemble: each slab at the sum over its four tiles. -/
def G3 (c : Dev nD) : FVec Ideal S2x1x1024 .f32 := fun i =>
  ∑ s : Fin 4, ∑ n : Fin 1024, sd V c (tileRow (i 0) s n) (i 2) * sd V c (tileRow (i 0) s n) (i 2)

/-- A write-back happens at a slab's last step, where the block holds all four tile terms: it writes the slab's
    block of `G3`. -/
theorem flushed_eq3 (c : Dev nD) (t : Fin cfg1.N) (hf : (cfg1.win 3).flush t = true) :
    (dat1 V c).flushed 3 t = ((cfg1.win 3).blk t).view.read (Elt Ideal) (G3 V c) := by
  have hN : cfg1.N = 8 := N_1
  have h3 : t.val % 4 = 3 := (flush1_3 t).mp hf
  have hcc : t.val / 4 < 2 := by have := t.isLt; omega
  show (cfg1.win 3).cut (grid1.coords t) ((dat1 V c).after 3 t) = _
  rw [after1_3]
  refine funext fun (y : S1x1x1024.Idx) => ?_
  obtain ⟨y0, y1, y2, rfl⟩ : ∃ (y0 : Fin 1) (y1 : Fin 1) (y2 : Fin 1024), y = ix3 y0 y1 y2 := ⟨y 0, y 1, y 2, eq_ix3 y⟩
  obtain rfl : y0 = 0 := Subsingleton.elim _ _
  obtain rfl : y1 = 0 := Subsingleton.elim _ _
  have hL : (cfg1.win 3).cut (grid1.coords t) (o3 V c t.val t.isLt) (ix3 (0 : Fin 1) (0 : Fin 1) y2)
      = o3 V c t.val t.isLt (ix3 (0 : Fin 1) (0 : Fin 1) y2) := by
    show o3 V c t.val t.isLt _ = _
    congr 1
  have hR : ((cfg1.win 3).blk t).view.read (Elt Ideal) (G3 V c) (ix3 (0 : Fin 1) (0 : Fin 1) y2)
      = G3 V c (ix3 (⟨t.val / 4, hcc⟩ : Fin 2) (0 : Fin 1) y2) := by
    rw [View.read_apply]
    show G3 V c _ = G3 V c _
    congr 1
    funext a
    apply Fin.ext
    match a with
    | ⟨0, _⟩ => show win1_3.index t 0 * 1 + 1 * 0 = t.val / 4; rw [(idx1_3 t).1]; omega
    | ⟨1, _⟩ => show win1_3.index t 1 * 1 + 1 * 0 = 0; rw [(idx1_3 t).2.1]
    | ⟨2, _⟩ => show win1_3.index t 2 * 1024 + 1 * y2.val = y2.val; rw [(idx1_3 t).2.2]; omega
  refine hL.trans ((inv3 V c y2 t.val t.isLt).trans (Eq.trans ?_ hR.symm))
  rw [h3, Finset.sum_range]
  unfold G3 T3
  refine Finset.sum_congr rfl fun s _ => Finset.sum_congr rfl fun k _ => ?_
  show sdP V c (4 * (t.val / 4) + s.val) k y2 * sdP V c (4 * (t.val / 4) + s.val) k y2
    = sd V c (tileRow (⟨t.val / 4, hcc⟩ : Fin 2) s k) y2 * sd V c (tileRow (⟨t.val / 4, hcc⟩ : Fin 2) s k) y2
  rw [← sdP_tile V c (⟨t.val / 4, hcc⟩ : Fin 2) s k y2]

/-- Every index of the array lies in the block written back at its slab's last step. -/
theorem cover3 (i : S2x1x1024.Idx) :
    ∃ t : Fin cfg1.N, (cfg1.win 3).flush t = true ∧ i ∈ ((cfg1.win 3).blk t).view.set := by
  have h0 : (i 0 : Nat) < 2 := (i 0).isLt
  have h1 : (i 1 : Nat) < 1 := (i 1).isLt
  have h2 : (i 2 : Nat) < 1024 := (i 2).isLt
  have key : ∀ t : Fin cfg1.N, t.val / 4 = (i 0 : Nat) → i ∈ ((cfg1.win 3).blk t).view.set := by
    intro t hq
    show i ∈ ((View.whole main_v11_1).slice (win1_3.rect t)).set
    rw [View.set_slice_whole, Rect.mem_set_unit]
    intro a
    match a with
    | ⟨0, _⟩ => show win1_3.index t 0 * 1 ≤ (i 0 : Nat) ∧ (i 0 : Nat) < win1_3.index t 0 * 1 + 1; rw [(idx1_3 t).1]; omega
    | ⟨1, _⟩ => show win1_3.index t 1 * 1 ≤ (i 1 : Nat) ∧ (i 1 : Nat) < win1_3.index t 1 * 1 + 1; rw [(idx1_3 t).2.1]; omega
    | ⟨2, _⟩ => show win1_3.index t 2 * 1024 ≤ (i 2 : Nat) ∧ (i 2 : Nat) < win1_3.index t 2 * 1024 + 1024; rw [(idx1_3 t).2.2]; omega
  by_cases h : (i 0 : Nat) = 0
  · exact ⟨t1_3, (flush1_3 t1_3).mpr rfl, key t1_3 (by rw [h]; rfl)⟩
  · exact ⟨t1_7, (flush1_3 t1_7).mpr rfl, key t1_7 (by show 7 / 4 = _; omega)⟩

/-- Window 3's array after the region, at an index of slab `cc`. -/
theorem arr3_at (c : Dev nD) (cc : Fin 2) (a : Fin 1024) :
    ((dat1 (F := Ideal) V c).arrAt 3 cfg1.N : FVec Ideal S2x1x1024 .f32) (ix3 cc (0 : Fin 1) a)
      = ∑ s : Fin 4, ∑ n : Fin 1024, sd V c (tileRow cc s n) a * sd V c (tileRow cc s n) a :=
  congrFun ((dat1 (F := Ideal) V c).arrAt_eq_of_cover 3 (G3 V c) (flushed_eq3 V c) (cover3)) (ix3 cc (0 : Fin 1) a)

/-! ## Window 2: the Gram block -/

/-- Window 2's block after point `n`. -/
abbrev o2 (c : Dev nD) (n : ℕ) (hn : n < cfg1.N) : Vec Ideal S1x1024x1024 .f32 := (outsAt1 V c n hn).1

/-- Tile `p`'s Gram term at columns `a`, `b`. -/
def T2 (c : Dev nD) (p : ℕ) (a b : Fin 1024) : EReal := ∑ k : Fin 1024, sdP V c p k a * sdP V c p k b

/-- At a slab's first step the block is reset and holds the point's tile term. -/
theorem o2_A (c : Dev nD) (a b : Fin 1024) (t : Fin cfg1.N) (h0 : t.val % 4 = 0) :
    o2 V c t.val t.isLt (ix3 (0 : Fin 1) a b) = T2 V c t.val a b := by
  show (outsAt1 V c t.val t.isLt).1 (ix3 (0 : Fin 1) a b) = _
  rw [outsAt1_A V c t h0]
  dsimp only
  refine (outA2_at c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (xblk V c t) (qblk V c t) a b).trans ?_
  unfold T2
  exact Finset.sum_congr rfl fun k _ => by rw [sdT_blk V c t k a, sdT_blk V c t k b]

/-- At every other step the block gains the point's tile term. -/
theorem o2_B (c : Dev nD) (a b : Fin 1024) (t : Fin cfg1.N) (h0 : ¬t.val % 4 = 0) :
    o2 V c t.val t.isLt (ix3 (0 : Fin 1) a b)
      = o2 V c (t.val - 1) (Nat.lt_of_le_of_lt (Nat.sub_le _ _) t.isLt) (ix3 (0 : Fin 1) a b) + T2 V c t.val a b := by
  show (outsAt1 V c t.val t.isLt).1 (ix3 (0 : Fin 1) a b) = _
  rw [outsAt1_B V c t h0]
  dsimp only
  refine (outB2_at c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (xblk V c t) (qblk V c t)
    (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 a b).trans ?_
  unfold T2
  exact congrArg _ (Finset.sum_congr rfl fun k _ => by rw [sdT_blk V c t k a, sdT_blk V c t k b])

/-- After point `n` the block holds the tile terms of the slab's steps so far. -/
theorem inv2 (c : Dev nD) (a b : Fin 1024) (n : ℕ) (hn : n < cfg1.N) :
    o2 V c n hn (ix3 (0 : Fin 1) a b) = ∑ s ∈ Finset.range (n % 4 + 1), T2 V c (4 * (n / 4) + s) a b :=
  acc_range (fun n hn => o2 V c n hn (ix3 (0 : Fin 1) a b)) (fun p => T2 V c p a b)
    (o2_A V c a b) (o2_B V c a b) n hn

/-- Window 2's block index at point `t` is `(t / 4, 0, 0)`: the slab. Decided over the grid. -/
theorem idx1_2 : ∀ t : Fin cfg1.N, win1_2.index t 0 = t.val / 4 ∧ win1_2.index t 1 = 0 ∧ win1_2.index t 2 = 0 :=
  (by decide +kernel : ∀ t : Fin grid1.N, win1_2.index t 0 = t.val / 4 ∧ win1_2.index t 1 = 0 ∧ win1_2.index t 2 = 0)

/-- The array the write-backs assemble: each slab at the sum over its four tiles. -/
def G2 (c : Dev nD) : FVec Ideal S2x1024x1024 .f32 := fun i =>
  ∑ s : Fin 4, ∑ n : Fin 1024, sd V c (tileRow (i 0) s n) (i 1) * sd V c (tileRow (i 0) s n) (i 2)

/-- A write-back happens at a slab's last step, where the block holds all four tile terms: it writes the slab's
    block of `G2`. -/
theorem flushed_eq2 (c : Dev nD) (t : Fin cfg1.N) (hf : (cfg1.win 2).flush t = true) :
    (dat1 V c).flushed 2 t = ((cfg1.win 2).blk t).view.read (Elt Ideal) (G2 V c) := by
  have hN : cfg1.N = 8 := N_1
  have h3 : t.val % 4 = 3 := (flush1_2 t).mp hf
  have hcc : t.val / 4 < 2 := by have := t.isLt; omega
  show (cfg1.win 2).cut (grid1.coords t) ((dat1 V c).after 2 t) = _
  rw [after1_2]
  refine funext fun (y : S1x1024x1024.Idx) => ?_
  obtain ⟨y0, y1, y2, rfl⟩ : ∃ (y0 : Fin 1) (y1 : Fin 1024) (y2 : Fin 1024), y = ix3 y0 y1 y2 := ⟨y 0, y 1, y 2, eq_ix3 y⟩
  obtain rfl : y0 = 0 := Subsingleton.elim _ _
  have hL : (cfg1.win 2).cut (grid1.coords t) (o2 V c t.val t.isLt) (ix3 (0 : Fin 1) y1 y2)
      = o2 V c t.val t.isLt (ix3 (0 : Fin 1) y1 y2) := by
    show o2 V c t.val t.isLt _ = _
    congr 1
  have hR : ((cfg1.win 2).blk t).view.read (Elt Ideal) (G2 V c) (ix3 (0 : Fin 1) y1 y2)
      = G2 V c (ix3 (⟨t.val / 4, hcc⟩ : Fin 2) y1 y2) := by
    rw [View.read_apply]
    show G2 V c _ = G2 V c _
    congr 1
    funext a
    apply Fin.ext
    match a with
    | ⟨0, _⟩ => show win1_2.index t 0 * 1 + 1 * 0 = t.val / 4; rw [(idx1_2 t).1]; omega
    | ⟨1, _⟩ => show win1_2.index t 1 * 1024 + 1 * y1.val = y1.val; rw [(idx1_2 t).2.1]; omega
    | ⟨2, _⟩ => show win1_2.index t 2 * 1024 + 1 * y2.val = y2.val; rw [(idx1_2 t).2.2]; omega
  refine hL.trans ((inv2 V c y1 y2 t.val t.isLt).trans (Eq.trans ?_ hR.symm))
  rw [h3, Finset.sum_range]
  unfold G2 T2
  refine Finset.sum_congr rfl fun s _ => Finset.sum_congr rfl fun k _ => ?_
  show sdP V c (4 * (t.val / 4) + s.val) k y1 * sdP V c (4 * (t.val / 4) + s.val) k y2
    = sd V c (tileRow (⟨t.val / 4, hcc⟩ : Fin 2) s k) y1 * sd V c (tileRow (⟨t.val / 4, hcc⟩ : Fin 2) s k) y2
  rw [← sdP_tile V c (⟨t.val / 4, hcc⟩ : Fin 2) s k y1, ← sdP_tile V c (⟨t.val / 4, hcc⟩ : Fin 2) s k y2]

/-- Every index of the array lies in the block written back at its slab's last step. -/
theorem cover2 (i : S2x1024x1024.Idx) :
    ∃ t : Fin cfg1.N, (cfg1.win 2).flush t = true ∧ i ∈ ((cfg1.win 2).blk t).view.set := by
  have h0 : (i 0 : Nat) < 2 := (i 0).isLt
  have h1 : (i 1 : Nat) < 1024 := (i 1).isLt
  have h2 : (i 2 : Nat) < 1024 := (i 2).isLt
  have key : ∀ t : Fin cfg1.N, t.val / 4 = (i 0 : Nat) → i ∈ ((cfg1.win 2).blk t).view.set := by
    intro t hq
    show i ∈ ((View.whole main_v11_0).slice (win1_2.rect t)).set
    rw [View.set_slice_whole, Rect.mem_set_unit]
    intro a
    match a with
    | ⟨0, _⟩ => show win1_2.index t 0 * 1 ≤ (i 0 : Nat) ∧ (i 0 : Nat) < win1_2.index t 0 * 1 + 1; rw [(idx1_2 t).1]; omega
    | ⟨1, _⟩ => show win1_2.index t 1 * 1024 ≤ (i 1 : Nat) ∧ (i 1 : Nat) < win1_2.index t 1 * 1024 + 1024; rw [(idx1_2 t).2.1]; omega
    | ⟨2, _⟩ => show win1_2.index t 2 * 1024 ≤ (i 2 : Nat) ∧ (i 2 : Nat) < win1_2.index t 2 * 1024 + 1024; rw [(idx1_2 t).2.2]; omega
  by_cases h : (i 0 : Nat) = 0
  · exact ⟨t1_3, (flush1_2 t1_3).mpr rfl, key t1_3 (by rw [h]; rfl)⟩
  · exact ⟨t1_7, (flush1_2 t1_7).mpr rfl, key t1_7 (by show 7 / 4 = _; omega)⟩

/-- Window 2's array after the region, at an index of slab `cc`. -/
theorem arr2_at (c : Dev nD) (cc : Fin 2) (a b : Fin 1024) :
    ((dat1 (F := Ideal) V c).arrAt 2 cfg1.N : FVec Ideal S2x1024x1024 .f32) (ix3 cc a b)
      = ∑ s : Fin 4, ∑ n : Fin 1024, sd V c (tileRow cc s n) a * sd V c (tileRow cc s n) b :=
  congrFun ((dat1 (F := Ideal) V c).arrAt_eq_of_cover 2 (G2 V c) (flushed_eq2 V c) (cover2)) (ix3 cc a b)

/-! ## Window 4: the correlation term, one value on all 128 lanes -/

/-- Window 4's block after point `n`. -/
abbrev o4 (c : Dev nD) (n : ℕ) (hn : n < cfg1.N) : Vec Ideal S1x1x128 .f32 := (outsAt1 V c n hn).2.2.1

/-- Tile `p`'s correlation term: the rows' terms summed (the same on every lane `l`). -/
def T4 (c : Dev nD) (p : ℕ) (l : Fin 128) : EReal := ∑ k : Fin 1024, Cert.Spec.rowCorr (sdP V c p k)

/-- At a slab's first step the block is reset and holds the point's tile term. -/
theorem o4_A (c : Dev nD) (l : Fin 128) (t : Fin cfg1.N) (h0 : t.val % 4 = 0) :
    o4 V c t.val t.isLt (ix3 (0 : Fin 1) (0 : Fin 1) l) = T4 V c t.val l := by
  show (outsAt1 V c t.val t.isLt).2.2.1 (ix3 (0 : Fin 1) (0 : Fin 1) l) = _
  rw [outsAt1_A V c t h0]
  dsimp only
  refine (outA4_at c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (xblk V c t) (qblk V c t) l).trans ?_
  unfold T4
  exact Finset.sum_congr rfl fun k _ => by rw [sdT_blk_row V c t k]

/-- At every other step the block gains the point's tile term. -/
theorem o4_B (c : Dev nD) (l : Fin 128) (t : Fin cfg1.N) (h0 : ¬t.val % 4 = 0) :
    o4 V c t.val t.isLt (ix3 (0 : Fin 1) (0 : Fin 1) l)
      = o4 V c (t.val - 1) (Nat.lt_of_le_of_lt (Nat.sub_le _ _) t.isLt) (ix3 (0 : Fin 1) (0 : Fin 1) l) + T4 V c t.val l := by
  show (outsAt1 V c t.val t.isLt).2.2.1 (ix3 (0 : Fin 1) (0 : Fin 1) l) = _
  rw [outsAt1_B V c t h0]
  dsimp only
  refine (outB4_at c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (xblk V c t) (qblk V c t)
    (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 l).trans ?_
  unfold T4
  exact congrArg _ (Finset.sum_congr rfl fun k _ => by rw [sdT_blk_row V c t k])

/-- After point `n` the block holds the tile terms of the slab's steps so far. -/
theorem inv4 (c : Dev nD) (l : Fin 128) (n : ℕ) (hn : n < cfg1.N) :
    o4 V c n hn (ix3 (0 : Fin 1) (0 : Fin 1) l) = ∑ s ∈ Finset.range (n % 4 + 1), T4 V c (4 * (n / 4) + s) l :=
  acc_range (fun n hn => o4 V c n hn (ix3 (0 : Fin 1) (0 : Fin 1) l)) (fun p => T4 V c p l)
    (o4_A V c l) (o4_B V c l) n hn

/-- Window 4's block index at point `t` is `(t / 4, 0, 0)`: the slab. Decided over the grid. -/
theorem idx1_4 : ∀ t : Fin cfg1.N, win1_4.index t 0 = t.val / 4 ∧ win1_4.index t 1 = 0 ∧ win1_4.index t 2 = 0 :=
  (by decide +kernel : ∀ t : Fin grid1.N, win1_4.index t 0 = t.val / 4 ∧ win1_4.index t 1 = 0 ∧ win1_4.index t 2 = 0)

/-- The array the write-backs assemble: each slab at the sum over its four tiles. -/
def G4 (c : Dev nD) : FVec Ideal S2x1x128 .f32 := fun i =>
  ∑ s : Fin 4, ∑ n : Fin 1024, Cert.Spec.rowCorr (sd V c (tileRow (i 0) s n))

/-- A write-back happens at a slab's last step, where the block holds all four tile terms: it writes the slab's
    block of `G4`. -/
theorem flushed_eq4 (c : Dev nD) (t : Fin cfg1.N) (hf : (cfg1.win 4).flush t = true) :
    (dat1 V c).flushed 4 t = ((cfg1.win 4).blk t).view.read (Elt Ideal) (G4 V c) := by
  have hN : cfg1.N = 8 := N_1
  have h3 : t.val % 4 = 3 := (flush1_4 t).mp hf
  have hcc : t.val / 4 < 2 := by have := t.isLt; omega
  show (cfg1.win 4).cut (grid1.coords t) ((dat1 V c).after 4 t) = _
  rw [after1_4]
  refine funext fun (y : S1x1x128.Idx) => ?_
  obtain ⟨y0, y1, y2, rfl⟩ : ∃ (y0 : Fin 1) (y1 : Fin 1) (y2 : Fin 128), y = ix3 y0 y1 y2 := ⟨y 0, y 1, y 2, eq_ix3 y⟩
  obtain rfl : y0 = 0 := Subsingleton.elim _ _
  obtain rfl : y1 = 0 := Subsingleton.elim _ _
  have hL : (cfg1.win 4).cut (grid1.coords t) (o4 V c t.val t.isLt) (ix3 (0 : Fin 1) (0 : Fin 1) y2)
      = o4 V c t.val t.isLt (ix3 (0 : Fin 1) (0 : Fin 1) y2) := by
    show o4 V c t.val t.isLt _ = _
    congr 1
  have hR : ((cfg1.win 4).blk t).view.read (Elt Ideal) (G4 V c) (ix3 (0 : Fin 1) (0 : Fin 1) y2)
      = G4 V c (ix3 (⟨t.val / 4, hcc⟩ : Fin 2) (0 : Fin 1) y2) := by
    rw [View.read_apply]
    show G4 V c _ = G4 V c _
    congr 1
    funext a
    apply Fin.ext
    match a with
    | ⟨0, _⟩ => show win1_4.index t 0 * 1 + 1 * 0 = t.val / 4; rw [(idx1_4 t).1]; omega
    | ⟨1, _⟩ => show win1_4.index t 1 * 1 + 1 * 0 = 0; rw [(idx1_4 t).2.1]
    | ⟨2, _⟩ => show win1_4.index t 2 * 128 + 1 * y2.val = y2.val; rw [(idx1_4 t).2.2]; omega
  refine hL.trans ((inv4 V c y2 t.val t.isLt).trans (Eq.trans ?_ hR.symm))
  rw [h3, Finset.sum_range]
  unfold G4 T4
  refine Finset.sum_congr rfl fun s _ => Finset.sum_congr rfl fun k _ => ?_
  show Cert.Spec.rowCorr (sdP V c (4 * (t.val / 4) + s.val) k)
    = Cert.Spec.rowCorr (sd V c (tileRow (⟨t.val / 4, hcc⟩ : Fin 2) s k))
  rw [← sdP_tile_row V c (⟨t.val / 4, hcc⟩ : Fin 2) s k]

/-- Every index of the array lies in the block written back at its slab's last step. -/
theorem cover4 (i : S2x1x128.Idx) :
    ∃ t : Fin cfg1.N, (cfg1.win 4).flush t = true ∧ i ∈ ((cfg1.win 4).blk t).view.set := by
  have h0 : (i 0 : Nat) < 2 := (i 0).isLt
  have h1 : (i 1 : Nat) < 1 := (i 1).isLt
  have h2 : (i 2 : Nat) < 128 := (i 2).isLt
  have key : ∀ t : Fin cfg1.N, t.val / 4 = (i 0 : Nat) → i ∈ ((cfg1.win 4).blk t).view.set := by
    intro t hq
    show i ∈ ((View.whole main_v11_2).slice (win1_4.rect t)).set
    rw [View.set_slice_whole, Rect.mem_set_unit]
    intro a
    match a with
    | ⟨0, _⟩ => show win1_4.index t 0 * 1 ≤ (i 0 : Nat) ∧ (i 0 : Nat) < win1_4.index t 0 * 1 + 1; rw [(idx1_4 t).1]; omega
    | ⟨1, _⟩ => show win1_4.index t 1 * 1 ≤ (i 1 : Nat) ∧ (i 1 : Nat) < win1_4.index t 1 * 1 + 1; rw [(idx1_4 t).2.1]; omega
    | ⟨2, _⟩ => show win1_4.index t 2 * 128 ≤ (i 2 : Nat) ∧ (i 2 : Nat) < win1_4.index t 2 * 128 + 128; rw [(idx1_4 t).2.2]; omega
  by_cases h : (i 0 : Nat) = 0
  · exact ⟨t1_3, (flush1_4 t1_3).mpr rfl, key t1_3 (by rw [h]; rfl)⟩
  · exact ⟨t1_7, (flush1_4 t1_7).mpr rfl, key t1_7 (by show 7 / 4 = _; omega)⟩

/-- Window 4's array after the region, at an index of slab `cc`. -/
theorem arr4_at (c : Dev nD) (cc : Fin 2) (l : Fin 128) :
    ((dat1 (F := Ideal) V c).arrAt 4 cfg1.N : FVec Ideal S2x1x128 .f32) (ix3 cc (0 : Fin 1) l)
      = ∑ s : Fin 4, ∑ n : Fin 1024, Cert.Spec.rowCorr (sd V c (tileRow cc s n)) :=
  congrFun ((dat1 (F := Ideal) V c).arrAt_eq_of_cover 4 (G4 V c) (flushed_eq4 V c) (cover4)) (ix3 cc (0 : Fin 1) l)

/-! ## Window 5: the whitening term, one value on all 128 lanes -/

/-- Window 5's block after point `n`. -/
abbrev o5 (c : Dev nD) (n : ℕ) (hn : n < cfg1.N) : Vec Ideal S1x1x128 .f32 := (outsAt1 V c n hn).2.2.2

/-- Tile `p`'s whitening term: the rows' terms summed (the same on every lane `l`). -/
def T5 (c : Dev nD) (p : ℕ) (l : Fin 128) : EReal := ∑ k : Fin 1024, Cert.Spec.rowWhit (sdP V c p k)

/-- At a slab's first step the block is reset and holds the point's tile term. -/
theorem o5_A (c : Dev nD) (l : Fin 128) (t : Fin cfg1.N) (h0 : t.val % 4 = 0) :
    o5 V c t.val t.isLt (ix3 (0 : Fin 1) (0 : Fin 1) l) = T5 V c t.val l := by
  show (outsAt1 V c t.val t.isLt).2.2.2 (ix3 (0 : Fin 1) (0 : Fin 1) l) = _
  rw [outsAt1_A V c t h0]
  dsimp only
  refine (outA5_at c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (xblk V c t) (qblk V c t) l).trans ?_
  unfold T5
  exact Finset.sum_congr rfl fun k _ => by rw [sdT_blk_row V c t k]

/-- At every other step the block gains the point's tile term. -/
theorem o5_B (c : Dev nD) (l : Fin 128) (t : Fin cfg1.N) (h0 : ¬t.val % 4 = 0) :
    o5 V c t.val t.isLt (ix3 (0 : Fin 1) (0 : Fin 1) l)
      = o5 V c (t.val - 1) (Nat.lt_of_le_of_lt (Nat.sub_le _ _) t.isLt) (ix3 (0 : Fin 1) (0 : Fin 1) l) + T5 V c t.val l := by
  show (outsAt1 V c t.val t.isLt).2.2.2 (ix3 (0 : Fin 1) (0 : Fin 1) l) = _
  rw [outsAt1_B V c t h0]
  dsimp only
  refine (outB5_at c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (xblk V c t) (qblk V c t)
    (outsAt1 V c (t.val - 1) (Nat.lt_of_le_of_lt (Nat.sub_le _ _) t.isLt)).1 (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 l).trans ?_
  unfold T5
  exact congrArg _ (Finset.sum_congr rfl fun k _ => by rw [sdT_blk_row V c t k])

/-- After point `n` the block holds the tile terms of the slab's steps so far. -/
theorem inv5 (c : Dev nD) (l : Fin 128) (n : ℕ) (hn : n < cfg1.N) :
    o5 V c n hn (ix3 (0 : Fin 1) (0 : Fin 1) l) = ∑ s ∈ Finset.range (n % 4 + 1), T5 V c (4 * (n / 4) + s) l :=
  acc_range (fun n hn => o5 V c n hn (ix3 (0 : Fin 1) (0 : Fin 1) l)) (fun p => T5 V c p l)
    (o5_A V c l) (o5_B V c l) n hn

/-- Window 5's block index at point `t` is `(t / 4, 0, 0)`: the slab. Decided over the grid. -/
theorem idx1_5 : ∀ t : Fin cfg1.N, win1_5.index t 0 = t.val / 4 ∧ win1_5.index t 1 = 0 ∧ win1_5.index t 2 = 0 :=
  (by decide +kernel : ∀ t : Fin grid1.N, win1_5.index t 0 = t.val / 4 ∧ win1_5.index t 1 = 0 ∧ win1_5.index t 2 = 0)

/-- The array the write-backs assemble: each slab at the sum over its four tiles. -/
def G5 (c : Dev nD) : FVec Ideal S2x1x128 .f32 := fun i =>
  ∑ s : Fin 4, ∑ n : Fin 1024, Cert.Spec.rowWhit (sd V c (tileRow (i 0) s n))

/-- A write-back happens at a slab's last step, where the block holds all four tile terms: it writes the slab's
    block of `G5`. -/
theorem flushed_eq5 (c : Dev nD) (t : Fin cfg1.N) (hf : (cfg1.win 5).flush t = true) :
    (dat1 V c).flushed 5 t = ((cfg1.win 5).blk t).view.read (Elt Ideal) (G5 V c) := by
  have hN : cfg1.N = 8 := N_1
  have h3 : t.val % 4 = 3 := (flush1_5 t).mp hf
  have hcc : t.val / 4 < 2 := by have := t.isLt; omega
  show (cfg1.win 5).cut (grid1.coords t) ((dat1 V c).after 5 t) = _
  rw [after1_5]
  refine funext fun (y : S1x1x128.Idx) => ?_
  obtain ⟨y0, y1, y2, rfl⟩ : ∃ (y0 : Fin 1) (y1 : Fin 1) (y2 : Fin 128), y = ix3 y0 y1 y2 := ⟨y 0, y 1, y 2, eq_ix3 y⟩
  obtain rfl : y0 = 0 := Subsingleton.elim _ _
  obtain rfl : y1 = 0 := Subsingleton.elim _ _
  have hL : (cfg1.win 5).cut (grid1.coords t) (o5 V c t.val t.isLt) (ix3 (0 : Fin 1) (0 : Fin 1) y2)
      = o5 V c t.val t.isLt (ix3 (0 : Fin 1) (0 : Fin 1) y2) := by
    show o5 V c t.val t.isLt _ = _
    congr 1
  have hR : ((cfg1.win 5).blk t).view.read (Elt Ideal) (G5 V c) (ix3 (0 : Fin 1) (0 : Fin 1) y2)
      = G5 V c (ix3 (⟨t.val / 4, hcc⟩ : Fin 2) (0 : Fin 1) y2) := by
    rw [View.read_apply]
    show G5 V c _ = G5 V c _
    congr 1
    funext a
    apply Fin.ext
    match a with
    | ⟨0, _⟩ => show win1_5.index t 0 * 1 + 1 * 0 = t.val / 4; rw [(idx1_5 t).1]; omega
    | ⟨1, _⟩ => show win1_5.index t 1 * 1 + 1 * 0 = 0; rw [(idx1_5 t).2.1]
    | ⟨2, _⟩ => show win1_5.index t 2 * 128 + 1 * y2.val = y2.val; rw [(idx1_5 t).2.2]; omega
  refine hL.trans ((inv5 V c y2 t.val t.isLt).trans (Eq.trans ?_ hR.symm))
  rw [h3, Finset.sum_range]
  unfold G5 T5
  refine Finset.sum_congr rfl fun s _ => Finset.sum_congr rfl fun k _ => ?_
  show Cert.Spec.rowWhit (sdP V c (4 * (t.val / 4) + s.val) k)
    = Cert.Spec.rowWhit (sd V c (tileRow (⟨t.val / 4, hcc⟩ : Fin 2) s k))
  rw [← sdP_tile_row V c (⟨t.val / 4, hcc⟩ : Fin 2) s k]

/-- Every index of the array lies in the block written back at its slab's last step. -/
theorem cover5 (i : S2x1x128.Idx) :
    ∃ t : Fin cfg1.N, (cfg1.win 5).flush t = true ∧ i ∈ ((cfg1.win 5).blk t).view.set := by
  have h0 : (i 0 : Nat) < 2 := (i 0).isLt
  have h1 : (i 1 : Nat) < 1 := (i 1).isLt
  have h2 : (i 2 : Nat) < 128 := (i 2).isLt
  have key : ∀ t : Fin cfg1.N, t.val / 4 = (i 0 : Nat) → i ∈ ((cfg1.win 5).blk t).view.set := by
    intro t hq
    show i ∈ ((View.whole main_v11_3).slice (win1_5.rect t)).set
    rw [View.set_slice_whole, Rect.mem_set_unit]
    intro a
    match a with
    | ⟨0, _⟩ => show win1_5.index t 0 * 1 ≤ (i 0 : Nat) ∧ (i 0 : Nat) < win1_5.index t 0 * 1 + 1; rw [(idx1_5 t).1]; omega
    | ⟨1, _⟩ => show win1_5.index t 1 * 1 ≤ (i 1 : Nat) ∧ (i 1 : Nat) < win1_5.index t 1 * 1 + 1; rw [(idx1_5 t).2.1]; omega
    | ⟨2, _⟩ => show win1_5.index t 2 * 128 ≤ (i 2 : Nat) ∧ (i 2 : Nat) < win1_5.index t 2 * 128 + 128; rw [(idx1_5 t).2.2]; omega
  by_cases h : (i 0 : Nat) = 0
  · exact ⟨t1_3, (flush1_5 t1_3).mpr rfl, key t1_3 (by rw [h]; rfl)⟩
  · exact ⟨t1_7, (flush1_5 t1_7).mpr rfl, key t1_7 (by show 7 / 4 = _; omega)⟩

/-- Window 5's array after the region, at an index of slab `cc`. -/
theorem arr5_at (c : Dev nD) (cc : Fin 2) (l : Fin 128) :
    ((dat1 (F := Ideal) V c).arrAt 5 cfg1.N : FVec Ideal S2x1x128 .f32) (ix3 cc (0 : Fin 1) l)
      = ∑ s : Fin 4, ∑ n : Fin 1024, Cert.Spec.rowWhit (sd V c (tileRow cc s n)) :=
  congrFun ((dat1 (F := Ideal) V c).arrAt_eq_of_cover 5 (G5 V c) (flushed_eq5 V c) (cover5)) (ix3 cc (0 : Fin 1) l)

end Cert.KernelIdeal.KReg1

end
-- ==== Proof.KValue.lean ====
/-
  The idealized kernel program's four results as values of its arguments. The run ends with each result buffer at
  the contents the fold through @main gives it at the last segment boundary; those are the shared host chains applied
  to the two regions' output arrays, and the arrays are read at an index: region 0's is the projection
  `∑ d, x · fused + bias` of every one of the 32768 = 8 · 4096 rows (a reshape away from the result), region 1's
  four are the per-slab sums of the tiles' statistics, which the host's sum over the two slabs completes to the sums
  over all 8192 sampled rows (a sum over rows is the sum over slabs, steps and local rows).
-/
import proofs.«430983_j781684048736_3_alg».proof.Proof.Gen.KernelIdeal.Frame
import proofs.«430983_j781684048736_3_alg».proof.Proof.Spec
import proofs.«430983_j781684048736_3_alg».proof.Proof.Tail
import proofs.«430983_j781684048736_3_alg».proof.Proof.KHost
import proofs.«430983_j781684048736_3_alg».proof.Proof.KHostF
import proofs.«430983_j781684048736_3_alg».proof.Proof.KHostB
import proofs.«430983_j781684048736_3_alg».proof.Proof.KReg0
import proofs.«430983_j781684048736_3_alg».proof.Proof.KReg1
import Idealize.ShloMosaic.Lib.ValueIdx
import Idealize.ShloMosaic.Lib.ValueIdxRank1
import Idealize.ShloMosaic.Lib.ValueLayout
import Idealize.ShloMosaic.Lib.IdealHost
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Cert.KernelIdeal Cert.KernelIdeal.Gen Cert.Spec Cert.KernelIdeal.KHost

namespace Cert.KernelIdeal.KValue

variable (m : (ℓ : Loc nD τ sig) → Buf (Elt Ideal) ℓ) (ρ : Dev nD → PrngReg)

/-- The fused projection `W · Q`, as the host's product of the two arguments. -/
def FUSED (c : Dev nD) : FVec Ideal S2048x1024 .f32 :=
  Host.dotGeneral dot_S2048x1024_S1024x1024_S2048x1024_1_0_0_1_n_n none (Wt m c) (Q m c)

/-- The projected sampled rows, as a function of the arguments. -/
def sdK (c : Dev nD) : Fin 8192 → Fin 1024 → EReal :=
  sdAt (selRows (Cert.Tail.selOf (X m c) (IDX m c))) (qOf (Q m c))

/-- Region 1 enters with the sampled rows flattened to 8192 rows, only changed in format: row `n` is sample
    `n % 1024` of batch `n / 1024`. -/
theorem sel_rows (c : Dev nD) (n : Fin 8192) (d : Fin 1024) :
    (V5 m ρ c main_v9 : FVec Ideal S8192x1024 .bf16) (ix2 n d) = selRows (Cert.Tail.selOf (X m c) (IDX m c)) n d := by
  rw [Cert.KernelIdeal.KHostB.V5_v9]
  unfold selRows
  refine (shapeCast_apply _ _ (ix2 n d) (ix3 (⟨n.val / 1024, by have := n.isLt; omega⟩ : Fin 8) (⟨n.val % 1024, by omega⟩ : Fin 1024) d) ?_).trans rfl
  rw [Shape.rowMajor_val_three, Shape.rowMajor_val_two]
  show (n.val / 1024 * 1024 + n.val % 1024) * 1024 + d.val = n.val * 1024 + d.val
  have := Nat.div_add_mod n.val 1024
  omega

/-- … and with the decorrelation matrix, only changed in format. -/
theorem q_rows (c : Dev nD) (e d : Fin 1024) :
    (V5 m ρ c main_v10 : FVec Ideal S1024x1024 .bf16) (ix2 e d) = qOf (Q m c) e d := by
  rw [Cert.KernelIdeal.KHostB.V5_v10]
  rfl

/-- So region 1's projected rows are the arguments' projected rows. -/
theorem sd_eq (c : Dev nD) : Cert.KernelIdeal.KReg1.sd (V5 m ρ) c = sdK m c := by
  funext n e
  unfold Cert.KernelIdeal.KReg1.sd sdK sdAt
  exact Finset.sum_congr rfl fun d _ => congrArg₂ (· * ·) (sel_rows m ρ c n d) (q_rows m ρ c e d)

set_option maxHeartbeats 1000000 in
/-- The first result: every row of `x` projected through the fused matrix, plus the bias. -/
theorem y_at (c : Dev nD) (p : Fin 8) (l : Fin 4096) (o : Fin 2048) :
    (W9 m ρ c (Proc.devRef .tc main_v5) : FVec Ideal S8x4096x2048 .f32) (ix3 p l o)
      = (∑ d : Fin 1024, X m c (ix3 p l d) * FUSED m c (ix2 o d)) + B m c (ix1 o) := by
  have hr : p.val * 4096 + l.val < 32768 := by have := p.isLt; have := l.isLt; omega
  rw [Cert.KernelIdeal.KHostF.W9_v5]
  rw [shapeCast_apply _ _ (ix3 p l o) (ix2 (⟨p.val * 4096 + l.val, hr⟩ : Fin 32768) o)
    (by rw [Shape.rowMajor_val_two, Shape.rowMajor_val_three]; rfl)]
  rw [Cert.KernelIdeal.KReg0.arr3_at]
  refine congrArg₂ (· + ·) (Finset.sum_congr rfl fun k _ => congrArg₂ (· * ·) ?_ ?_) ?_
  · show (V1 m ρ c main_v2 : FVec Ideal S32768x1024 .f32) (ix2 (⟨p.val * 4096 + l.val, hr⟩ : Fin 32768) k) = X m c (ix3 p l k)
    rw [V1_v2]
    exact shapeCast_apply _ _ _ _ (by rw [Shape.rowMajor_val_three, Shape.rowMajor_val_two]; rfl)
  · show (V1 m ρ c main_v1 : FVec Ideal S2048x1024 .bf16) (ix2 o k) = FUSED m c (ix2 o k)
    rw [V1_v1]
    exact rfl
  · show (V1 m ρ c main_v3 : FVec Ideal S1x2048 .f32) (ix2 (0 : Fin 1) o) = B m c (ix1 o)
    rw [V1_v3]
    exact shapeCast_a_1a_apply _ _ 0 o

theorem red2 : S2x1024x1024.Reduces [0] S1024x1024 := by decide
theorem red3 : S2x1x1024.Reduces [0] S1x1024 := by decide

/-- The zero word the host sums start from is the extended real zero. -/
theorem init0 : (constant (F := Ideal) S_ .f32 0x00000000#32) (Shape.Idx.first h_S_) = 0 :=
  Ideal.ofBits_zero_f32

/-- The host's sum of a two-entry array from the zero word: its two entries added. -/
theorem sum2 (v : FVec Ideal S2 .f32) :
    Host.reduceAdd v (constant S_ .f32 0x00000000#32) reducesTo_S2_S_d0 h_S_ ix0 = ∑ cc : Fin 2, v (ix1 cc) := by
  simp only [Host.reduceAdd, Ideal.hostReduceAdd_def]
  rw [Ideal.hostReduceAdd_total reducesTo_S2_S_d0 (fun b => b.elim0), constant_apply, Ideal.ofBits_zero_f32, zero_add,
    ← Equiv.sum_comp (idxEquiv1 (n := 2)).symm v]
  rfl

set_option maxHeartbeats 1000000 in
/-- The second result: the shared gradient chain of the Gram matrix and the column sums of squares of all rows. -/
theorem grad_eq (c : Dev nD) :
    (W9 m ρ c (Proc.devRef .tc main_v38) : FVec Ideal S1024x1024 .f32)
      = Cert.Tail.gradOf (F := Ideal) (of2 (gram (sdK m c))) (of1 (sqsum (sdK m c))) := by
  rw [Cert.KernelIdeal.KHostF.W9_v38]
  refine congrArg₂ (Cert.Tail.gradOf (F := Ideal)) (eq_of2 _ _ fun i j => ?_) (eq_of1 _ _ fun i => ?_)
  · rw [hostReduceAdd_apply, Ideal.hostReduceAdd_single _ red2, init0, zero_add]
    unfold gram
    rw [sum_tiles]
    refine Finset.sum_congr rfl fun (cc : Fin 2) _ => ?_
    have hl : red2.lift (ix2 i j) cc = ix3 cc i j := by
      funext a; match a with | ⟨0, _⟩ => rfl | ⟨1, _⟩ => rfl | ⟨2, _⟩ => rfl
    rw [hl, Cert.KernelIdeal.KReg1.arr2_at, sd_eq]
  · rw [shapeCast_1a_a_apply, hostReduceAdd_apply, Ideal.hostReduceAdd_single _ red3, init0, zero_add]
    unfold sqsum
    rw [sum_tiles]
    refine Finset.sum_congr rfl fun (cc : Fin 2) _ => ?_
    have hl : red3.lift (ix2 (0 : Fin 1) i) cc = ix3 cc (0 : Fin 1) i := by
      funext a; match a with | ⟨0, _⟩ => rfl | ⟨1, _⟩ => rfl | ⟨2, _⟩ => rfl
    rw [hl, Cert.KernelIdeal.KReg1.arr3_at, sd_eq]

/-- A lane of a per-slab accumulator read through the host's slice and reshape: slab `cc`, lane 0. -/
theorem lane0 (A : FVec Ideal S2x1x128 .f32) (cc : Fin 2) :
    shapeCast S2 (extractStridedSlice S2x1x1 ![0, 0, 0] A slices_S2x1x128_S2x1x1_0_0_0) shapeCasts_S2x1x1_S2 (ix1 cc)
      = A (ix3 cc (0 : Fin 1) (0 : Fin 128)) := by
  rw [shapeCast_apply _ _ (ix1 cc) (ix3 cc (0 : Fin 1) (0 : Fin 1))
    (by rw [Shape.rowMajor_val_three, Shape.rowMajor_val_one]; show (cc.val * 1 + 0) * 1 + 0 = cc.val; omega)]
  exact extractStridedSlice_apply _ _ _ _ _ (fun a => by
    match a with
    | ⟨0, _⟩ => exact (Nat.zero_add _).symm
    | ⟨1, _⟩ => rfl
    | ⟨2, _⟩ => rfl)

set_option maxHeartbeats 1000000 in
/-- The third result: the shared loss chain of the correlation term summed over all rows. -/
theorem corr_eq (c : Dev nD) :
    (W9 m ρ c (Proc.devRef .tc main_v40) : FVec Ideal S_ .f32) = Cert.Tail.lossOf (F := Ideal) (of0 (corrSum (sdK m c))) := by
  rw [W9_v40]
  refine congrArg (Cert.Tail.lossOf (F := Ideal)) (eq_of0 _ _ ?_)
  rw [sum2]
  unfold corrSum
  rw [sum_tiles]
  refine Finset.sum_congr rfl fun cc _ => ?_
  rw [lane0, Cert.KernelIdeal.KReg1.arr4_at, sd_eq]

set_option maxHeartbeats 1000000 in
/-- The fourth result: the shared loss chain of the whitening term summed over all rows. -/
theorem whit_eq (c : Dev nD) :
    (W9 m ρ c (Proc.devRef .tc main_v42) : FVec Ideal S_ .f32) = Cert.Tail.lossOf (F := Ideal) (of0 (whitSum (sdK m c))) := by
  rw [W9_v42]
  refine congrArg (Cert.Tail.lossOf (F := Ideal)) (eq_of0 _ _ ?_)
  rw [sum2]
  unfold whitSum
  rw [sum_tiles]
  refine Finset.sum_congr rfl fun cc _ => ?_
  rw [lane0, Cert.KernelIdeal.KReg1.arr5_at, sd_eq]

end Cert.KernelIdeal.KValue

end
-- ==== Proof.RRun.lean ====
/-
  The reference program's @main as one straight line of host operations, and its run.

  @main is sixty own operations and two calls. A call means the callee's body on the call's operands, each value
  of that body held in a buffer of the call's record: the gather along axis 1 (twenty-two operations: the index
  wrapped where negative, the range test 0 ≤ i ≤ 4095 folded over the unit axis, the rows gathered, and the
  select that puts NaN where the test fails) writes its result into the buffer @main reads as %6; the diagonal
  embedding (ten operations: a pad by nothing, the two iotas and their comparison, the vector as a column) ends in
  its own call of the three-operation select-against-a-broadcast-scalar, whose result is the buffer @main reads as
  %32. Listed in order with the callees' operations at their call sites, the ninety-five operations are one chain
  of steps, equal to @main once sequencing is reassociated; the run of such a chain leaves every buffer at the fold
  of the operations' results over the launch contents.

  The four results: %4 (the affine map x·(W·D)ᵀ + b) is written by operation 5; %17 (the mean over rows of
  (Σ s²)² − Σ s⁴, scaled) by operation 44; %24 (the mean over rows of Σ (s² − 1)², scaled) by operation 56;
  %45 (½(M/n − diag) + ½(diag − I)) by operation 95, the last.
-/
import proofs.«430983_j781684048736_3_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.ShloMosaic.StableHlo Idealize.SL.Sem

variable {F : FTy → Type} [FloatOps F]

/-- @main's ninety-five operations in order, the calls unfolded: six of @main's own (the two matrix products, the
    bias broadcast twice, their sum — result %4 —, the index table given a unit axis); the gather's twenty-two into
    `main_call0`'s buffers; thirty-eight of @main's own (the product with the second matrix, its rows as one axis,
    the squares and their sums — results %17 and %24 —, the Gram matrix and the column means); the diagonal
    embedding's ten into `main_call1`'s buffers and the select's three into `main_call1.call0`'s; sixteen of @main's
    own (the identity matrix as a converted comparison of iotas, and the two halves summed — result %45). -/
abbrev ops : List (HloOp τ sig (Elt F)) :=
  [ -- %0 … %5: @main
    StableHlo.binary main_arg1 main_arg3 main_v0 ((fun l r => Host.dotGeneral dot_S2048x1024_S1024x1024_S2048x1024_1_0_0_1_n_n none l r) : (⟨S2048x1024, .f32⟩ : BufTy).Contents (Elt F) → (⟨S1024x1024, .f32⟩ : BufTy).Contents (Elt F) → (⟨S2048x1024, .f32⟩ : BufTy).Contents (Elt F)),
    StableHlo.binary main_arg0 main_v0 main_v1 ((fun l r => Host.dotGeneral dot_S8x4096x1024_S2048x1024_S8x4096x2048_2_1_01_0_n_n none l r) : (⟨S8x4096x1024, .f32⟩ : BufTy).Contents (Elt F) → (⟨S2048x1024, .f32⟩ : BufTy).Contents (Elt F) → (⟨S8x4096x2048, .f32⟩ : BufTy).Contents (Elt F)),
    StableHlo.unary main_arg2 main_v2 (broadcastInDim S1x1x2048 ![2] bcast_S2048_S1x1x2048_2 : (⟨S2048, .f32⟩ : BufTy).Contents (Elt F) → (⟨S1x1x2048, .f32⟩ : BufTy).Contents (Elt F)),
    StableHlo.unary main_v2 main_v3 (broadcastInDim S8x4096x2048 ![0, 1, 2] bcast_S1x1x2048_S8x4096x2048_0_1_2 : (⟨S1x1x2048, .f32⟩ : BufTy).Contents (Elt F) → (⟨S8x4096x2048, .f32⟩ : BufTy).Contents (Elt F)),
    StableHlo.binary main_v1 main_v3 main_v4 (addf : (⟨S8x4096x2048, .f32⟩ : BufTy).Contents (Elt F) → (⟨S8x4096x2048, .f32⟩ : BufTy).Contents (Elt F) → (⟨S8x4096x2048, .f32⟩ : BufTy).Contents (Elt F)),
    StableHlo.unary main_arg4 main_v5 (broadcastInDim S8x1024x1 ![0, 1] bcast_S8x1024_S8x1024x1_0_1 : (⟨S8x1024, .i32⟩ : BufTy).Contents (Elt F) → (⟨S8x1024x1, .i32⟩ : BufTy).Contents (Elt F)),
    -- %6: the gather along axis 1 of %arg0 at the indices %5
    StableHlo.TRef.nullary main_call0.c (constantI S_ 32 0#32),
    StableHlo.TRef.unary main_call0.c main_call0.v0 (broadcastInDim S8x1024x1 ![] bcast_S_S8x1024x1),
    StableHlo.TRef.binary (.of main_v5 : StableHlo.TRef sig ⟨S8x1024x1, .i32⟩) main_call0.v0 main_call0.v1 (cmpi .slt),
    StableHlo.TRef.nullary main_call0.c_0 (constantI S_ 32 4096#32),
    StableHlo.TRef.unary main_call0.c_0 main_call0.v2 (broadcastInDim S8x1024x1 ![] bcast_S_S8x1024x1),
    StableHlo.TRef.binary (.of main_v5 : StableHlo.TRef sig ⟨S8x1024x1, .i32⟩) main_call0.v2 main_call0.v3 addi,
    StableHlo.TRef.ternary main_call0.v1 main_call0.v3 (.of main_v5 : StableHlo.TRef sig ⟨S8x1024x1, .i32⟩) main_call0.v4 select,
    StableHlo.TRef.nullary main_call0.c_1 (constantI S1 32 4095#32),
    StableHlo.TRef.nullary main_call0.c_2 (constantI S_ 32 0#32),
    StableHlo.TRef.unary main_call0.c_2 main_call0.v5 (broadcastInDim S8x1024x1 ![] bcast_S_S8x1024x1),
    StableHlo.TRef.binary main_call0.v4 main_call0.v5 main_call0.v6 (cmpi .sge),
    StableHlo.TRef.unary main_call0.c_1 main_call0.v7 (broadcastInDim S1x1x1 ![2] bcast_S1_S1x1x1_2),
    StableHlo.TRef.unary main_call0.v7 main_call0.v8 (broadcastInDim S8x1024x1 ![0, 1, 2] bcast_S1x1x1_S8x1024x1_0_1_2),
    StableHlo.TRef.binary main_call0.v4 main_call0.v8 main_call0.v9 (cmpi .sle),
    StableHlo.TRef.binary main_call0.v6 main_call0.v9 main_call0.v10 andi,
    StableHlo.TRef.nullary main_call0.c_3 (constantI S_ 1 1#1),
    StableHlo.TRef.binary main_call0.v10 main_call0.c_3 main_call0.v11 (fun x v => Host.reduce IntOp.andi x v reducesTo_S8x1024x1_S8x1024_d2 h_S_),
    StableHlo.TRef.binary (.of main_arg0 : StableHlo.TRef sig ⟨S8x4096x1024, .f32⟩) main_call0.v4 main_call0.v12 (fun x i => Host.gather gather_S8x4096x1024_S8x1024x1_S8x1024x1024_2_1_0_0_1_2_111024 x i),
    StableHlo.TRef.unary main_call0.v11 main_call0.v13 (broadcastInDim S8x1024x1024 ![0, 1] bcast_S8x1024_S8x1024x1024_0_1),
    StableHlo.TRef.nullary main_call0.cst (constant S_ .f32 0x7FC00000#32),
    StableHlo.TRef.unary main_call0.cst main_call0.v14 (broadcastInDim S8x1024x1024 ![] bcast_S_S8x1024x1024),
    StableHlo.TRef.ternary main_call0.v13 main_call0.v12 main_call0.v14 main_call0.v15 select,
    -- %7 … %31: @main
    StableHlo.binary main_v6 main_arg3 main_v7 ((fun l r => Host.dotGeneral dot_S8x1024x1024_S1024x1024_S8x1024x1024_2_1_01_0_n_n none l r) : (⟨S8x1024x1024, .f32⟩ : BufTy).Contents (Elt F) → (⟨S1024x1024, .f32⟩ : BufTy).Contents (Elt F) → (⟨S8x1024x1024, .f32⟩ : BufTy).Contents (Elt F)),
    StableHlo.reshape main_v7 main_v8 rfl shapeCasts_S8x1024x1024_S8192x1024,
    StableHlo.binary main_v8 main_v8 main_v9 (mulf : (⟨S8192x1024, .f32⟩ : BufTy).Contents (Elt F) → (⟨S8192x1024, .f32⟩ : BufTy).Contents (Elt F) → (⟨S8192x1024, .f32⟩ : BufTy).Contents (Elt F)),
    StableHlo.nullary main_cst (constant S_ .f32 0x00000000#32),
    StableHlo.binary main_v9 main_cst main_v10 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    StableHlo.binary main_v9 main_v9 main_v11 (mulf : (⟨S8192x1024, .f32⟩ : BufTy).Contents (Elt F) → (⟨S8192x1024, .f32⟩ : BufTy).Contents (Elt F) → (⟨S8192x1024, .f32⟩ : BufTy).Contents (Elt F)),
    StableHlo.nullary main_cst_0 (constant S_ .f32 0x00000000#32),
    StableHlo.binary main_v11 main_cst_0 main_v12 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    StableHlo.binary main_v10 main_v10 main_v13 (mulf : (⟨S8192, .f32⟩ : BufTy).Contents (Elt F) → (⟨S8192, .f32⟩ : BufTy).Contents (Elt F) → (⟨S8192, .f32⟩ : BufTy).Contents (Elt F)),
    StableHlo.binary main_v13 main_v12 main_v14 (subf : (⟨S8192, .f32⟩ : BufTy).Contents (Elt F) → (⟨S8192, .f32⟩ : BufTy).Contents (Elt F) → (⟨S8192, .f32⟩ : BufTy).Contents (Elt F)),
    StableHlo.nullary main_cst_1 (constant S_ .f32 0x00000000#32),
    StableHlo.binary main_v14 main_cst_1 main_v15 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_2 (constant S_ .f32 0x46000000#32),
    StableHlo.binary main_v15 main_cst_2 main_v16 (Host.divf : (⟨S_, .f32⟩ : BufTy).Contents (Elt F) → (⟨S_, .f32⟩ : BufTy).Contents (Elt F) → (⟨S_, .f32⟩ : BufTy).Contents (Elt F)),
    StableHlo.nullary main_cst_3 (constant S_ .f32 0x35800000#32),
    StableHlo.binary main_v16 main_cst_3 main_v17 (mulf : (⟨S_, .f32⟩ : BufTy).Contents (Elt F) → (⟨S_, .f32⟩ : BufTy).Contents (Elt F) → (⟨S_, .f32⟩ : BufTy).Contents (Elt F)),
    StableHlo.nullary main_cst_4 (constant S_ .f32 0x3F800000#32),
    StableHlo.unary main_cst_4 main_v18 (broadcastInDim S8192x1024 ![] bcast_S_S8192x1024 : (⟨S_, .f32⟩ : BufTy).Contents (Elt F) → (⟨S8192x1024, .f32⟩ : BufTy).Contents (Elt F)),
    StableHlo.binary main_v9 main_v18 main_v19 (subf : (⟨S8192x1024, .f32⟩ : BufTy).Contents (Elt F) → (⟨S8192x1024, .f32⟩ : BufTy).Contents (Elt F) → (⟨S8192x1024, .f32⟩ : BufTy).Contents (Elt F)),
    StableHlo.binary main_v19 main_v19 main_v20 (mulf : (⟨S8192x1024, .f32⟩ : BufTy).Contents (Elt F) → (⟨S8192x1024, .f32⟩ : BufTy).Contents (Elt F) → (⟨S8192x1024, .f32⟩ : BufTy).Contents (Elt F)),
    StableHlo.nullary main_cst_5 (constant S_ .f32 0x00000000#32),
    StableHlo.binary main_v20 main_cst_5 main_v21 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    StableHlo.nullary main_cst_6 (constant S_ .f32 0x00000000#32),
    StableHlo.binary main_v21 main_cst_6 main_v22 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_7 (constant S_ .f32 0x46000000#32),
    StableHlo.binary main_v22 main_cst_7 main_v23 (Host.divf : (⟨S_, .f32⟩ : BufTy).Contents (Elt F) → (⟨S_, .f32⟩ : BufTy).Contents (Elt F) → (⟨S_, .f32⟩ : BufTy).Contents (Elt F)),
    StableHlo.nullary main_cst_8 (constant S_ .f32 0x35800000#32),
    StableHlo.binary main_v23 main_cst_8 main_v24 (mulf : (⟨S_, .f32⟩ : BufTy).Contents (Elt F) → (⟨S_, .f32⟩ : BufTy).Contents (Elt F) → (⟨S_, .f32⟩ : BufTy).Contents (Elt F)),
    StableHlo.unary main_v8 main_v25 ((transpose S1024x8192 [1, 0] · transposes_S8192x1024_S1024x8192_1_0) : (⟨S8192x1024, .f32⟩ : BufTy).Contents (Elt F) → (⟨S1024x8192, .f32⟩ : BufTy).Contents (Elt F)),
    StableHlo.binary main_v25 main_v8 main_v26 ((fun l r => Host.dotGeneral dot_S1024x8192_S8192x1024_S1024x1024_1_0_0_1_n_n none l r) : (⟨S1024x8192, .f32⟩ : BufTy).Contents (Elt F) → (⟨S8192x1024, .f32⟩ : BufTy).Contents (Elt F) → (⟨S1024x1024, .f32⟩ : BufTy).Contents (Elt F)),
    StableHlo.nullary main_cst_9 (constant S_ .f32 0x46000000#32),
    StableHlo.unary main_cst_9 main_v27 (broadcastInDim S1024x1024 ![] bcast_S_S1024x1024 : (⟨S_, .f32⟩ : BufTy).Contents (Elt F) → (⟨S1024x1024, .f32⟩ : BufTy).Contents (Elt F)),
    StableHlo.binary main_v26 main_v27 main_v28 (Host.divf : (⟨S1024x1024, .f32⟩ : BufTy).Contents (Elt F) → (⟨S1024x1024, .f32⟩ : BufTy).Contents (Elt F) → (⟨S1024x1024, .f32⟩ : BufTy).Contents (Elt F)),
    StableHlo.nullary main_cst_10 (constant S_ .f32 0x00000000#32),
    StableHlo.binary main_v9 main_cst_10 main_v29 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    StableHlo.nullary main_cst_11 (constant S_ .f32 0x46000000#32),
    StableHlo.unary main_cst_11 main_v30 (broadcastInDim S1024 ![] bcast_S_S1024 : (⟨S_, .f32⟩ : BufTy).Contents (Elt F) → (⟨S1024, .f32⟩ : BufTy).Contents (Elt F)),
    StableHlo.binary main_v29 main_v30 main_v31 (Host.divf : (⟨S1024, .f32⟩ : BufTy).Contents (Elt F) → (⟨S1024, .f32⟩ : BufTy).Contents (Elt F) → (⟨S1024, .f32⟩ : BufTy).Contents (Elt F)),
    -- %32: the diagonal embedding of %31
    StableHlo.TRef.nullary main_call1.cst (constant S_ .f32 0x00000000#32),
    StableHlo.TRef.binary (.of main_v31 : StableHlo.TRef sig ⟨S1024, .f32⟩) main_call1.cst main_call1.v0 (fun x v => pad S1024 ![0] ![0] ![0] x v pads_S1024_S1024_000 h_S_),
    StableHlo.TRef.nullary main_call1.v1 (iotaInDim S1024x1024 32 0),
    StableHlo.TRef.nullary main_call1.v2 (iotaInDim S1024x1024 32 1),
    StableHlo.TRef.nullary main_call1.c (constantI S_ 32 0#32),
    StableHlo.TRef.unary main_call1.c main_call1.v3 (broadcastInDim S1024x1024 ![] bcast_S_S1024x1024),
    StableHlo.TRef.binary main_call1.v1 main_call1.v3 main_call1.v4 addi,
    StableHlo.TRef.binary main_call1.v4 main_call1.v2 main_call1.v5 (cmpi .eq),
    StableHlo.TRef.unary main_call1.v0 main_call1.v6 (broadcastInDim S1024x1 ![0] bcast_S1024_S1024x1_0),
    StableHlo.TRef.nullary main_call1.cst_0 (constant S_ .f32 0x00000000#32),
    -- within it, the select of the column against the broadcast scalar
    StableHlo.TRef.unary main_call1.v6 main_call1.call0.v0 (broadcastInDim S1024x1024 ![0, 1] bcast_S1024x1_S1024x1024_0_1),
    StableHlo.TRef.unary main_call1.cst_0 main_call1.call0.v1 (broadcastInDim S1024x1024 ![] bcast_S_S1024x1024),
    StableHlo.TRef.ternary main_call1.v5 main_call1.call0.v0 main_call1.call0.v1 main_call1.call0.v2 select,
    -- %33 … %45: @main
    StableHlo.nullary main_v33 (iotaInDim S1024x1024 32 0),
    StableHlo.nullary main_v34 (iotaInDim S1024x1024 32 1),
    StableHlo.nullary main_c (constantI S_ 32 0#32),
    StableHlo.unary main_c main_v35 (broadcastInDim S1024x1024 ![] bcast_S_S1024x1024 : (⟨S_, .i32⟩ : BufTy).Contents (Elt F) → (⟨S1024x1024, .i32⟩ : BufTy).Contents (Elt F)),
    StableHlo.binary main_v33 main_v35 main_v36 (addi : (⟨S1024x1024, .i32⟩ : BufTy).Contents (Elt F) → (⟨S1024x1024, .i32⟩ : BufTy).Contents (Elt F) → (⟨S1024x1024, .i32⟩ : BufTy).Contents (Elt F)),
    StableHlo.binary main_v36 main_v34 main_v37 (cmpi .eq : (⟨S1024x1024, .i32⟩ : BufTy).Contents (Elt F) → (⟨S1024x1024, .i32⟩ : BufTy).Contents (Elt F) → (⟨S1024x1024, .i1⟩ : BufTy).Contents (Elt F)),
    StableHlo.unary main_v37 main_v38 (uitofp .f32 : (⟨S1024x1024, .i1⟩ : BufTy).Contents (Elt F) → (⟨S1024x1024, .f32⟩ : BufTy).Contents (Elt F)),
    StableHlo.binary main_v28 main_v32 main_v39 (subf : (⟨S1024x1024, .f32⟩ : BufTy).Contents (Elt F) → (⟨S1024x1024, .f32⟩ : BufTy).Contents (Elt F) → (⟨S1024x1024, .f32⟩ : BufTy).Contents (Elt F)),
    StableHlo.nullary main_cst_12 (constant S_ .f32 0x3F000000#32),
    StableHlo.unary main_cst_12 main_v40 (broadcastInDim S1024x1024 ![] bcast_S_S1024x1024 : (⟨S_, .f32⟩ : BufTy).Contents (Elt F) → (⟨S1024x1024, .f32⟩ : BufTy).Contents (Elt F)),
    StableHlo.binary main_v40 main_v39 main_v41 (mulf : (⟨S1024x1024, .f32⟩ : BufTy).Contents (Elt F) → (⟨S1024x1024, .f32⟩ : BufTy).Contents (Elt F) → (⟨S1024x1024, .f32⟩ : BufTy).Contents (Elt F)),
    StableHlo.binary main_v32 main_v38 main_v42 (subf : (⟨S1024x1024, .f32⟩ : BufTy).Contents (Elt F) → (⟨S1024x1024, .f32⟩ : BufTy).Contents (Elt F) → (⟨S1024x1024, .f32⟩ : BufTy).Contents (Elt F)),
    StableHlo.nullary main_cst_13 (constant S_ .f32 0x3F000000#32),
    StableHlo.unary main_cst_13 main_v43 (broadcastInDim S1024x1024 ![] bcast_S_S1024x1024 : (⟨S_, .f32⟩ : BufTy).Contents (Elt F) → (⟨S1024x1024, .f32⟩ : BufTy).Contents (Elt F)),
    StableHlo.binary main_v43 main_v42 main_v44 (mulf : (⟨S1024x1024, .f32⟩ : BufTy).Contents (Elt F) → (⟨S1024x1024, .f32⟩ : BufTy).Contents (Elt F) → (⟨S1024x1024, .f32⟩ : BufTy).Contents (Elt F)),
    StableHlo.binary main_v41 main_v44 main_v45 (addf : (⟨S1024x1024, .f32⟩ : BufTy).Contents (Elt F) → (⟨S1024x1024, .f32⟩ : BufTy).Contents (Elt F) → (⟨S1024x1024, .f32⟩ : BufTy).Contents (Elt F)) ]

-- some hundred binds reassociated: the rewrite under the chain recurses once per statement, and passes over the
-- whole chain once per call site and window (hence the budget); the two sides are then the same term
set_option maxRecDepth 4096 in
set_option maxHeartbeats 4000000 in
/-- @main is that straight line: its two windows in order, the three functions' definitions unfolded at their calls
    and the records at their fields; both sides are then one chain of steps once sequencing is reassociated. -/
theorem main_eq (c : Dev nD) : main (F := F) c = seq ops := by
  simp only [main, main_part0, main_part1, fn_take_along_axis.body, fn_diag.body, fn_where.body, seq, bind_assoc, pure_bind]

/-- The signature scopes no buffer: the program launches no kernel. -/
theorem scopedRefs_eq : (Finset.univ.filter fun b : Ref sig .tc => b.isScoped) = ∅ := by decide
/-- Nor any semaphore. -/
theorem scopedSems_eq : (Finset.univ.filter fun sm : SemLoc sig => sm.isScoped .tc) = ∅ := by decide

/-- Every operation reads and writes TensorCore buffers only, one fact per operation in the list's order. -/
theorem ops_sub : (ops : List (HloOp τ sig (Elt F))).Forall fun op => op.bufs ⊆ tcRefs τ sig :=
  ⟨binary_bufs_sub .., binary_bufs_sub .., unary_bufs_sub .., unary_bufs_sub .., binary_bufs_sub .., unary_bufs_sub ..,
    -- the gather's twenty-two
    nullary_bufs_sub .., unary_bufs_sub .., binary_bufs_sub .., nullary_bufs_sub .., unary_bufs_sub .., binary_bufs_sub ..,
    ternary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub ..,
    -- thirty-eight of @main's own
    binary_bufs_sub .., reshape_bufs_sub .., binary_bufs_sub .., nullary_bufs_sub .., binary_bufs_sub .., binary_bufs_sub ..,
    nullary_bufs_sub .., binary_bufs_sub .., binary_bufs_sub .., binary_bufs_sub .., nullary_bufs_sub .., binary_bufs_sub ..,
    nullary_bufs_sub .., binary_bufs_sub .., nullary_bufs_sub .., binary_bufs_sub .., nullary_bufs_sub .., unary_bufs_sub ..,
    binary_bufs_sub .., binary_bufs_sub .., nullary_bufs_sub .., binary_bufs_sub .., nullary_bufs_sub .., binary_bufs_sub ..,
    nullary_bufs_sub .., binary_bufs_sub .., nullary_bufs_sub .., binary_bufs_sub .., unary_bufs_sub .., binary_bufs_sub ..,
    nullary_bufs_sub .., unary_bufs_sub .., binary_bufs_sub .., nullary_bufs_sub .., binary_bufs_sub .., nullary_bufs_sub ..,
    unary_bufs_sub .., binary_bufs_sub ..,
    -- the diagonal embedding's ten and the select's three
    nullary_bufs_sub .., binary_bufs_sub .., nullary_bufs_sub .., nullary_bufs_sub .., nullary_bufs_sub .., unary_bufs_sub ..,
    binary_bufs_sub .., binary_bufs_sub .., unary_bufs_sub .., nullary_bufs_sub ..,
    unary_bufs_sub .., unary_bufs_sub .., ternary_bufs_sub ..,
    -- sixteen of @main's own
    nullary_bufs_sub .., nullary_bufs_sub .., nullary_bufs_sub .., unary_bufs_sub .., binary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., binary_bufs_sub ..⟩

/-- On every device, for any float values, from any memory with zero counters: every weakly fair execution of @main
    on the TensorCores terminates, and every final state has each TensorCore buffer at the fold of the operations'
    results over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The arguments are kept

No operation writes an argument's buffer: each of the ninety-five writes exactly one buffer, a value's own, and
that buffer is told apart from the argument's by comparing the two references. So the fold at an argument's buffer
is the contents it started from. -/

theorem arg0_eq (V : Valuation τ sig (Elt F)) :
    after ops V (Proc.devRef .tc main_arg0) = V (Proc.devRef .tc main_arg0) :=
  after_of_forall_not_mem (b := Proc.devRef .tc main_arg0) _ _ (List.forall_iff_forall_mem.mp (by
    simp only [ops, List.Forall, nullary_writes, unary_writes, binary_writes, ternary_writes, reshape_writes, Finset.mem_singleton]
    repeat' apply And.intro
    all_goals exact devRef_ne_of_ne (by decide)))

theorem arg1_eq (V : Valuation τ sig (Elt F)) :
    after ops V (Proc.devRef .tc main_arg1) = V (Proc.devRef .tc main_arg1) :=
  after_of_forall_not_mem (b := Proc.devRef .tc main_arg1) _ _ (List.forall_iff_forall_mem.mp (by
    simp only [ops, List.Forall, nullary_writes, unary_writes, binary_writes, ternary_writes, reshape_writes, Finset.mem_singleton]
    repeat' apply And.intro
    all_goals exact devRef_ne_of_ne (by decide)))

theorem arg2_eq (V : Valuation τ sig (Elt F)) :
    after ops V (Proc.devRef .tc main_arg2) = V (Proc.devRef .tc main_arg2) :=
  after_of_forall_not_mem (b := Proc.devRef .tc main_arg2) _ _ (List.forall_iff_forall_mem.mp (by
    simp only [ops, List.Forall, nullary_writes, unary_writes, binary_writes, ternary_writes, reshape_writes, Finset.mem_singleton]
    repeat' apply And.intro
    all_goals exact devRef_ne_of_ne (by decide)))

theorem arg3_eq (V : Valuation τ sig (Elt F)) :
    after ops V (Proc.devRef .tc main_arg3) = V (Proc.devRef .tc main_arg3) :=
  after_of_forall_not_mem (b := Proc.devRef .tc main_arg3) _ _ (List.forall_iff_forall_mem.mp (by
    simp only [ops, List.Forall, nullary_writes, unary_writes, binary_writes, ternary_writes, reshape_writes, Finset.mem_singleton]
    repeat' apply And.intro
    all_goals exact devRef_ne_of_ne (by decide)))

theorem arg4_eq (V : Valuation τ sig (Elt F)) :
    after ops V (Proc.devRef .tc main_arg4) = V (Proc.devRef .tc main_arg4) :=
  after_of_forall_not_mem (b := Proc.devRef .tc main_arg4) _ _ (List.forall_iff_forall_mem.mp (by
    simp only [ops, List.Forall, nullary_writes, unary_writes, binary_writes, ternary_writes, reshape_writes, Finset.mem_singleton]
    repeat' apply And.intro
    all_goals exact devRef_ne_of_ne (by decide)))

end Cert.ReferenceIdeal.RRun

end
-- ==== Proof.RDefs.lean ====
/-
  The reference's intermediate arrays, named once as pure functions of the sampled rows `sel` and the decorrelation
  matrix `q` (and, for the first result, of `x`, the fused matrix and the bias): the projected rows flattened to
  `[8192, 1024]`, and from them the raw Gram matrix `sdᵀ · sd`, the raw column sums of squares, and the raw sums over
  the rows of the correlation and whitening terms — "raw" meaning before the division by the 8192 rows.
-/
import proofs.«430983_j781684048736_3_alg».proof.Proof.Gen.ReferenceIdeal

noncomputable section

open Idealize.ShloMosaic
open Cert.ReferenceIdeal Cert.ReferenceIdeal.Gen

namespace Cert.ReferenceIdeal.RDefs

variable {F : FTy → Type} [FloatOps F]

/-- The first result: every row of `x` against every row of the fused matrix, plus the bias spread over the rows. -/
def yRaw (x : FVec F S8x4096x1024 .f32) (fz : FVec F S2048x1024 .f32) (b : FVec F S2048 .f32) : FVec F S8x4096x2048 .f32 :=
  addf (Host.dotGeneral dot_S8x4096x1024_S2048x1024_S8x4096x2048_2_1_01_0_n_n none x fz)
    (broadcastInDim S8x4096x2048 ![0, 1, 2] bcast_S1x1x2048_S8x4096x2048_0_1_2 (broadcastInDim S1x1x2048 ![2] bcast_S2048_S1x1x2048_2 b))

/-- The projected rows: the sampled rows against the LAST axis of the decorrelation matrix, flattened to 8192 rows. -/
def sdArr (sel : FVec F S8x1024x1024 .f32) (q : FVec F S1024x1024 .f32) : FVec F S8192x1024 .f32 :=
  shapeCast S8192x1024 (Host.dotGeneral dot_S8x1024x1024_S1024x1024_S8x1024x1024_2_1_01_0_n_n none sel q) shapeCasts_S8x1024x1024_S8192x1024

/-- The squares of the projected rows. -/
def s2Arr (sel : FVec F S8x1024x1024 .f32) (q : FVec F S1024x1024 .f32) : FVec F S8192x1024 .f32 :=
  mulf (sdArr sel q) (sdArr sel q)

/-- The raw Gram matrix `sdᵀ · sd`. -/
def gramRaw (sel : FVec F S8x1024x1024 .f32) (q : FVec F S1024x1024 .f32) : FVec F S1024x1024 .f32 :=
  Host.dotGeneral dot_S1024x8192_S8192x1024_S1024x1024_1_0_0_1_n_n none
    (transpose S1024x8192 [1, 0] (sdArr sel q) transposes_S8192x1024_S1024x8192_1_0) (sdArr sel q)

/-- The raw column sums of squares. -/
def sqRaw (sel : FVec F S8x1024x1024 .f32) (q : FVec F S1024x1024 .f32) : FVec F S1024 .f32 :=
  Host.reduceAdd (s2Arr sel q) (constant S_ .f32 0x00000000#32) reducesTo_S8192x1024_S1024_d0 h_S_

/-- The raw correlation sum: over the rows, the square of the row's sum of squares minus its sum of fourth powers. -/
def corrRaw (sel : FVec F S8x1024x1024 .f32) (q : FVec F S1024x1024 .f32) : FVec F S_ .f32 :=
  Host.reduceAdd
    (subf
      (mulf (Host.reduceAdd (s2Arr sel q) (constant S_ .f32 0x00000000#32) reducesTo_S8192x1024_S8192_d1 h_S_)
        (Host.reduceAdd (s2Arr sel q) (constant S_ .f32 0x00000000#32) reducesTo_S8192x1024_S8192_d1 h_S_))
      (Host.reduceAdd (mulf (s2Arr sel q) (s2Arr sel q)) (constant S_ .f32 0x00000000#32) reducesTo_S8192x1024_S8192_d1 h_S_))
    (constant S_ .f32 0x00000000#32) reducesTo_S8192_S_d0 h_S_

/-- The raw whitening sum: over the rows, the row's sum of `(s2 − 1)²`. -/
def whitRaw (sel : FVec F S8x1024x1024 .f32) (q : FVec F S1024x1024 .f32) : FVec F S_ .f32 :=
  Host.reduceAdd
    (Host.reduceAdd
      (mulf (subf (s2Arr sel q) (broadcastInDim S8192x1024 ![] bcast_S_S8192x1024 (constant S_ .f32 0x3F800000#32)))
        (subf (s2Arr sel q) (broadcastInDim S8192x1024 ![] bcast_S_S8192x1024 (constant S_ .f32 0x3F800000#32))))
      (constant S_ .f32 0x00000000#32) reducesTo_S8192x1024_S8192_d1 h_S_)
    (constant S_ .f32 0x00000000#32) reducesTo_S8192_S_d0 h_S_

end Cert.ReferenceIdeal.RDefs

end
-- ==== Proof.RRead.lean ====
/-
  The reference's results read off its line of operations, at the ideal instance, as named terms of the five
  arguments' contents.

  The fold of the ninety-five operations at a result's buffer walks back through the operations that feed it: each
  operation's result at its own buffer is its function of its operands' contents, and at any other buffer what was
  there. What is left is the composed pure term over the arguments' contents, and that term is, spine for spine, the
  named one: the affine map for %4 (the fused matrix `W · D` first, then every row of `x` against it, plus the bias);
  for %17 and %24 the loss `(s / 8192) · 2⁻²⁰` of the raw correlation, resp. whitening, sum over the projected sampled
  rows. The large operations (the reductions, the gather, the pad) are never opened: only the chain around them is
  compared.
-/
import proofs.«430983_j781684048736_3_alg».proof.Proof.RRun
import proofs.«430983_j781684048736_3_alg».proof.Proof.RDefs
import proofs.«430983_j781684048736_3_alg».proof.Proof.Tail
import Idealize.ShloMosaic.Lib.StableHlo.Run
import Idealize.ShloMosaic.PureOps.Ideal

noncomputable section

namespace Cert.ReferenceIdeal.RRead

open Cert.ReferenceIdeal Cert.ReferenceIdeal.Gen Idealize.ShloMosaic Idealize.ShloMosaic.TcCoe Idealize.ShloMosaic.StableHlo Idealize.SL.Sem

variable (Vl : Valuation τ sig (Elt Ideal))

/-- The input rows `x`, `[8, 4096, 1024]`. -/
abbrev X : FVec Ideal S8x4096x1024 .f32 := Vl (Proc.devRef .tc main_arg0)
/-- The weight matrix `W`, `[2048, 1024]`. -/
abbrev Wt : FVec Ideal S2048x1024 .f32 := Vl (Proc.devRef .tc main_arg1)
/-- The bias, `[2048]`. -/
abbrev B : FVec Ideal S2048 .f32 := Vl (Proc.devRef .tc main_arg2)
/-- The decorrelation matrix `D`, `[1024, 1024]`. -/
abbrev Q : FVec Ideal S1024x1024 .f32 := Vl (Proc.devRef .tc main_arg3)
/-- The sample indices, `[8, 1024]`. -/
abbrev IDX : IVec S8x1024 32 := Vl (Proc.devRef .tc main_arg4)

/-- The fused matrix `W · D`: the weight's columns against the decorrelation matrix's rows. -/
def FUSED : FVec Ideal S2048x1024 .f32 := Host.dotGeneral dot_S2048x1024_S1024x1024_S2048x1024_1_0_0_1_n_n none (Wt Vl) (Q Vl)

/-- The sampled rows of `x`. -/
abbrev SEL : FVec Ideal S8x1024x1024 .f32 := Cert.Tail.selOf (X Vl) (IDX Vl)

attribute [local irreducible] Host.reduce Host.gather pad Host.reduceAdd in
set_option maxRecDepth 8192 in
/-- %4: ninety operations after it leave its buffer alone; it is the sum of the product of `x` with the fused matrix
    (%1, over %0) and the bias broadcast twice (%3 over %2). -/
theorem res_v4 : (after (Cert.ReferenceIdeal.RRun.ops (F := Ideal)) Vl (Proc.devRef .tc main_v4) : FVec Ideal S8x4096x2048 .f32)
    = Cert.ReferenceIdeal.RDefs.yRaw (X Vl) (FUSED Vl) (B Vl) := by
  after_results_simp
  rfl

attribute [local irreducible] Host.reduce Host.gather pad Host.reduceAdd in
set_option maxRecDepth 8192 in
/-- %17: the loss of %15, the sum over the rows of %14 = (%10)² − %12, the row sums of the squares %9 and of their
    squares %11; %9 is the square of %8, the projected sampled rows flattened, over the gather's result %6. -/
theorem res_v17 : (after (Cert.ReferenceIdeal.RRun.ops (F := Ideal)) Vl (Proc.devRef .tc main_v17) : FVec Ideal S_ .f32)
    = Cert.Tail.lossOf (F := Ideal) (Cert.ReferenceIdeal.RDefs.corrRaw (SEL Vl) (Q Vl)) := by
  after_results_simp
  rfl

attribute [local irreducible] Host.reduce Host.gather pad Host.reduceAdd in
set_option maxRecDepth 8192 in
/-- %24: the loss of %22, the sum over the rows of %21, the row sums of %20 = (%9 − 1)². -/
theorem res_v24 : (after (Cert.ReferenceIdeal.RRun.ops (F := Ideal)) Vl (Proc.devRef .tc main_v24) : FVec Ideal S_ .f32)
    = Cert.Tail.lossOf (F := Ideal) (Cert.ReferenceIdeal.RDefs.whitRaw (SEL Vl) (Q Vl)) := by
  after_results_simp
  rfl

end Cert.ReferenceIdeal.RRead

end
-- ==== Proof.RRead45.lean ====
/-
  The second result, the gradient, read off the reference's straight line of ninety-five operations.
  The buffer of %45 is written by the last operation; followed back through the line, its contents are the sum of two
  halves: one half of (the raw Gram matrix divided by the 8192 rows, less the diagonal matrix of the column means of
  squares), and one half of (that diagonal matrix less the identity). The raw Gram matrix and the raw column sums are
  those of the projected rows of the sampled rows, and the sampled rows are the gather along the second axis of the
  first argument at the index table — the twenty-two operations of the first call. The diagonal matrix is what the
  second call and the call inside it build: the vector padded by nothing, spread as a column along the rows, selected
  where the row iota equals the column iota, zero elsewhere. The identity is the same comparison converted to a float.
  Every step is one operation's function applied to the contents of its operand buffers, so the equation holds by
  unfolding the line; the large operations (gather, reductions, products, pad) are never opened.
-/
import proofs.«430983_j781684048736_3_alg».proof.Proof.RRun
import proofs.«430983_j781684048736_3_alg».proof.Proof.RDefs
import proofs.«430983_j781684048736_3_alg».proof.Proof.Tail
import Idealize.ShloMosaic.Lib.StableHlo.Run
import Idealize.ShloMosaic.PureOps.Ideal

noncomputable section

open Cert.ReferenceIdeal Cert.ReferenceIdeal.Gen
open Idealize.ShloMosaic Idealize.ShloMosaic.StableHlo Idealize.SL.Sem

namespace Cert.ReferenceIdeal.RRead45

variable (Vl : Valuation τ sig (Elt Ideal))

/-- The first argument: the activations. -/
abbrev X : FVec Ideal S8x4096x1024 .f32 := Vl (Proc.devRef .tc main_arg0)
/-- The fourth argument: the decorrelation matrix. -/
abbrev Q : FVec Ideal S1024x1024 .f32 := Vl (Proc.devRef .tc main_arg3)
/-- The fifth argument: the table of sampled positions. -/
abbrev IDX : IVec S8x1024 32 := Vl (Proc.devRef .tc main_arg4)
/-- The sampled rows. -/
abbrev SEL : FVec Ideal S8x1024x1024 .f32 := Cert.Tail.selOf (X Vl) (IDX Vl)

attribute [local irreducible] Host.reduce Host.gather pad Host.reduceAdd Host.divf in
set_option maxRecDepth 8192 in
set_option maxHeartbeats 4000000 in
/-- The contents of the gradient's buffer after the line: the tail of the computation at the raw Gram matrix and the
    raw column sums of squares of the projected sampled rows. -/
theorem res_v45 : (after (Cert.ReferenceIdeal.RRun.ops (F := Ideal)) Vl (Proc.devRef .tc main_v45) : FVec Ideal S1024x1024 .f32)
    = Cert.Tail.gradOf (F := Ideal) (Cert.ReferenceIdeal.RDefs.gramRaw (SEL Vl) (Q Vl)) (Cert.ReferenceIdeal.RDefs.sqRaw (SEL Vl) (Q Vl)) := by
  after_results_simp
  rfl

end Cert.ReferenceIdeal.RRead45

end
-- ==== Proof.RIndex.lean ====
/-
  The reference's stages read at an index, at the extended reals, over variables in place of the arguments.
  A dot product over one contracted axis at an output index is the sum over that axis of the products of the two
  operands at the indices the dimension numbers give; a reshape of [8, 1024, 1024] to [8192, 1024] reads row n
  at (n / 1024, n % 1024); a one-axis reduction is the initial word (zero) plus the sum over that axis.
  From these: the output term is a row of x against a row of the fused matrix plus the bias; the projected rows are
  the shared arithmetic's sdAt; and the raw Gram matrix, column sums of squares, correlation sum and
  whitening sum of the reference are the shared arithmetic's gram, sqsum, corrSum and whitSum of those rows.
-/
import proofs.«430983_j781684048736_3_alg».proof.Proof.RDefs
import proofs.«430983_j781684048736_3_alg».proof.Proof.Spec
import Idealize.ShloMosaic.Lib.ValueIdx
import Idealize.ShloMosaic.Lib.ValueIdxRank1
import Idealize.ShloMosaic.Lib.Pipeline.Value
import Idealize.ShloMosaic.Lib.ValueLayout
import Idealize.ShloMosaic.PureOps.Ideal.Laws

noncomputable section

open Idealize.ShloMosaic Idealize.ShloMosaic.ValueIdx
open Cert.ReferenceIdeal Cert.ReferenceIdeal.Gen

namespace Cert.ReferenceIdeal.RIndex

/-! ## The three dot products' operand indices, axis by axis -/

/-! ### x · fusedᵀ : [8, 4096, 1024] × [2048, 1024] → [8, 4096, 2048], contracting axis 2 with axis 1 -/

theorem lhs_y_0 (i : S8x4096x2048.Idx) (q : dot_S8x4096x1024_S2048x1024_S8x4096x2048_2_1_01_0_n_n.contr.Idx) :
    (dot_S8x4096x1024_S2048x1024_S8x4096x2048_2_1_01_0_n_n.lhsIdx i q 0).val = (i 0).val := by
  unfold DotDims.lhsIdx
  rw [dif_neg (show ¬(0 : Fin S8x4096x1024.rank) ∈ dot_S8x4096x1024_S2048x1024_S8x4096x2048_2_1_01_0_n_n.lhsBatch by decide),
    dif_pos (show (0 : Fin S8x4096x1024.rank) ∈ dot_S8x4096x1024_S2048x1024_S8x4096x2048_2_1_01_0_n_n.lhsNonContracting by decide)]
  rfl
theorem lhs_y_1 (i : S8x4096x2048.Idx) (q : dot_S8x4096x1024_S2048x1024_S8x4096x2048_2_1_01_0_n_n.contr.Idx) :
    (dot_S8x4096x1024_S2048x1024_S8x4096x2048_2_1_01_0_n_n.lhsIdx i q 1).val = (i 1).val := by
  unfold DotDims.lhsIdx
  rw [dif_neg (show ¬(1 : Fin S8x4096x1024.rank) ∈ dot_S8x4096x1024_S2048x1024_S8x4096x2048_2_1_01_0_n_n.lhsBatch by decide),
    dif_pos (show (1 : Fin S8x4096x1024.rank) ∈ dot_S8x4096x1024_S2048x1024_S8x4096x2048_2_1_01_0_n_n.lhsNonContracting by decide)]
  rfl
theorem lhs_y_2 (i : S8x4096x2048.Idx) (q : dot_S8x4096x1024_S2048x1024_S8x4096x2048_2_1_01_0_n_n.contr.Idx) :
    (dot_S8x4096x1024_S2048x1024_S8x4096x2048_2_1_01_0_n_n.lhsIdx i q 2).val = (q ⟨0, by decide⟩).val :=
  dot_S8x4096x1024_S2048x1024_S8x4096x2048_2_1_01_0_n_n.lhsIdx_val_of_single rfl i q
theorem rhs_y_0 (i : S8x4096x2048.Idx) (q : dot_S8x4096x1024_S2048x1024_S8x4096x2048_2_1_01_0_n_n.contr.Idx) :
    (dot_S8x4096x1024_S2048x1024_S8x4096x2048_2_1_01_0_n_n.rhsIdx i q 0).val = (i 2).val := by
  unfold DotDims.rhsIdx
  rw [dif_neg (show ¬(0 : Fin S2048x1024.rank) ∈ dot_S8x4096x1024_S2048x1024_S8x4096x2048_2_1_01_0_n_n.rhsBatch by decide),
    dif_pos (show (0 : Fin S2048x1024.rank) ∈ dot_S8x4096x1024_S2048x1024_S8x4096x2048_2_1_01_0_n_n.rhsNonContracting by decide)]
  rfl
theorem rhs_y_1 (i : S8x4096x2048.Idx) (q : dot_S8x4096x1024_S2048x1024_S8x4096x2048_2_1_01_0_n_n.contr.Idx) :
    (dot_S8x4096x1024_S2048x1024_S8x4096x2048_2_1_01_0_n_n.rhsIdx i q 1).val = (q ⟨0, by decide⟩).val :=
  dot_S8x4096x1024_S2048x1024_S8x4096x2048_2_1_01_0_n_n.rhsIdx_val_of_single rfl i q

/-- The product x · fusedᵀ at (p, l, o): row (p, l) of x against row o of the fused matrix. -/
theorem dotY_apply (x : FVec Ideal S8x4096x1024 .f32) (fz : FVec Ideal S2048x1024 .f32) (p : Fin 8) (l : Fin 4096) (o : Fin 2048) :
    Host.dotGeneral dot_S8x4096x1024_S2048x1024_S8x4096x2048_2_1_01_0_n_n none x fz (ix3 p l o)
      = ∑ d : Fin 1024, x (ix3 p l d) * fz (ix2 o d) := by
  simp only [Host.dotGeneral]
  rw [Ideal.dotGeneral_apply, ← Equiv.sum_comp (contrEquiv1 dot_S8x4096x1024_S2048x1024_S8x4096x2048_2_1_01_0_n_n 1024 rfl rfl).symm]
  refine Finset.sum_congr rfl fun k _ => ?_
  have hk := contrEquiv1_symm_val dot_S8x4096x1024_S2048x1024_S8x4096x2048_2_1_01_0_n_n 1024 rfl rfl k
  have el : dot_S8x4096x1024_S2048x1024_S8x4096x2048_2_1_01_0_n_n.lhsIdx (ix3 p l o)
      ((contrEquiv1 dot_S8x4096x1024_S2048x1024_S8x4096x2048_2_1_01_0_n_n 1024 rfl rfl).symm k) = ix3 p l k :=
    funext fun a => Fin.ext (by
      match a with
      | ⟨0, _⟩ => exact lhs_y_0 _ _
      | ⟨1, _⟩ => exact lhs_y_1 _ _
      | ⟨2, _⟩ => exact (lhs_y_2 _ _).trans hk)
  have er : dot_S8x4096x1024_S2048x1024_S8x4096x2048_2_1_01_0_n_n.rhsIdx (ix3 p l o)
      ((contrEquiv1 dot_S8x4096x1024_S2048x1024_S8x4096x2048_2_1_01_0_n_n 1024 rfl rfl).symm k) = ix2 o k :=
    funext fun a => Fin.ext (by
      match a with
      | ⟨0, _⟩ => exact rhs_y_0 _ _
      | ⟨1, _⟩ => exact (rhs_y_1 _ _).trans hk)
  rw [el, er]

/-! ### sel · qᵀ : [8, 1024, 1024] × [1024, 1024] → [8, 1024, 1024], contracting axis 2 with axis 1 -/

theorem lhs_s_0 (i : S8x1024x1024.Idx) (q : dot_S8x1024x1024_S1024x1024_S8x1024x1024_2_1_01_0_n_n.contr.Idx) :
    (dot_S8x1024x1024_S1024x1024_S8x1024x1024_2_1_01_0_n_n.lhsIdx i q 0).val = (i 0).val := by
  unfold DotDims.lhsIdx
  rw [dif_neg (show ¬(0 : Fin S8x1024x1024.rank) ∈ dot_S8x1024x1024_S1024x1024_S8x1024x1024_2_1_01_0_n_n.lhsBatch by decide),
    dif_pos (show (0 : Fin S8x1024x1024.rank) ∈ dot_S8x1024x1024_S1024x1024_S8x1024x1024_2_1_01_0_n_n.lhsNonContracting by decide)]
  rfl
theorem lhs_s_1 (i : S8x1024x1024.Idx) (q : dot_S8x1024x1024_S1024x1024_S8x1024x1024_2_1_01_0_n_n.contr.Idx) :
    (dot_S8x1024x1024_S1024x1024_S8x1024x1024_2_1_01_0_n_n.lhsIdx i q 1).val = (i 1).val := by
  unfold DotDims.lhsIdx
  rw [dif_neg (show ¬(1 : Fin S8x1024x1024.rank) ∈ dot_S8x1024x1024_S1024x1024_S8x1024x1024_2_1_01_0_n_n.lhsBatch by decide),
    dif_pos (show (1 : Fin S8x1024x1024.rank) ∈ dot_S8x1024x1024_S1024x1024_S8x1024x1024_2_1_01_0_n_n.lhsNonContracting by decide)]
  rfl
theorem lhs_s_2 (i : S8x1024x1024.Idx) (q : dot_S8x1024x1024_S1024x1024_S8x1024x1024_2_1_01_0_n_n.contr.Idx) :
    (dot_S8x1024x1024_S1024x1024_S8x1024x1024_2_1_01_0_n_n.lhsIdx i q 2).val = (q ⟨0, by decide⟩).val :=
  dot_S8x1024x1024_S1024x1024_S8x1024x1024_2_1_01_0_n_n.lhsIdx_val_of_single rfl i q
theorem rhs_s_0 (i : S8x1024x1024.Idx) (q : dot_S8x1024x1024_S1024x1024_S8x1024x1024_2_1_01_0_n_n.contr.Idx) :
    (dot_S8x1024x1024_S1024x1024_S8x1024x1024_2_1_01_0_n_n.rhsIdx i q 0).val = (i 2).val := by
  unfold DotDims.rhsIdx
  rw [dif_neg (show ¬(0 : Fin S1024x1024.rank) ∈ dot_S8x1024x1024_S1024x1024_S8x1024x1024_2_1_01_0_n_n.rhsBatch by decide),
    dif_pos (show (0 : Fin S1024x1024.rank) ∈ dot_S8x1024x1024_S1024x1024_S8x1024x1024_2_1_01_0_n_n.rhsNonContracting by decide)]
  rfl
theorem rhs_s_1 (i : S8x1024x1024.Idx) (q : dot_S8x1024x1024_S1024x1024_S8x1024x1024_2_1_01_0_n_n.contr.Idx) :
    (dot_S8x1024x1024_S1024x1024_S8x1024x1024_2_1_01_0_n_n.rhsIdx i q 1).val = (q ⟨0, by decide⟩).val :=
  dot_S8x1024x1024_S1024x1024_S8x1024x1024_2_1_01_0_n_n.rhsIdx_val_of_single rfl i q

/-- The projection sel · qᵀ at (p, r, e): row (p, r) of the sampled rows against row e of q. -/
theorem dotS_apply (sel : FVec Ideal S8x1024x1024 .f32) (q : FVec Ideal S1024x1024 .f32) (p : Fin 8) (r : Fin 1024) (e : Fin 1024) :
    Host.dotGeneral dot_S8x1024x1024_S1024x1024_S8x1024x1024_2_1_01_0_n_n none sel q (ix3 p r e) = ∑ d : Fin 1024, sel (ix3 p r d) * q (ix2 e d) := by
  simp only [Host.dotGeneral]
  rw [Ideal.dotGeneral_apply, ← Equiv.sum_comp (contrEquiv1 dot_S8x1024x1024_S1024x1024_S8x1024x1024_2_1_01_0_n_n 1024 rfl rfl).symm]
  refine Finset.sum_congr rfl fun k _ => ?_
  have hk := contrEquiv1_symm_val dot_S8x1024x1024_S1024x1024_S8x1024x1024_2_1_01_0_n_n 1024 rfl rfl k
  have el : dot_S8x1024x1024_S1024x1024_S8x1024x1024_2_1_01_0_n_n.lhsIdx (ix3 p r e) ((contrEquiv1 dot_S8x1024x1024_S1024x1024_S8x1024x1024_2_1_01_0_n_n 1024 rfl rfl).symm k) = ix3 p r k :=
    funext fun a => Fin.ext (by
      match a with
      | ⟨0, _⟩ => exact lhs_s_0 _ _
      | ⟨1, _⟩ => exact lhs_s_1 _ _
      | ⟨2, _⟩ => exact (lhs_s_2 _ _).trans hk)
  have er : dot_S8x1024x1024_S1024x1024_S8x1024x1024_2_1_01_0_n_n.rhsIdx (ix3 p r e) ((contrEquiv1 dot_S8x1024x1024_S1024x1024_S8x1024x1024_2_1_01_0_n_n 1024 rfl rfl).symm k) = ix2 e k :=
    funext fun a => Fin.ext (by
      match a with
      | ⟨0, _⟩ => exact rhs_s_0 _ _
      | ⟨1, _⟩ => exact (rhs_s_1 _ _).trans hk)
  rw [el, er]

/-! ### sdᵀ · sd : [1024, 8192] × [8192, 1024] → [1024, 1024], contracting axis 1 with axis 0 -/

theorem lhs_g_0 (i : S1024x1024.Idx) (q : dot_S1024x8192_S8192x1024_S1024x1024_1_0_0_1_n_n.contr.Idx) :
    (dot_S1024x8192_S8192x1024_S1024x1024_1_0_0_1_n_n.lhsIdx i q 0).val = (i 0).val := by
  unfold DotDims.lhsIdx
  rw [dif_neg (show ¬(0 : Fin S1024x8192.rank) ∈ dot_S1024x8192_S8192x1024_S1024x1024_1_0_0_1_n_n.lhsBatch by decide),
    dif_pos (show (0 : Fin S1024x8192.rank) ∈ dot_S1024x8192_S8192x1024_S1024x1024_1_0_0_1_n_n.lhsNonContracting by decide)]
  rfl
theorem lhs_g_1 (i : S1024x1024.Idx) (q : dot_S1024x8192_S8192x1024_S1024x1024_1_0_0_1_n_n.contr.Idx) :
    (dot_S1024x8192_S8192x1024_S1024x1024_1_0_0_1_n_n.lhsIdx i q 1).val = (q ⟨0, by decide⟩).val :=
  dot_S1024x8192_S8192x1024_S1024x1024_1_0_0_1_n_n.lhsIdx_val_of_single rfl i q
theorem rhs_g_0 (i : S1024x1024.Idx) (q : dot_S1024x8192_S8192x1024_S1024x1024_1_0_0_1_n_n.contr.Idx) :
    (dot_S1024x8192_S8192x1024_S1024x1024_1_0_0_1_n_n.rhsIdx i q 0).val = (q ⟨0, by decide⟩).val :=
  dot_S1024x8192_S8192x1024_S1024x1024_1_0_0_1_n_n.rhsIdx_val_of_single rfl i q
theorem rhs_g_1 (i : S1024x1024.Idx) (q : dot_S1024x8192_S8192x1024_S1024x1024_1_0_0_1_n_n.contr.Idx) :
    (dot_S1024x8192_S8192x1024_S1024x1024_1_0_0_1_n_n.rhsIdx i q 1).val = (i 1).val := by
  unfold DotDims.rhsIdx
  rw [dif_neg (show ¬(1 : Fin S8192x1024.rank) ∈ dot_S1024x8192_S8192x1024_S1024x1024_1_0_0_1_n_n.rhsBatch by decide),
    dif_pos (show (1 : Fin S8192x1024.rank) ∈ dot_S1024x8192_S8192x1024_S1024x1024_1_0_0_1_n_n.rhsNonContracting by decide)]
  rfl

/-- The product A · B at (i, j) for A : [1024, 8192], B : [8192, 1024]: row i of A against column j of B. -/
theorem dotG_apply (A : FVec Ideal S1024x8192 .f32) (B : FVec Ideal S8192x1024 .f32) (i j : Fin 1024) :
    Host.dotGeneral dot_S1024x8192_S8192x1024_S1024x1024_1_0_0_1_n_n none A B (ix2 i j) = ∑ n : Fin 8192, A (ix2 i n) * B (ix2 n j) := by
  simp only [Host.dotGeneral]
  rw [Ideal.dotGeneral_apply, ← Equiv.sum_comp (contrEquiv1 dot_S1024x8192_S8192x1024_S1024x1024_1_0_0_1_n_n 8192 rfl rfl).symm]
  refine Finset.sum_congr rfl fun k _ => ?_
  have hk := contrEquiv1_symm_val dot_S1024x8192_S8192x1024_S1024x1024_1_0_0_1_n_n 8192 rfl rfl k
  have el : dot_S1024x8192_S8192x1024_S1024x1024_1_0_0_1_n_n.lhsIdx (ix2 i j) ((contrEquiv1 dot_S1024x8192_S8192x1024_S1024x1024_1_0_0_1_n_n 8192 rfl rfl).symm k) = ix2 i k :=
    funext fun a => Fin.ext (by
      match a with
      | ⟨0, _⟩ => exact lhs_g_0 _ _
      | ⟨1, _⟩ => exact (lhs_g_1 _ _).trans hk)
  have er : dot_S1024x8192_S8192x1024_S1024x1024_1_0_0_1_n_n.rhsIdx (ix2 i j) ((contrEquiv1 dot_S1024x8192_S8192x1024_S1024x1024_1_0_0_1_n_n 8192 rfl rfl).symm k) = ix2 k j :=
    funext fun a => Fin.ext (by
      match a with
      | ⟨0, _⟩ => exact (rhs_g_0 _ _).trans hk
      | ⟨1, _⟩ => exact rhs_g_1 _ _)
  rw [el, er]

/-! ## The one-axis sums from the zero word -/

/-- A column sum of a [8192, 1024] array from the zero word: the sum over the 8192 rows. -/
theorem colSum_apply (y : FVec Ideal S8192x1024 .f32) (i : Fin 1024) :
    Host.reduceAdd y (constant S_ .f32 0x00000000#32) reducesTo_S8192x1024_S1024_d0 h_S_ (ix1 i) = ∑ n : Fin 8192, y (ix2 n i) := by
  simp only [Host.reduceAdd, Ideal.hostReduceAdd_def]
  rw [Ideal.hostReduceAdd_single reducesTo_S8192x1024_S1024_d0 (by decide), constant_apply, Ideal.ofBits_zero_f32, zero_add]
  refine Finset.sum_congr rfl fun k _ => ?_
  exact congrArg y (funext fun a => Fin.ext (by match a with | ⟨0, _⟩ => rfl | ⟨1, _⟩ => rfl))

/-- A row sum of a [8192, 1024] array from the zero word: the sum over the 1024 columns. -/
theorem rowSum_apply (y : FVec Ideal S8192x1024 .f32) (n : Fin 8192) :
    Host.reduceAdd y (constant S_ .f32 0x00000000#32) reducesTo_S8192x1024_S8192_d1 h_S_ (ix1 n) = ∑ i : Fin 1024, y (ix2 n i) := by
  simp only [Host.reduceAdd, Ideal.hostReduceAdd_def]
  rw [Ideal.hostReduceAdd_single reducesTo_S8192x1024_S8192_d1 (by decide), constant_apply, Ideal.ofBits_zero_f32, zero_add]
  refine Finset.sum_congr rfl fun k _ => ?_
  exact congrArg y (funext fun a => Fin.ext (by match a with | ⟨0, _⟩ => rfl | ⟨1, _⟩ => rfl))

/-- The sum of a [8192] array from the zero word. -/
theorem allSum_apply (v : FVec Ideal S8192 .f32) :
    Host.reduceAdd v (constant S_ .f32 0x00000000#32) reducesTo_S8192_S_d0 h_S_ ix0 = ∑ n : Fin 8192, v (ix1 n) := by
  simp only [Host.reduceAdd, Ideal.hostReduceAdd_def]
  rw [Ideal.hostReduceAdd_total reducesTo_S8192_S_d0 (fun b => b.elim0), constant_apply, Ideal.ofBits_zero_f32, zero_add,
    ← Equiv.sum_comp (idxEquiv1 (n := 8192)).symm v]
  rfl

/-! ## The reference's arrays read as the shared arithmetic -/

variable (x : FVec Ideal S8x4096x1024 .f32) (fz : FVec Ideal S2048x1024 .f32) (b : FVec Ideal S2048 .f32)
  (sel : FVec Ideal S8x1024x1024 .f32) (q : FVec Ideal S1024x1024 .f32)

/-- The projected rows as a function of plain coordinates. -/
def sd : Fin 8192 → Fin 1024 → EReal := Cert.Spec.sdAt (Cert.Spec.selRows sel) (Cert.Spec.qOf q)

/-- The first result at (p, l, o): row (p, l) of x against row o of the fused matrix, plus the bias at o, which the
    two broadcasts spread over the leading axes. -/
theorem y_at (p : Fin 8) (l : Fin 4096) (o : Fin 2048) :
    Cert.ReferenceIdeal.RDefs.yRaw (F := Ideal) x fz b (ix3 p l o) = (∑ d : Fin 1024, x (ix3 p l d) * fz (ix2 o d)) + b (ix1 o) := by
  unfold Cert.ReferenceIdeal.RDefs.yRaw
  rw [addf_apply, dotY_apply]
  congr 1
  rw [broadcastInDim_apply (![0, 1, 2] : Fin 3 → Fin 3) bcast_S1x1x2048_S8x4096x2048_0_1_2 _ (ix3 p l o)
      (ix3 (0 : Fin 1) (0 : Fin 1) o) (fun a => by match a with | ⟨0, _⟩ => rfl | ⟨1, _⟩ => rfl | ⟨2, _⟩ => rfl)]
  exact broadcastInDim_apply (![2] : Fin 1 → Fin 3) bcast_S2048_S1x1x2048_2 b (ix3 (0 : Fin 1) (0 : Fin 1) o) (ix1 o)
    (fun a => by match a with | ⟨0, _⟩ => rfl)

/-- Row n of the reshaped projection is row (n / 1024, n % 1024) of the projection: the shared arithmetic's sdAt. -/
theorem sdArr_at (n : Fin 8192) (e : Fin 1024) : Cert.ReferenceIdeal.RDefs.sdArr (F := Ideal) sel q (ix2 n e) = sd sel q n e := by
  unfold Cert.ReferenceIdeal.RDefs.sdArr
  rw [shapeCast_apply _ shapeCasts_S8x1024x1024_S8192x1024 (ix2 n e)
      (ix3 (⟨n.val / 1024, by have := n.isLt; omega⟩ : Fin 8) (⟨n.val % 1024, by omega⟩ : Fin 1024) e) (by
        rw [Shape.rowMajor_val_three, Shape.rowMajor_val_two]
        show (n.val / 1024 * 1024 + n.val % 1024) * 1024 + e.val = n.val * 1024 + e.val
        omega),
    dotS_apply]
  rfl

/-- The squares of the projected rows at (n, e). -/
theorem s2Arr_at (n : Fin 8192) (e : Fin 1024) : Cert.ReferenceIdeal.RDefs.s2Arr (F := Ideal) sel q (ix2 n e) = sd sel q n e * sd sel q n e := by
  unfold Cert.ReferenceIdeal.RDefs.s2Arr
  rw [mulf_apply, sdArr_at]

/-- The raw Gram matrix sdᵀ · sd. -/
theorem gram_eq : Cert.ReferenceIdeal.RDefs.gramRaw (F := Ideal) sel q = Cert.Spec.of2 (Cert.Spec.gram (sd sel q)) := by
  refine Cert.Spec.eq_of2 _ _ fun i j => ?_
  unfold Cert.ReferenceIdeal.RDefs.gramRaw
  rw [dotG_apply]
  unfold Cert.Spec.gram
  refine Finset.sum_congr rfl fun n _ => ?_
  rw [transpose_apply [1, 0] (Cert.ReferenceIdeal.RDefs.sdArr (F := Ideal) sel q) transposes_S8192x1024_S1024x8192_1_0 (ix2 i n) (ix2 n i)
      (fun b => by match b with | ⟨0, _⟩ => rfl | ⟨1, _⟩ => rfl), sdArr_at, sdArr_at]

/-- The raw column sums of squares. -/
theorem sq_eq : Cert.ReferenceIdeal.RDefs.sqRaw (F := Ideal) sel q = Cert.Spec.of1 (Cert.Spec.sqsum (sd sel q)) := by
  refine Cert.Spec.eq_of1 _ _ fun i => ?_
  unfold Cert.ReferenceIdeal.RDefs.sqRaw
  rw [colSum_apply]
  unfold Cert.Spec.sqsum
  refine Finset.sum_congr rfl fun n _ => ?_
  rw [s2Arr_at]

/-- The raw correlation sum: over the rows, the square of the row's sum of squares minus its sum of fourth powers. -/
theorem corr_eq : Cert.ReferenceIdeal.RDefs.corrRaw (F := Ideal) sel q = Cert.Spec.of0 (Cert.Spec.corrSum (sd sel q)) := by
  refine Cert.Spec.eq_of0 _ _ ?_
  unfold Cert.ReferenceIdeal.RDefs.corrRaw
  rw [allSum_apply]
  unfold Cert.Spec.corrSum Cert.Spec.rowCorr
  refine Finset.sum_congr rfl fun n _ => ?_
  rw [subf_apply, mulf_apply, rowSum_apply, rowSum_apply]
  simp only [mulf_apply, s2Arr_at]

/-- The raw whitening sum: over the rows and the columns, the square of the squared entry less the word of one. -/
theorem whit_eq : Cert.ReferenceIdeal.RDefs.whitRaw (F := Ideal) sel q = Cert.Spec.of0 (Cert.Spec.whitSum (sd sel q)) := by
  refine Cert.Spec.eq_of0 _ _ ?_
  unfold Cert.ReferenceIdeal.RDefs.whitRaw
  rw [allSum_apply]
  unfold Cert.Spec.whitSum Cert.Spec.rowWhit
  refine Finset.sum_congr rfl fun n _ => ?_
  rw [rowSum_apply]
  refine Finset.sum_congr rfl fun i _ => ?_
  have hone : broadcastInDim S8192x1024 ![] bcast_S_S8192x1024 (constant (F := Ideal) S_ .f32 0x3F800000#32) (ix2 n i) = Cert.Spec.one :=
    broadcastInDim_apply (![] : Fin 0 → Fin 2) bcast_S_S8192x1024 _ (ix2 n i) ix0 (fun a => a.elim0)
  rw [mulf_apply, subf_apply, s2Arr_at, hone]

end Cert.ReferenceIdeal.RIndex

end
-- ==== Proof.lean ====
/-
  The certificate of the decorrelated linear layer: the kernel program (a row-tiled projection `y = x · (W · Q)ᵀ + b` and a
  statistics kernel that accumulates, over 2 · 4 tiles of 1024 sampled rows, the Gram matrix, the column sums of
  squares, and the correlation and whitening sums of the projected rows `sd = sel · Qᵀ`) against its reference, over
  the extended reals.

  Both programs gather the same sampled rows by the same host operations, project them through the same matrix, and
  finish with the same host chain from the raw statistics to the gradient `½ (M/N − diag(d/N)) + ½ (diag(d/N) − I)` and
  to the two losses `(s/N) · 2⁻²⁰`. Between the two stand only tilings: the first result's 32768 rows are computed in 16
  blocks of 2048, each row the same sum over the 1024 features; each statistic is a sum over the 8192 sampled rows of a
  per-row quantity, which the kernel takes tile by tile, slab by slab, and the reference at once — equal because a sum
  over the rows is the iterated sum over slabs, steps and local rows (addition on the extended reals is commutative
  and associative: no finiteness of the inputs is used, and the gather's index range plays no part, the two programs
  gathering identically). A change of float format is the identity at the extended reals.

  The frames of the two kernel programs are their generated frame certificates; the reference's frame is its run with
  the results dropped. The idealization rewrote nothing, so `preserves` is trivial.
-/
import proofs.«430983_j781684048736_3_alg».proof.Defs
import proofs.«430983_j781684048736_3_alg».proof.Proof.Gen.Kernel
import proofs.«430983_j781684048736_3_alg».proof.Proof.Gen.Kernel.Skeleton
import proofs.«430983_j781684048736_3_alg».proof.Proof.Gen.Kernel.Launch
import proofs.«430983_j781684048736_3_alg».proof.Proof.Gen.Kernel.Points
import proofs.«430983_j781684048736_3_alg».proof.Proof.Gen.Kernel.Frame
import proofs.«430983_j781684048736_3_alg».proof.Proof.Gen.KernelIdeal
import proofs.«430983_j781684048736_3_alg».proof.Proof.Gen.KernelIdeal.Skeleton
import proofs.«430983_j781684048736_3_alg».proof.Proof.Gen.KernelIdeal.Launch
import proofs.«430983_j781684048736_3_alg».proof.Proof.Gen.KernelIdeal.Points
import proofs.«430983_j781684048736_3_alg».proof.Proof.Gen.KernelIdeal.Frame
import proofs.«430983_j781684048736_3_alg».proof.Proof.Gen.ReferenceIdeal
import proofs.«430983_j781684048736_3_alg».proof.Proof.Gen.Pre_finite_inputs
import proofs.«430983_j781684048736_3_alg».proof.Proof.KRun
import proofs.«430983_j781684048736_3_alg».proof.Proof.KValue
import proofs.«430983_j781684048736_3_alg».proof.Proof.RRun
import proofs.«430983_j781684048736_3_alg».proof.Proof.RRead
import proofs.«430983_j781684048736_3_alg».proof.Proof.RRead45
import proofs.«430983_j781684048736_3_alg».proof.Proof.RIndex
import Idealize.ShloMosaic.Adequacy
import Idealize.ShloMosaic.Init

noncomputable section

namespace Cert.Proof

open Idealize.ShloMosaic Idealize.SL.Sem Idealize.ShloMosaic.ValueIdx Idealize.ShloMosaic.StableHlo

/-- Two rank-3 arrays of extended reals are equal when they agree at every triple of plain coordinates. -/
theorem ext3 {a b c : Nat} (f g : (⟨3, ![a, b, c]⟩ : Shape).Idx → EReal)
    (h : ∀ (p : Fin a) (l : Fin b) (o : Fin c), f (ix3 p l o) = g (ix3 p l o)) : f = g :=
  funext fun i => by rw [eq_ix3 i]; exact h _ _ _

theorem frame_k : Cert.frame_Kernel := fun m ρ _ => Cert.Kernel.Gen.frame m ρ

theorem frame_ki : Cert.frame_KernelIdeal := fun m ρ _ => Cert.KernelIdeal.Gen.frame m ρ

/-- The reference's frame: its run, every buffer at the operations' fold over the launch contents, read at the five
    arguments, which no operation writes. -/
theorem frame_ri : Cert.frame_ReferenceIdeal := fun m ρ _ =>
  (θ_run Cert.ReferenceIdeal.defs _ _).mono (fun r h c =>
    ⟨(h c Cert.ReferenceIdeal.main_arg0).trans (Cert.ReferenceIdeal.RRun.arg0_eq _),
     (h c Cert.ReferenceIdeal.main_arg1).trans (Cert.ReferenceIdeal.RRun.arg1_eq _),
     (h c Cert.ReferenceIdeal.main_arg2).trans (Cert.ReferenceIdeal.RRun.arg2_eq _),
     (h c Cert.ReferenceIdeal.main_arg3).trans (Cert.ReferenceIdeal.RRun.arg3_eq _),
     (h c Cert.ReferenceIdeal.main_arg4).trans (Cert.ReferenceIdeal.RRun.arg4_eq _)⟩)
    (Cert.ReferenceIdeal.RRun.run (F := Ideal) m ρ)

theorem preserves : Cert.preserves_Kernel_KernelIdeal := trivial

section Algebraic

open Cert.KernelIdeal.KHost Cert.KernelIdeal.KValue

variable (m : (ℓ : Loc Cert.KernelIdeal.nD Cert.KernelIdeal.τ Cert.KernelIdeal.sig) → Buf (Elt Ideal) ℓ)
variable (Vl : Valuation Cert.ReferenceIdeal.τ Cert.ReferenceIdeal.sig (Elt Ideal)) (c : Dev Cert.KernelIdeal.nD)

/-- When the reference's launch contents agree with the kernel program's on the five arguments, the two fused matrices
    are one array: the same host product of the same two arguments. -/
theorem fused_eq (hW : Cert.ReferenceIdeal.RRead.Wt Vl = Wt m c) (hQ : Cert.ReferenceIdeal.RRead.Q Vl = Q m c) :
    Cert.ReferenceIdeal.RRead.FUSED Vl = FUSED m c := by
  unfold Cert.ReferenceIdeal.RRead.FUSED FUSED
  rw [hW, hQ]
  rfl

/-- … and the two programs' projected sampled rows are one function: the same gather of the same arguments, projected
    through the same matrix. -/
theorem sd_eq (hX : Cert.ReferenceIdeal.RRead.X Vl = X m c) (hQ : Cert.ReferenceIdeal.RRead.Q Vl = Q m c)
    (hI : Cert.ReferenceIdeal.RRead.IDX Vl = IDX m c) :
    Cert.ReferenceIdeal.RIndex.sd (Cert.ReferenceIdeal.RRead.SEL Vl) (Cert.ReferenceIdeal.RRead.Q Vl) = sdK m c := by
  unfold Cert.ReferenceIdeal.RIndex.sd sdK
  show Cert.Spec.sdAt (Cert.Spec.selRows (Cert.Tail.selOf (Cert.ReferenceIdeal.RRead.X Vl) (Cert.ReferenceIdeal.RRead.IDX Vl))) (Cert.Spec.qOf (Cert.ReferenceIdeal.RRead.Q Vl)) = _
  rw [hX, hQ, hI]

end Algebraic

/-- At the extended reals the two programs, run from memories agreeing on the arguments, end with equal results: each
    of the kernel program's four results and each of the reference's is the same function of the arguments. -/
theorem algebraic : Cert.algebraic_KernelIdeal_ReferenceIdeal := by
  intro m ρ m' ρ' _ hagree
  refine ⟨fun c => Cert.KernelIdeal.Gen.W9 m ρ c (Proc.devRef .tc Cert.KernelIdeal.main_v5),
    fun c => Cert.KernelIdeal.Gen.W9 m ρ c (Proc.devRef .tc Cert.KernelIdeal.main_v38),
    fun c => Cert.KernelIdeal.Gen.W9 m ρ c (Proc.devRef .tc Cert.KernelIdeal.main_v40),
    fun c => Cert.KernelIdeal.Gen.W9 m ρ c (Proc.devRef .tc Cert.KernelIdeal.main_v42),
    Cert.KernelIdeal.KRun.run (F := Ideal) m ρ, ?_⟩
  refine (θ_run Cert.ReferenceIdeal.defs _ _).mono (fun r h c => ?_) (Cert.ReferenceIdeal.RRun.run (F := Ideal) m' ρ')
  have hX : Cert.ReferenceIdeal.RRead.X (launchContents m' c) = Cert.KernelIdeal.KHost.X m c := (hagree c).1
  have hW : Cert.ReferenceIdeal.RRead.Wt (launchContents m' c) = Cert.KernelIdeal.KHost.Wt m c := (hagree c).2.1
  have hB : Cert.ReferenceIdeal.RRead.B (launchContents m' c) = Cert.KernelIdeal.KHost.B m c := (hagree c).2.2.1
  have hQ : Cert.ReferenceIdeal.RRead.Q (launchContents m' c) = Cert.KernelIdeal.KHost.Q m c := (hagree c).2.2.2.1
  have hI : Cert.ReferenceIdeal.RRead.IDX (launchContents m' c) = Cert.KernelIdeal.KHost.IDX m c := (hagree c).2.2.2.2
  have hsd := sd_eq m (launchContents m' c) c hX hQ hI
  refine ⟨?_, ?_, ?_, ?_,
    (h c Cert.ReferenceIdeal.main_arg0).trans (Cert.ReferenceIdeal.RRun.arg0_eq _),
    (h c Cert.ReferenceIdeal.main_arg1).trans (Cert.ReferenceIdeal.RRun.arg1_eq _),
    (h c Cert.ReferenceIdeal.main_arg2).trans (Cert.ReferenceIdeal.RRun.arg2_eq _),
    (h c Cert.ReferenceIdeal.main_arg3).trans (Cert.ReferenceIdeal.RRun.arg3_eq _),
    (h c Cert.ReferenceIdeal.main_arg4).trans (Cert.ReferenceIdeal.RRun.arg4_eq _)⟩
  · refine (h c Cert.ReferenceIdeal.main_v4).trans ?_
    refine (Cert.ReferenceIdeal.RRead.res_v4 _).trans ?_
    refine ext3 (a := 8) (b := 4096) (c := 2048) _ _ fun p l o => ?_
    refine ((Cert.ReferenceIdeal.RIndex.y_at _ _ _ p l o).trans ?_).trans (Cert.KernelIdeal.KValue.y_at m ρ c p l o).symm
    rw [hX, hB, fused_eq m (launchContents m' c) c hW hQ]
  · refine (h c Cert.ReferenceIdeal.main_v45).trans ?_
    refine (Cert.ReferenceIdeal.RRead45.res_v45 _).trans ?_
    have hsd45 : Cert.ReferenceIdeal.RIndex.sd (Cert.ReferenceIdeal.RRead45.SEL (launchContents m' c)) (Cert.ReferenceIdeal.RRead45.Q (launchContents m' c))
        = Cert.KernelIdeal.KValue.sdK m c := hsd
    rw [Cert.ReferenceIdeal.RIndex.gram_eq, Cert.ReferenceIdeal.RIndex.sq_eq, hsd45]
    exact (Cert.KernelIdeal.KValue.grad_eq m ρ c).symm
  · refine (h c Cert.ReferenceIdeal.main_v17).trans ?_
    refine (Cert.ReferenceIdeal.RRead.res_v17 _).trans ?_
    rw [Cert.ReferenceIdeal.RIndex.corr_eq, hsd]
    exact (Cert.KernelIdeal.KValue.corr_eq m ρ c).symm
  · refine (h c Cert.ReferenceIdeal.main_v24).trans ?_
    refine (Cert.ReferenceIdeal.RRead.res_v24 _).trans ?_
    rw [Cert.ReferenceIdeal.RIndex.whit_eq, hsd]
    exact (Cert.KernelIdeal.KValue.whit_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
